-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S1000x256 : Shape := ⟨2, ![1000, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x256 .f32) (main_arg1 : IVec S262144 32) (main_arg2 : FVec F S1000x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1000x256 .f32 := Host.absf main_arg2
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg1 main_v9
  let main_c_3 : IVec S_ 32 := constantI S_ 32 1000#32
  let main_v11 : IVec S262144 32 := broadcastInDim S262144 ![] bcast_S_S262144 main_c_3
  let main_v12 : IVec S262144 1 := cmpi .slt main_arg1 main_v11
  let main_v13 : IVec S262144 1 := andi main_v10 main_v12
  let main_c_4 : IVec S_ 1 := constantI S_ 1 1#1
  let main_v14 : IVec S_ 1 := (fun x v => Host.reduce IntOp.andi x v reducesTo_S262144_S_d0 h_S_) main_v13 main_c_4
  let main_v15 : IVec S_ 1 := andi main_v8 main_v14
  main_v15
-- ==== Kernel.lean ====
abbrev S262144x256 : Shape := ⟨2, ![262144, 256]⟩
abbrev S262144 : Shape := ⟨1, ![262144]⟩
abbrev S1000x256 : Shape := ⟨2, ![1000, 256]⟩
abbrev S262144x1 : Shape := ⟨2, ![262144, 1]⟩
abbrev S2x1000x256 : Shape := ⟨3, ![2, 1000, 256]⟩
abbrev S2x1x1000 : Shape := ⟨3, ![2, 1, 1000]⟩
abbrev S2048x256 : Shape := ⟨2, ![2048, 256]⟩
abbrev S2048x1 : Shape := ⟨2, ![2048, 1]⟩
abbrev S1x1000x256 : Shape := ⟨3, ![1, 1000, 256]⟩
abbrev S1x1x1000 : Shape := ⟨3, ![1, 1, 1000]⟩
abbrev S1x1000 : Shape := ⟨2, ![1, 1000]⟩
abbrev S2048 : Shape := ⟨1, ![2048]⟩
abbrev S2048x1000 : Shape := ⟨2, ![2048, 1000]⟩
abbrev S_ : Shape := ⟨0, ![]⟩
abbrev S1000 : Shape := ⟨1, ![1000]⟩
abbrev S1000x1 : Shape := ⟨2, ![1000, 1]⟩
abbrev S2x1x1 : Shape := ⟨3, ![2, 1, 1]⟩
abbrev S1x1x1 : Shape := ⟨3, ![1, 1, 1]⟩
abbrev S1x1 : Shape := ⟨2, ![1, 1]⟩
abbrev S1 : Shape := ⟨1, ![1]⟩

abbrev nBuf : Space → Nat
  | .hbm => 64
  | .vmem => 15
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x256, .f32⟩
  | .hbm, ⟨3, _⟩ => ⟨S262144x1, .i32⟩
  | .hbm, ⟨4, _⟩ => ⟨S2x1000x256, .f32⟩
  | .hbm, ⟨5, _⟩ => ⟨S2x1x1000, .f32⟩
  | .hbm, ⟨6, _⟩ => ⟨S_, .f32⟩
  | .hbm, ⟨7, _⟩ => ⟨S1000x256, .f32⟩
  | .hbm, ⟨8, _⟩ => ⟨S_, .f32⟩
  | .hbm, ⟨9, _⟩ => ⟨S1x1000, .f32⟩
  | .hbm, ⟨10, _⟩ => ⟨S1000, .f32⟩
  | .hbm, ⟨11, _⟩ => ⟨S_, .f32⟩
  | .hbm, ⟨12, _⟩ => ⟨S1000, .f32⟩
  | .hbm, ⟨13, _⟩ => ⟨S1000, .i1⟩
  | .hbm, ⟨14, _⟩ => ⟨S1000, .f32⟩
  | .hbm, ⟨15, _⟩ => ⟨S1000x1, .f32⟩
  | .hbm, ⟨16, _⟩ => ⟨S1000x256, .f32⟩
  | .hbm, ⟨17, _⟩ => ⟨S_, .f32⟩
  | .hbm, ⟨18, _⟩ => ⟨S1000, .f32⟩
  | .hbm, ⟨19, _⟩ => ⟨S1000x1, .f32⟩
  | .hbm, ⟨20, _⟩ => ⟨S1000x1, .f32⟩
  | .hbm, ⟨21, _⟩ => ⟨S_, .f32⟩
  | .hbm, ⟨22, _⟩ => ⟨S1000x1, .f32⟩
  | .hbm, ⟨23, _⟩ => ⟨S1000x1, .f32⟩
  | .hbm, ⟨24, _⟩ => ⟨S1000x256, .f32⟩
  | .hbm, ⟨25, _⟩ => ⟨S1000x256, .f32⟩
  | .hbm, ⟨26, _⟩ => ⟨S1000x256, .f32⟩
  | .hbm, ⟨27, _⟩ => ⟨S1000x256, .f32⟩
  | .hbm, ⟨28, _⟩ => ⟨S1000x256, .f32⟩
  | .hbm, ⟨29, _⟩ => ⟨S_, .f32⟩
  | .hbm, ⟨30, _⟩ => ⟨S1000, .f32⟩
  | .hbm, ⟨31, _⟩ => ⟨S1000x1, .f32⟩
  | .hbm, ⟨32, _⟩ => ⟨S_, .f32⟩
  | .hbm, ⟨33, _⟩ => ⟨S1000x1, .f32⟩
  | .hbm, ⟨34, _⟩ => ⟨S1000x1, .f32⟩
  | .hbm, ⟨35, _⟩ => ⟨S1000x1, .f32⟩
  | .hbm, ⟨36, _⟩ => ⟨S_, .f32⟩
  | .hbm, ⟨37, _⟩ => ⟨S1000x1, .f32⟩
  | .hbm, ⟨38, _⟩ => ⟨S1000x1, .f32⟩
  | .hbm, ⟨39, _⟩ => ⟨S1000x256, .f32⟩
  | .hbm, ⟨40, _⟩ => ⟨S1000x256, .f32⟩
  | .hbm, ⟨41, _⟩ => ⟨S_, .f32⟩
  | .hbm, ⟨42, _⟩ => ⟨S1000x1, .f32⟩
  | .hbm, ⟨43, _⟩ => ⟨S1000x1, .f32⟩
  | .hbm, ⟨44, _⟩ => ⟨S1000x256, .f32⟩
  | .hbm, ⟨45, _⟩ => ⟨S1000x256, .f32⟩
  | .hbm, ⟨46, _⟩ => ⟨S1000x256, .f32⟩
  | .hbm, ⟨47, _⟩ => ⟨S1000x256, .f32⟩
  | .hbm, ⟨48, _⟩ => ⟨S_, .f32⟩
  | .hbm, ⟨49, _⟩ => ⟨S1000, .f32⟩
  | .hbm, ⟨50, _⟩ => ⟨S1000x1, .f32⟩
  | .hbm, ⟨51, _⟩ => ⟨S1000x1, .f32⟩
  | .hbm, ⟨52, _⟩ => ⟨S_, .f32⟩
  | .hbm, ⟨53, _⟩ => ⟨S1000x1, .f32⟩
  | .hbm, ⟨54, _⟩ => ⟨S1000x1, .f32⟩
  | .hbm, ⟨55, _⟩ => ⟨S1000x256, .f32⟩
  | .hbm, ⟨56, _⟩ => ⟨S1000x256, .f32⟩
  | .hbm, ⟨57, _⟩ => ⟨S1000x256, .bf16⟩
  | .hbm, ⟨58, _⟩ => ⟨S2x1x1, .f32⟩
  | .hbm, ⟨59, _⟩ => ⟨S_, .f32⟩
  | .hbm, ⟨60, _⟩ => ⟨S1x1, .f32⟩
  | .hbm, ⟨61, _⟩ => ⟨S_, .f32⟩
  | .hbm, ⟨62, _⟩ => ⟨S_, .f32⟩
  | .hbm, ⟨63, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x1, .i32⟩
  | .local _ .vmem, ⟨3, _⟩ => ⟨S2048x1, .i32⟩
  | .local _ .vmem, ⟨4, _⟩ => ⟨S1x1000x256, .f32⟩
  | .local _ .vmem, ⟨5, _⟩ => ⟨S1x1000x256, .f32⟩
  | .local _ .vmem, ⟨6, _⟩ => ⟨S1x1x1000, .f32⟩
  | .local _ .vmem, ⟨7, _⟩ => ⟨S1x1x1000, .f32⟩
  | .local _ .vmem, ⟨8, _⟩ => ⟨S2048x256, .f32⟩
  | .local _ .vmem, ⟨9, _⟩ => ⟨S2048x256, .f32⟩
  | .local _ .vmem, ⟨10, _⟩ => ⟨S2048x1, .i32⟩
  | .local _ .vmem, ⟨11, _⟩ => ⟨S2048x1, .i32⟩
  | .local _ .vmem, ⟨12, _⟩ => ⟨S1000x256, .bf16⟩
  | .local _ .vmem, ⟨13, _⟩ => ⟨S1x1x1, .f32⟩
  | .local _ .vmem, ⟨14, _⟩ => ⟨S1x1x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 64], ![false, false]⟩

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1000x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S262144_S262144x1 : S262144.ShapeCasts S262144x1
  inb_S1x1000x256_S1x1000x256_0_0_0 : ∀ a, (![0, 0, 0] : Fin 3 → Nat) a + S1x1000x256.size a ≤ S1x1000x256.size a
  h_S1x1000x256 : 0 < S1x1000x256.numel
  shapeCasts_S1x1000x256_S1000x256 : S1x1000x256.ShapeCasts S1000x256
  shapeCasts_S1000x256_S1x1000x256 : S1000x256.ShapeCasts S1x1000x256
  inb_S1x1x1000_S1x1x1000_0_0_0 : ∀ a, (![0, 0, 0] : Fin 3 → Nat) a + S1x1x1000.size a ≤ S1x1x1000.size a
  h_S1x1x1000 : 0 < S1x1x1000.numel
  shapeCasts_S1x1x1000_S1x1000 : S1x1x1000.ShapeCasts S1x1000
  shapeCasts_S1x1000_S1x1x1000 : S1x1000.ShapeCasts S1x1x1000
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1000_d1_w32 : S2048x1000.Iotas .tc 32 [1]
  broadcasts_S2048x1_S2048x1000 : S2048x1.Broadcasts S2048x1000
  natLt_1_32 : 1 < 32
  reducesTo_S2x1000x256_S1000x256_d0 : S2x1000x256.ReducesTo [0] S1000x256
  h_S_ : 0 < S_.numel
  reducesTo_S2x1x1000_S1x1000_d0 : S2x1x1000.ReducesTo [0] S1x1000
  shapeCasts_S1x1000_S1000 : S1x1000.ShapeCasts S1000
  bcast_S_S1000 : S_.BroadcastsInDim S1000 (![] : Fin 0 → Fin S1000.rank)
  shapeCasts_S1000_S1000x1 : S1000.ShapeCasts S1000x1
  reducesTo_S1000x256_S1000_d1 : S1000x256.ReducesTo [1] S1000
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x256_0_1 : S1000x1.BroadcastsInDim S1000x256 (![0, 1] : Fin 2 → Fin S1000x256.rank)
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  reduces_S2048x1000_S2048 : S2048x1000.Reduces [1] S2048
  reduces_S2048x1_S1 : S2048x1.Reduces [0] S1
  shapeCasts_S1_S1x1 : S1.ShapeCasts S1x1
  reducesTo_S2x1x1_S1x1_d0 : S2x1x1.ReducesTo [0] S1x1
  shapeCasts_S1x1_S_ : S1x1.ShapeCasts S_
  dot_S2048x1000_S2048x256_S1000x256_0_0_1_1_n_n_wf : DotDims.WF S2048x1000 S2048x256 S1000x256 [0] [0] [1] [1] [] []
  dot_S2048x1_S2048x1000_S1x1000_0_0_1_1_n_n_wf : DotDims.WF S2048x1 S2048x1000 S1x1000 [0] [0] [1] [1] [] []
  dot_S2048x256_S1000x256_S2048x1000_1_1_0_0_n_n_wf : DotDims.WF S2048x256 S1000x256 S2048x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .i32 = 32 ∨ (Rect.block (s := S262144x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x256.size a ≤ S2x1000x256.size a
  hwx0_2 : ∀ i : grid0.Coords, EltTy.bits .f32 = 32 ∨ (Rect.block (s := S2x1000x256) S1x1000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1000.size a ≤ S2x1x1000.size a
  hwx0_3 : ∀ i : grid0.Coords, EltTy.bits .f32 = 32 ∨ (Rect.block (s := S2x1x1000) S1x1x1000.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S262144x256.size a
  hwx1_0 : ∀ i : grid1.Coords, EltTy.bits .f32 = 32 ∨ (Rect.block (s := S262144x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S262144x1.size a
  hwx1_1 : ∀ i : grid1.Coords, EltTy.bits .i32 = 32 ∨ (Rect.block (s := S262144x1) S2048x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S1000x256.size a
  hwx1_2 : ∀ i : grid1.Coords, EltTy.bits .bf16 = 32 ∨ (Rect.block (s := S1000x256) S1000x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2x1x1.size a
  hwx1_3 : ∀ i : grid1.Coords, EltTy.bits .f32 = 32 ∨ (Rect.block (s := S2x1x1) S1x1x1.size (cc1_transform_3 i) (hinb1_3 i)).WholeWords (EltTy.packing .f32)

variable [Facts₀]

def dot_S2048x1000_S2048x256_S1000x256_0_0_1_1_n_n : DotDims S2048x1000 S2048x256 S1000x256 where
  lhsContracting := [0]
  rhsContracting := [0]
  lhsNonContracting := [1]
  rhsNonContracting := [1]
  lhsBatch := []
  rhsBatch := []
  wf := dot_S2048x1000_S2048x256_S1000x256_0_0_1_1_n_n_wf
def dot_S2048x1_S2048x1000_S1x1000_0_0_1_1_n_n : DotDims S2048x1 S2048x1000 S1x1000 where
  lhsContracting := [0]
  rhsContracting := [0]
  lhsNonContracting := [1]
  rhsNonContracting := [1]
  lhsBatch := []
  rhsBatch := []
  wf := dot_S2048x1_S2048x1000_S1x1000_0_0_1_1_n_n_wf
def dot_S2048x256_S1000x256_S2048x1000_1_1_0_0_n_n : DotDims S2048x256 S1000x256 S2048x1000 where
  lhsContracting := [1]
  rhsContracting := [1]
  lhsNonContracting := [0]
  rhsNonContracting := [0]
  lhsBatch := []
  rhsBatch := []
  wf := dot_S2048x256_S1000x256_S2048x1000_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1000x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x256 : Shape := ⟨2, ![262144, 256]⟩
abbrev S262144 : Shape := ⟨1, ![262144]⟩
abbrev S1000x256 : Shape := ⟨2, ![1000, 256]⟩
abbrev S_ : Shape := ⟨0, ![]⟩
abbrev S262144x1 : Shape := ⟨2, ![262144, 1]⟩
abbrev S1000 : Shape := ⟨1, ![1000]⟩
abbrev S1000x1 : Shape := ⟨2, ![1000, 1]⟩
abbrev S256x1000 : Shape := ⟨2, ![256, 1000]⟩
abbrev S262144x1000 : Shape := ⟨2, ![262144, 1000]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 117
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x256, .f32⟩
  | .hbm, ⟨3, _⟩ => ⟨S262144x256, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S262144x1, .f32⟩
  | .hbm, ⟨8, _⟩ => ⟨S_, .f32⟩
  | .hbm, ⟨9, _⟩ => ⟨S262144x1, .f32⟩
  | .hbm, ⟨10, _⟩ => ⟨S262144x1, .f32⟩
  | .hbm, ⟨11, _⟩ => ⟨S262144x256, .f32⟩
  | .hbm, ⟨12, _⟩ => ⟨S262144x256, .f32⟩
  | .hbm, ⟨13, _⟩ => ⟨S_, .f32⟩
  | .hbm, ⟨14, _⟩ => ⟨S1000x256, .f32⟩
  | .hbm, ⟨15, _⟩ => ⟨S262144x1, .i32⟩
  | .hbm, ⟨16, _⟩ => ⟨S1000x256, .f32⟩
  | .hbm, ⟨17, _⟩ => ⟨S_, .f32⟩
  | .hbm, ⟨18, _⟩ => ⟨S262144, .f32⟩
  | .hbm, ⟨19, _⟩ => ⟨S_, .f32⟩
  | .hbm, ⟨20, _⟩ => ⟨S1000, .f32⟩
  | .hbm, ⟨21, _⟩ => ⟨S262144x1, .i32⟩
  | .hbm, ⟨22, _⟩ => ⟨S1000, .f32⟩
  | .hbm, ⟨23, _⟩ => ⟨S_, .f32⟩
  | .hbm, ⟨24, _⟩ => ⟨S1000, .f32⟩
  | .hbm, ⟨25, _⟩ => ⟨S1000, .i1⟩
  | .hbm, ⟨26, _⟩ => ⟨S1000, .f32⟩
  | .hbm, ⟨27, _⟩ => ⟨S1000x1, .f32⟩
  | .hbm, ⟨28, _⟩ => ⟨S1000x256, .f32⟩
  | .hbm, ⟨29, _⟩ => ⟨S_, .f32⟩
  | .hbm, ⟨30, _⟩ => ⟨S1000, .f32⟩
  | .hbm, ⟨31, _⟩ => ⟨S1000x1, .f32⟩
  | .hbm, ⟨32, _⟩ => ⟨S1000x1, .f32⟩
  | .hbm, ⟨33, _⟩ => ⟨S_, .f32⟩
  | .hbm, ⟨34, _⟩ => ⟨S1000x1, .f32⟩
  | .hbm, ⟨35, _⟩ => ⟨S1000x1, .f32⟩
  | .hbm, ⟨36, _⟩ => ⟨S1000x256, .f32⟩
  | .hbm, ⟨37, _⟩ => ⟨S1000x256, .f32⟩
  | .hbm, ⟨38, _⟩ => ⟨S1000x256, .f32⟩
  | .hbm, ⟨39, _⟩ => ⟨S1000x256, .f32⟩
  | .hbm, ⟨40, _⟩ => ⟨S1000x256, .f32⟩
  | .hbm, ⟨41, _⟩ => ⟨S_, .f32⟩
  | .hbm, ⟨42, _⟩ => ⟨S1000, .f32⟩
  | .hbm, ⟨43, _⟩ => ⟨S1000x1, .f32⟩
  | .hbm, ⟨44, _⟩ => ⟨S_, .f32⟩
  | .hbm, ⟨45, _⟩ => ⟨S1000x1, .f32⟩
  | .hbm, ⟨46, _⟩ => ⟨S1000x1, .f32⟩
  | .hbm, ⟨47, _⟩ => ⟨S1000x1, .f32⟩
  | .hbm, ⟨48, _⟩ => ⟨S_, .f32⟩
  | .hbm, ⟨49, _⟩ => ⟨S1000x1, .f32⟩
  | .hbm, ⟨50, _⟩ => ⟨S1000x1, .f32⟩
  | .hbm, ⟨51, _⟩ => ⟨S1000x256, .f32⟩
  | .hbm, ⟨52, _⟩ => ⟨S1000x256, .f32⟩
  | .hbm, ⟨53, _⟩ => ⟨S_, .f32⟩
  | .hbm, ⟨54, _⟩ => ⟨S1000x1, .f32⟩
  | .hbm, ⟨55, _⟩ => ⟨S1000x1, .f32⟩
  | .hbm, ⟨56, _⟩ => ⟨S1000x256, .f32⟩
  | .hbm, ⟨57, _⟩ => ⟨S1000x256, .f32⟩
  | .hbm, ⟨58, _⟩ => ⟨S1000x256, .f32⟩
  | .hbm, ⟨59, _⟩ => ⟨S1000x256, .f32⟩
  | .hbm, ⟨60, _⟩ => ⟨S_, .f32⟩
  | .hbm, ⟨61, _⟩ => ⟨S1000, .f32⟩
  | .hbm, ⟨62, _⟩ => ⟨S1000x1, .f32⟩
  | .hbm, ⟨63, _⟩ => ⟨S1000x1, .f32⟩
  | .hbm, ⟨64, _⟩ => ⟨S_, .f32⟩
  | .hbm, ⟨65, _⟩ => ⟨S1000x1, .f32⟩
  | .hbm, ⟨66, _⟩ => ⟨S1000x1, .f32⟩
  | .hbm, ⟨67, _⟩ => ⟨S1000x256, .f32⟩
  | .hbm, ⟨68, _⟩ => ⟨S1000x256, .f32⟩
  | .hbm, ⟨69, _⟩ => ⟨S256x1000, .f32⟩
  | .hbm, ⟨70, _⟩ => ⟨S262144x1000, .f32⟩
  | .hbm, ⟨71, _⟩ => ⟨S_, .f32⟩
  | .hbm, ⟨72, _⟩ => ⟨S262144x1000, .f32⟩
  | .hbm, ⟨73, _⟩ => ⟨S262144x1000, .f32⟩
  | .hbm, ⟨74, _⟩ => ⟨S_, .f32⟩
  | .hbm, ⟨75, _⟩ => ⟨S262144, .f32⟩
  | .hbm, ⟨76, _⟩ => ⟨S_, .f32⟩
  | .hbm, ⟨77, _⟩ => ⟨S262144, .f32⟩
  | .hbm, ⟨78, _⟩ => ⟨S262144, .f32⟩
  | .hbm, ⟨79, _⟩ => ⟨S262144x1, .f32⟩
  | .hbm, ⟨80, _⟩ => ⟨S262144x1000, .f32⟩
  | .hbm, ⟨81, _⟩ => ⟨S262144x1000, .f32⟩
  | .hbm, ⟨82, _⟩ => ⟨S262144x1000, .f32⟩
  | .hbm, ⟨83, _⟩ => ⟨S_, .f32⟩
  | .hbm, ⟨84, _⟩ => ⟨S262144, .f32⟩
  | .hbm, ⟨85, _⟩ => ⟨S262144x1, .f32⟩
  | .hbm, ⟨86, _⟩ => ⟨S262144x1, .f32⟩
  | .hbm, ⟨87, _⟩ => ⟨S262144x1000, .f32⟩
  | .hbm, ⟨88, _⟩ => ⟨S262144x1000, .f32⟩
  | .hbm, ⟨89, _⟩ => ⟨S262144x1, .i32⟩
  | .hbm, ⟨90, _⟩ => ⟨S_, .i32⟩
  | .hbm, ⟨91, _⟩ => ⟨S262144x1, .i32⟩
  | .hbm, ⟨92, _⟩ => ⟨S262144x1, .i1⟩
  | .hbm, ⟨93, _⟩ => ⟨S_, .i32⟩
  | .hbm, ⟨94, _⟩ => ⟨S262144x1, .i32⟩
  | .hbm, ⟨95, _⟩ => ⟨S262144x1, .i32⟩
  | .hbm, ⟨96, _⟩ => ⟨S262144x1, .i32⟩
  | .hbm, ⟨97, _⟩ => ⟨S262144x1x1, .i32⟩
  | .hbm, ⟨98, _⟩ => ⟨S1, .i32⟩
  | .hbm, ⟨99, _⟩ => ⟨S_, .i32⟩
  | .hbm, ⟨100, _⟩ => ⟨S262144x1x1, .i32⟩
  | .hbm, ⟨101, _⟩ => ⟨S262144x1x1, .i1⟩
  | .hbm, ⟨102, _⟩ => ⟨S1x1x1, .i32⟩
  | .hbm, ⟨103, _⟩ => ⟨S262144x1x1, .i32⟩
  | .hbm, ⟨104, _⟩ => ⟨S262144x1x1, .i1⟩
  | .hbm, ⟨105, _⟩ => ⟨S262144x1x1, .i1⟩
  | .hbm, ⟨106, _⟩ => ⟨S_, .i1⟩
  | .hbm, ⟨107, _⟩ => ⟨S262144x1, .i1⟩
  | .hbm, ⟨108, _⟩ => ⟨S262144x1, .f32⟩
  | .hbm, ⟨109, _⟩ => ⟨S_, .f32⟩
  | .hbm, ⟨110, _⟩ => ⟨S262144x1, .f32⟩
  | .hbm, ⟨111, _⟩ => ⟨S262144x1, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_call1_v2 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call2_v0 : Ref sig .tc := ⟨.hbm, 59, rfl⟩
abbrev main_call2_cst : Ref sig .tc := ⟨.hbm, 60, rfl⟩
abbrev main_call2_v1 : Ref sig .tc := ⟨.hbm, 61, rfl⟩
abbrev main_call2_v2 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_call3_cst : Ref sig .tc := ⟨.hbm, 74, rfl⟩
abbrev main_call3_v0 : Ref sig .tc := ⟨.hbm, 75, rfl⟩
abbrev main_call3_cst_0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_cst_1 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_v47 : Ref sig .tc := ⟨.hbm, 88, rfl⟩
abbrev main_v48 : Ref sig .tc := ⟨.hbm, 89, rfl⟩
abbrev main_call4_c : Ref sig .tc := ⟨.hbm, 90, rfl⟩
abbrev main_call4_v0 : Ref sig .tc := ⟨.hbm, 91, rfl⟩
abbrev main_call4_v1 : Ref sig .tc := ⟨.hbm, 92, rfl⟩
abbrev main_call4_c_0 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_c_1 : Ref sig .tc := ⟨.hbm, 98, rfl⟩
abbrev main_call4_c_2 : Ref sig .tc := ⟨.hbm, 99, rfl⟩
abbrev main_call4_v6 : Ref sig .tc := ⟨.hbm, 100, rfl⟩
abbrev main_call4_v7 : Ref sig .tc := ⟨.hbm, 101, rfl⟩
abbrev main_call4_v8 : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_c_3 : Ref sig .tc := ⟨.hbm, 106, rfl⟩
abbrev main_call4_v12 : Ref sig .tc := ⟨.hbm, 107, rfl⟩
abbrev main_call4_v13 : Ref sig .tc := ⟨.hbm, 108, rfl⟩
abbrev main_call4_cst : Ref sig .tc := ⟨.hbm, 109, rfl⟩
abbrev main_call4_v14 : Ref sig .tc := ⟨.hbm, 110, rfl⟩
abbrev main_v49 : Ref sig .tc := ⟨.hbm, 111, rfl⟩
abbrev main_cst_11 : Ref sig .tc := ⟨.hbm, 112, rfl⟩
abbrev main_v50 : Ref sig .tc := ⟨.hbm, 113, rfl⟩
abbrev main_cst_12 : Ref sig .tc := ⟨.hbm, 114, rfl⟩
abbrev main_v51 : Ref sig .tc := ⟨.hbm, 115, rfl⟩
abbrev main_v52 : Ref sig .tc := ⟨.hbm, 116, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x256_0_1 : S262144x1.BroadcastsInDim S262144x256 (![0, 1] : Fin 2 → Fin S262144x256.rank)
  bcast_S_S1000x256 : S_.BroadcastsInDim S1000x256 (![] : Fin 0 → Fin S1000x256.rank)
  bcast_S_S262144 : S_.BroadcastsInDim S262144 (![] : Fin 0 → Fin S262144.rank)
  bcast_S_S1000 : S_.BroadcastsInDim S1000 (![] : Fin 0 → Fin S1000.rank)
  bcast_S1000_S1000x1_0 : S1000.BroadcastsInDim S1000x1 (![0] : Fin 1 → Fin S1000x1.rank)
  reducesTo_S1000x256_S1000_d1 : S1000x256.ReducesTo [1] S1000
  bcast_S_S1000x1 : S_.BroadcastsInDim S1000x1 (![] : Fin 0 → Fin S1000x1.rank)
  bcast_S1000x1_S1000x256_0_1 : S1000x1.BroadcastsInDim S1000x256 (![0, 1] : Fin 2 → Fin S1000x256.rank)
  transposes_S1000x256_S256x1000_1_0 : S1000x256.Transposes [1, 0] S256x1000
  bcast_S_S262144x1000 : S_.BroadcastsInDim S262144x1000 (![] : Fin 0 → Fin S262144x1000.rank)
  reducesTo_S262144x1000_S262144_d1 : S262144x1000.ReducesTo [1] S262144
  bcast_S262144x1_S262144x1000_0_1 : S262144x1.BroadcastsInDim S262144x1000 (![0, 1] : Fin 2 → Fin S262144x1000.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  reducesTo_S262144x1_S_d0_1 : S262144x1.ReducesTo [0, 1] S_
  scatter_S1000x256_S262144x1_S262144x256_1_0_0_1_wf : ScatterDims.WF S1000x256 S262144x1 S262144x256 [1] [0] [0] 1
  scatter_S1000_S262144x1_S262144_n_0_0_1_wf : ScatterDims.WF S1000 S262144x1 S262144 [] [0] [0] 1
  dot_S262144x256_S256x1000_S262144x1000_1_0_0_1_n_n_wf : DotDims.WF S262144x256 S256x1000 S262144x1000 [1] [0] [0] [1] [] []
  gather_S262144x1000_S262144x1x1_S262144x1_n_1_0_0_1_2_11_wf : GatherDims.WF S262144x1000 S262144x1x1 S262144x1 [] [1] [0] [1] [0] 2 ![1, 1]

variable [Facts₀]

def scatter_S1000x256_S262144x1_S262144x256_1_0_0_1 : ScatterDims S1000x256 S262144x1 S262144x256 where
  updateWindowDims := [1]
  insertedWindowDims := [0]
  scatterDimsToOperandDims := [0]
  indexVectorDim := 1
  wf := scatter_S1000x256_S262144x1_S262144x256_1_0_0_1_wf
def scatter_S1000_S262144x1_S262144_n_0_0_1 : ScatterDims S1000 S262144x1 S262144 where
  updateWindowDims := []
  insertedWindowDims := [0]
  scatterDimsToOperandDims := [0]
  indexVectorDim := 1
  wf := scatter_S1000_S262144x1_S262144_n_0_0_1_wf
def dot_S262144x256_S256x1000_S262144x1000_1_0_0_1_n_n : DotDims S262144x256 S256x1000 S262144x1000 where
  lhsContracting := [1]
  rhsContracting := [0]
  lhsNonContracting := [0]
  rhsNonContracting := [1]
  lhsBatch := []
  rhsBatch := []
  wf := dot_S262144x256_S256x1000_S262144x1000_1_0_0_1_n_n_wf
def gather_S262144x1000_S262144x1x1_S262144x1_n_1_0_0_1_2_11 : GatherDims S262144x1000 S262144x1x1 S262144x1 where
  offsetDims := []
  collapsedSliceDims := [1]
  operandBatchingDims := [0]
  startIndicesBatchingDims := [0]
  startIndexMap := [1]
  indexVectorDim := 2
  sliceSizes := ![1, 1]
  wf := gather_S262144x1000_S262144x1x1_S262144x1_n_1_0_0_1_2_11_wf

class Facts : Prop extends Facts₀ where

variable [Facts]
-- ==== Proof.RefStages.lean ====
/-
  The reference's run, stage by stage.  Its 114 host operations are cut into seven stretches: the normalised
  features with the class totals and flags; the mixed class rows; their renormalisation; the logits; the row maxima
  with the shifted logits and their exponentials; the log-probabilities; the labels' log-probabilities and their
  negated mean.  From any contents, each stretch leaves in
  the buffers later stretches read the stage functions of the three arguments, and writes no argument; chained, the
  whole list leaves the two results at their stages and the arguments as launched.
-/
import proofs.«407345_j1580547965106_3_alg».proof.Proof.RefOps
import proofs.«407345_j1580547965106_3_alg».proof.Proof.RefRead

noncomputable section

namespace Cert.ReferenceIdeal.StageRun

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

/-- Operations 0 to 24 of the list. -/
abbrev opsP : List (HloOp τ sig (Elt F)) :=
  [ TRef.binary (TRef.of (T := ⟨S262144x256, .f32⟩) main_arg0) (TRef.of (T := ⟨S262144x256, .f32⟩) main_arg0) (TRef.of (T := ⟨S262144x256, .f32⟩) main_call0_v0) mulf,
    TRef.nullary (TRef.of (T := ⟨S_, .f32⟩) main_call0_cst) (constant S_ .f32 0x00000000#32),
    TRef.binary (TRef.of (T := ⟨S262144x256, .f32⟩) main_call0_v0) (TRef.of (T := ⟨S_, .f32⟩) main_call0_cst) (TRef.of (T := ⟨S262144, .f32⟩) main_call0_v1) (fun x v => Host.reduceAdd x v reducesTo_S262144x256_S262144_d1 h_S_),
    TRef.unary (TRef.of (T := ⟨S262144, .f32⟩) main_call0_v1) (TRef.of (T := ⟨S262144x1, .f32⟩) main_call0_v2) (broadcastInDim S262144x1 ![0] bcast_S262144_S262144x1_0),
    TRef.unary (TRef.of (T := ⟨S262144x1, .f32⟩) main_call0_v2) (TRef.of (T := ⟨S262144x1, .f32⟩) main_v0) Host.sqrt,
    nullary main_cst (constant S_ .f32 0x2B8CBCCC#32),
    unary main_cst main_v1 (broadcastInDim S262144x1 ![] bcast_S_S262144x1 : (⟨S_, .f32⟩ : BufTy).Contents (Elt F) → (⟨S262144x1, .f32⟩ : BufTy).Contents (Elt F)),
    binary main_v0 main_v1 main_v2 (maximumf : (⟨S262144x1, .f32⟩ : BufTy).Contents (Elt F) → (⟨S262144x1, .f32⟩ : BufTy).Contents (Elt F) → (⟨S262144x1, .f32⟩ : BufTy).Contents (Elt F)),
    unary main_v2 main_v3 (broadcastInDim S262144x256 ![0, 1] bcast_S262144x1_S262144x256_0_1 : (⟨S262144x1, .f32⟩ : BufTy).Contents (Elt F) → (⟨S262144x256, .f32⟩ : BufTy).Contents (Elt F)),
    binary main_arg0 main_v3 main_v4 (Host.divf : (⟨S262144x256, .f32⟩ : BufTy).Contents (Elt F) → (⟨S262144x256, .f32⟩ : BufTy).Contents (Elt F) → (⟨S262144x256, .f32⟩ : BufTy).Contents (Elt F)),
    nullary main_cst_0 (constant S_ .f32 0x00000000#32),
    unary main_cst_0 main_v5 (broadcastInDim S1000x256 ![] bcast_S_S1000x256 : (⟨S_, .f32⟩ : BufTy).Contents (Elt F) → (⟨S1000x256, .f32⟩ : BufTy).Contents (Elt F)),
    unary main_arg1 main_v6 (broadcastInDim S262144x1 ![0] bcast_S262144_S262144x1_0 : (⟨S262144, .i32⟩ : BufTy).Contents (Elt F) → (⟨S262144x1, .i32⟩ : BufTy).Contents (Elt F)),
    ternary main_v5 main_v6 main_v4 main_v7 ((fun x i u => Host.scatterAdd scatter_S1000x256_S262144x1_S262144x256_1_0_0_1 x i u) : (⟨S1000x256, .f32⟩ : BufTy).Contents (Elt F) → (⟨S262144x1, .i32⟩ : BufTy).Contents (Elt F) → (⟨S262144x256, .f32⟩ : BufTy).Contents (Elt F) → (⟨S1000x256, .f32⟩ : BufTy).Contents (Elt F)),
    nullary main_cst_1 (constant S_ .f32 0x3F800000#32),
    unary main_cst_1 main_v8 (broadcastInDim S262144 ![] bcast_S_S262144 : (⟨S_, .f32⟩ : BufTy).Contents (Elt F) → (⟨S262144, .f32⟩ : BufTy).Contents (Elt F)),
    nullary main_cst_2 (constant S_ .f32 0x00000000#32),
    unary main_cst_2 main_v9 (broadcastInDim S1000 ![] bcast_S_S1000 : (⟨S_, .f32⟩ : BufTy).Contents (Elt F) → (⟨S1000, .f32⟩ : BufTy).Contents (Elt F)),
    unary main_arg1 main_v10 (broadcastInDim S262144x1 ![0] bcast_S262144_S262144x1_0 : (⟨S262144, .i32⟩ : BufTy).Contents (Elt F) → (⟨S262144x1, .i32⟩ : BufTy).Contents (Elt F)),
    ternary main_v9 main_v10 main_v8 main_v11 ((fun x i u => Host.scatterAdd scatter_S1000_S262144x1_S262144_n_0_0_1 x i u) : (⟨S1000, .f32⟩ : BufTy).Contents (Elt F) → (⟨S262144x1, .i32⟩ : BufTy).Contents (Elt F) → (⟨S262144, .f32⟩ : BufTy).Contents (Elt F) → (⟨S1000, .f32⟩ : BufTy).Contents (Elt F)),
    nullary main_cst_3 (constant S_ .f32 0x00000000#32),
    unary main_cst_3 main_v12 (broadcastInDim S1000 ![] bcast_S_S1000 : (⟨S_, .f32⟩ : BufTy).Contents (Elt F) → (⟨S1000, .f32⟩ : BufTy).Contents (Elt F)),
    binary main_v11 main_v12 main_v13 (cmpf (F := F) .ogt : (⟨S1000, .f32⟩ : BufTy).Contents (Elt F) → (⟨S1000, .f32⟩ : BufTy).Contents (Elt F) → (⟨S1000, .i1⟩ : BufTy).Contents (Elt F)),
    unary main_v13 main_v14 (uitofp (F := F) .f32 : (⟨S1000, .i1⟩ : BufTy).Contents (Elt F) → (⟨S1000, .f32⟩ : BufTy).Contents (Elt F)),
    unary main_v14 main_v15 (broadcastInDim S1000x1 ![0] bcast_S1000_S1000x1_0 : (⟨S1000, .f32⟩ : BufTy).Contents (Elt F) → (⟨S1000x1, .f32⟩ : BufTy).Contents (Elt F)) ]

/-- Operations 25 to 55 of the list. -/
abbrev opsQ1 : List (HloOp τ sig (Elt F)) :=
  [ TRef.binary (TRef.of (T := ⟨S1000x256, .f32⟩) main_v7) (TRef.of (T := ⟨S1000x256, .f32⟩) main_v7) (TRef.of (T := ⟨S1000x256, .f32⟩) main_call1_v0) mulf,
    TRef.nullary (TRef.of (T := ⟨S_, .f32⟩) main_call1_cst) (constant S_ .f32 0x00000000#32),
    TRef.binary (TRef.of (T := ⟨S1000x256, .f32⟩) main_call1_v0) (TRef.of (T := ⟨S_, .f32⟩) main_call1_cst) (TRef.of (T := ⟨S1000, .f32⟩) main_call1_v1) (fun x v => Host.reduceAdd x v reducesTo_S1000x256_S1000_d1 h_S_),
    TRef.unary (TRef.of (T := ⟨S1000, .f32⟩) main_call1_v1) (TRef.of (T := ⟨S1000x1, .f32⟩) main_call1_v2) (broadcastInDim S1000x1 ![0] bcast_S1000_S1000x1_0),
    TRef.unary (TRef.of (T := ⟨S1000x1, .f32⟩) main_call1_v2) (TRef.of (T := ⟨S1000x1, .f32⟩) main_v16) Host.sqrt,
    nullary main_cst_4 (constant S_ .f32 0x2B8CBCCC#32),
    unary main_cst_4 main_v17 (broadcastInDim S1000x1 ![] bcast_S_S1000x1 : (⟨S_, .f32⟩ : BufTy).Contents (Elt F) → (⟨S1000x1, .f32⟩ : BufTy).Contents (Elt F)),
    binary main_v16 main_v17 main_v18 (maximumf : (⟨S1000x1, .f32⟩ : BufTy).Contents (Elt F) → (⟨S1000x1, .f32⟩ : BufTy).Contents (Elt F) → (⟨S1000x1, .f32⟩ : BufTy).Contents (Elt F)),
    unary main_v18 main_v19 (broadcastInDim S1000x256 ![0, 1] bcast_S1000x1_S1000x256_0_1 : (⟨S1000x1, .f32⟩ : BufTy).Contents (Elt F) → (⟨S1000x256, .f32⟩ : BufTy).Contents (Elt F)),
    binary main_v7 main_v19 main_v20 (Host.divf : (⟨S1000x256, .f32⟩ : BufTy).Contents (Elt F) → (⟨S1000x256, .f32⟩ : BufTy).Contents (Elt F) → (⟨S1000x256, .f32⟩ : BufTy).Contents (Elt F)),
    unary main_v15 main_v21 (broadcastInDim S1000x256 ![0, 1] bcast_S1000x1_S1000x256_0_1 : (⟨S1000x1, .f32⟩ : BufTy).Contents (Elt F) → (⟨S1000x256, .f32⟩ : BufTy).Contents (Elt F)),
    binary main_v20 main_v21 main_v22 (mulf : (⟨S1000x256, .f32⟩ : BufTy).Contents (Elt F) → (⟨S1000x256, .f32⟩ : BufTy).Contents (Elt F) → (⟨S1000x256, .f32⟩ : BufTy).Contents (Elt F)),
    binary main_arg2 main_v22 main_v23 (mulf : (⟨S1000x256, .f32⟩ : BufTy).Contents (Elt F) → (⟨S1000x256, .f32⟩ : BufTy).Contents (Elt F) → (⟨S1000x256, .f32⟩ : BufTy).Contents (Elt F)),
    nullary main_cst_5 (constant S_ .f32 0x00000000#32),
    binary main_v23 main_cst_5 main_v24 ((fun x v => Host.reduceAdd x v reducesTo_S1000x256_S1000_d1 h_S_) : (⟨S1000x256, .f32⟩ : BufTy).Contents (Elt F) → (⟨S_, .f32⟩ : BufTy).Contents (Elt F) → (⟨S1000, .f32⟩ : BufTy).Contents (Elt F)),
    unary main_v24 main_v25 (broadcastInDim S1000x1 ![0] bcast_S1000_S1000x1_0 : (⟨S1000, .f32⟩ : BufTy).Contents (Elt F) → (⟨S1000x1, .f32⟩ : BufTy).Contents (Elt F)),
    nullary main_cst_6 (constant S_ .f32 0x3F800000#32),
    unary main_cst_6 main_v26 (broadcastInDim S1000x1 ![] bcast_S_S1000x1 : (⟨S_, .f32⟩ : BufTy).Contents (Elt F) → (⟨S1000x1, .f32⟩ : BufTy).Contents (Elt F)),
    binary main_v26 main_v25 main_v27 (subf : (⟨S1000x1, .f32⟩ : BufTy).Contents (Elt F) → (⟨S1000x1, .f32⟩ : BufTy).Contents (Elt F) → (⟨S1000x1, .f32⟩ : BufTy).Contents (Elt F)),
    binary main_v27 main_v15 main_v28 (mulf : (⟨S1000x1, .f32⟩ : BufTy).Contents (Elt F) → (⟨S1000x1, .f32⟩ : BufTy).Contents (Elt F) → (⟨S1000x1, .f32⟩ : BufTy).Contents (Elt F)),
    nullary main_cst_7 (constant S_ .f32 0x3F800000#32),
    unary main_cst_7 main_v29 (broadcastInDim S1000x1 ![] bcast_S_S1000x1 : (⟨S_, .f32⟩ : BufTy).Contents (Elt F) → (⟨S1000x1, .f32⟩ : BufTy).Contents (Elt F)),
    binary main_v29 main_v28 main_v30 (subf : (⟨S1000x1, .f32⟩ : BufTy).Contents (Elt F) → (⟨S1000x1, .f32⟩ : BufTy).Contents (Elt F) → (⟨S1000x1, .f32⟩ : BufTy).Contents (Elt F)),
    unary main_v30 main_v31 (broadcastInDim S1000x256 ![0, 1] bcast_S1000x1_S1000x256_0_1 : (⟨S1000x1, .f32⟩ : BufTy).Contents (Elt F) → (⟨S1000x256, .f32⟩ : BufTy).Contents (Elt F)),
    binary main_v31 main_arg2 main_v32 (mulf : (⟨S1000x256, .f32⟩ : BufTy).Contents (Elt F) → (⟨S1000x256, .f32⟩ : BufTy).Contents (Elt F) → (⟨S1000x256, .f32⟩ : BufTy).Contents (Elt F)),
    nullary main_cst_8 (constant S_ .f32 0x3F800000#32),
    unary main_cst_8 main_v33 (broadcastInDim S1000x1 ![] bcast_S_S1000x1 : (⟨S_, .f32⟩ : BufTy).Contents (Elt F) → (⟨S1000x1, .f32⟩ : BufTy).Contents (Elt F)),
    binary main_v33 main_v30 main_v34 (subf : (⟨S1000x1, .f32⟩ : BufTy).Contents (Elt F) → (⟨S1000x1, .f32⟩ : BufTy).Contents (Elt F) → (⟨S1000x1, .f32⟩ : BufTy).Contents (Elt F)),
    unary main_v34 main_v35 (broadcastInDim S1000x256 ![0, 1] bcast_S1000x1_S1000x256_0_1 : (⟨S1000x1, .f32⟩ : BufTy).Contents (Elt F) → (⟨S1000x256, .f32⟩ : BufTy).Contents (Elt F)),
    binary main_v35 main_v22 main_v36 (mulf : (⟨S1000x256, .f32⟩ : BufTy).Contents (Elt F) → (⟨S1000x256, .f32⟩ : BufTy).Contents (Elt F) → (⟨S1000x256, .f32⟩ : BufTy).Contents (Elt F)),
    binary main_v32 main_v36 main_v37 (addf : (⟨S1000x256, .f32⟩ : BufTy).Contents (Elt F) → (⟨S1000x256, .f32⟩ : BufTy).Contents (Elt F) → (⟨S1000x256, .f32⟩ : BufTy).Contents (Elt F)) ]

/-- Operations 56 to 65 of the list. -/
abbrev opsQ2 : List (HloOp τ sig (Elt F)) :=
  [ TRef.binary (TRef.of (T := ⟨S1000x256, .f32⟩) main_v37) (TRef.of (T := ⟨S1000x256, .f32⟩) main_v37) (TRef.of (T := ⟨S1000x256, .f32⟩) main_call2_v0) mulf,
    TRef.nullary (TRef.of (T := ⟨S_, .f32⟩) main_call2_cst) (constant S_ .f32 0x00000000#32),
    TRef.binary (TRef.of (T := ⟨S1000x256, .f32⟩) main_call2_v0) (TRef.of (T := ⟨S_, .f32⟩) main_call2_cst) (TRef.of (T := ⟨S1000, .f32⟩) main_call2_v1) (fun x v => Host.reduceAdd x v reducesTo_S1000x256_S1000_d1 h_S_),
    TRef.unary (TRef.of (T := ⟨S1000, .f32⟩) main_call2_v1) (TRef.of (T := ⟨S1000x1, .f32⟩) main_call2_v2) (broadcastInDim S1000x1 ![0] bcast_S1000_S1000x1_0),
    TRef.unary (TRef.of (T := ⟨S1000x1, .f32⟩) main_call2_v2) (TRef.of (T := ⟨S1000x1, .f32⟩) main_v38) Host.sqrt,
    nullary main_cst_9 (constant S_ .f32 0x2B8CBCCC#32),
    unary main_cst_9 main_v39 (broadcastInDim S1000x1 ![] bcast_S_S1000x1 : (⟨S_, .f32⟩ : BufTy).Contents (Elt F) → (⟨S1000x1, .f32⟩ : BufTy).Contents (Elt F)),
    binary main_v38 main_v39 main_v40 (maximumf : (⟨S1000x1, .f32⟩ : BufTy).Contents (Elt F) → (⟨S1000x1, .f32⟩ : BufTy).Contents (Elt F) → (⟨S1000x1, .f32⟩ : BufTy).Contents (Elt F)),
    unary main_v40 main_v41 (broadcastInDim S1000x256 ![0, 1] bcast_S1000x1_S1000x256_0_1 : (⟨S1000x1, .f32⟩ : BufTy).Contents (Elt F) → (⟨S1000x256, .f32⟩ : BufTy).Contents (Elt F)),
    binary main_v37 main_v41 main_v42 (Host.divf : (⟨S1000x256, .f32⟩ : BufTy).Contents (Elt F) → (⟨S1000x256, .f32⟩ : BufTy).Contents (Elt F) → (⟨S1000x256, .f32⟩ : BufTy).Contents (Elt F)) ]

/-- Operations 66 to 70 of the list. -/
abbrev opsR1 : List (HloOp τ sig (Elt F)) :=
  [ unary main_v42 main_v43 ((transpose S256x1000 [1, 0] · transposes_S1000x256_S256x1000_1_0) : (⟨S1000x256, .f32⟩ : BufTy).Contents (Elt F) → (⟨S256x1000, .f32⟩ : BufTy).Contents (Elt F)),
    binary main_v4 main_v43 main_v44 ((fun l r => Host.dotGeneral dot_S262144x256_S256x1000_S262144x1000_1_0_0_1_n_n none l r) : (⟨S262144x256, .f32⟩ : BufTy).Contents (Elt F) → (⟨S256x1000, .f32⟩ : BufTy).Contents (Elt F) → (⟨S262144x1000, .f32⟩ : BufTy).Contents (Elt F)),
    nullary main_cst_10 (constant S_ .f32 0x3DCCCCCD#32),
    unary main_cst_10 main_v45 (broadcastInDim S262144x1000 ![] bcast_S_S262144x1000 : (⟨S_, .f32⟩ : BufTy).Contents (Elt F) → (⟨S262144x1000, .f32⟩ : BufTy).Contents (Elt F)),
    binary main_v44 main_v45 main_v46 (Host.divf : (⟨S262144x1000, .f32⟩ : BufTy).Contents (Elt F) → (⟨S262144x1000, .f32⟩ : BufTy).Contents (Elt F) → (⟨S262144x1000, .f32⟩ : BufTy).Contents (Elt F)) ]

/-- Operations 71 to 79 of the list. -/
abbrev opsR2 : List (HloOp τ sig (Elt F)) :=
  [ TRef.nullary (TRef.of (T := ⟨S_, .f32⟩) main_call3_cst) (constant S_ .f32 0xFF800000#32),
    TRef.binary (TRef.of (T := ⟨S262144x1000, .f32⟩) main_v46) (TRef.of (T := ⟨S_, .f32⟩) main_call3_cst) (TRef.of (T := ⟨S262144, .f32⟩) main_call3_v0) (fun x v => Host.reduce FloatOps.maximumf x v reducesTo_S262144x1000_S262144_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S262144, .f32⟩) main_call3_v1) (broadcastInDim S262144 ![] bcast_S_S262144),
    TRef.binary (TRef.of (T := ⟨S262144, .f32⟩) main_call3_v1) (TRef.of (T := ⟨S262144, .f32⟩) main_call3_v0) (TRef.of (T := ⟨S262144, .f32⟩) main_call3_v2) maximumf,
    TRef.unary (TRef.of (T := ⟨S262144, .f32⟩) main_call3_v2) (TRef.of (T := ⟨S262144x1, .f32⟩) main_call3_v3) (broadcastInDim S262144x1 ![0] bcast_S262144_S262144x1_0),
    TRef.unary (TRef.of (T := ⟨S262144x1, .f32⟩) main_call3_v3) (TRef.of (T := ⟨S262144x1000, .f32⟩) main_call3_v4) (broadcastInDim S262144x1000 ![0, 1] bcast_S262144x1_S262144x1000_0_1),
    TRef.binary (TRef.of (T := ⟨S262144x1000, .f32⟩) main_v46) (TRef.of (T := ⟨S262144x1000, .f32⟩) main_call3_v4) (TRef.of (T := ⟨S262144x1000, .f32⟩) main_call3_v5) subf,
    TRef.unary (TRef.of (T := ⟨S262144x1000, .f32⟩) main_call3_v5) (TRef.of (T := ⟨S262144x1000, .f32⟩) main_call3_v6) Host.exp ]

/-- Operations 80 to 85 of the list. -/
abbrev opsR3 : List (HloOp τ sig (Elt F)) :=
  [ TRef.nullary (TRef.of (T := ⟨S_, .f32⟩) main_call3_cst_1) (constant S_ .f32 0x00000000#32),
    TRef.binary (TRef.of (T := ⟨S262144x1000, .f32⟩) main_call3_v6) (TRef.of (T := ⟨S_, .f32⟩) main_call3_cst_1) (TRef.of (T := ⟨S262144, .f32⟩) main_call3_v7) (fun x v => Host.reduceAdd x v reducesTo_S262144x1000_S262144_d1 h_S_),
    TRef.unary (TRef.of (T := ⟨S262144, .f32⟩) main_call3_v7) (TRef.of (T := ⟨S262144x1, .f32⟩) main_call3_v8) (broadcastInDim S262144x1 ![0] bcast_S262144_S262144x1_0),
    TRef.unary (TRef.of (T := ⟨S262144x1, .f32⟩) main_call3_v8) (TRef.of (T := ⟨S262144x1, .f32⟩) main_call3_v9) Host.log,
    TRef.unary (TRef.of (T := ⟨S262144x1, .f32⟩) main_call3_v9) (TRef.of (T := ⟨S262144x1000, .f32⟩) main_call3_v10) (broadcastInDim S262144x1000 ![0, 1] bcast_S262144x1_S262144x1000_0_1),
    TRef.binary (TRef.of (T := ⟨S262144x1000, .f32⟩) main_call3_v5) (TRef.of (T := ⟨S262144x1000, .f32⟩) main_call3_v10) (TRef.of (T := ⟨S262144x1000, .f32⟩) main_v47) subf ]

/-- Operations 86 to 113 of the list. -/
abbrev opsS : List (HloOp τ sig (Elt F)) :=
  [ unary main_arg1 main_v48 (broadcastInDim S262144x1 ![0] bcast_S262144_S262144x1_0 : (⟨S262144, .i32⟩ : BufTy).Contents (Elt F) → (⟨S262144x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S262144x1, .i32⟩) main_call4_v0) (broadcastInDim S262144x1 ![] bcast_S_S262144x1),
    TRef.binary (TRef.of (T := ⟨S262144x1, .i32⟩) main_v48) (TRef.of (T := ⟨S262144x1, .i32⟩) main_call4_v0) (TRef.of (T := ⟨S262144x1, .i1⟩) main_call4_v1) (cmpi .slt),
    TRef.nullary (TRef.of (T := ⟨S_, .i32⟩) main_call4_c_0) (constantI S_ 32 1000#32),
    TRef.unary (TRef.of (T := ⟨S_, .i32⟩) main_call4_c_0) (TRef.of (T := ⟨S262144x1, .i32⟩) main_call4_v2) (broadcastInDim S262144x1 ![] bcast_S_S262144x1),
    TRef.binary (TRef.of (T := ⟨S262144x1, .i32⟩) main_v48) (TRef.of (T := ⟨S262144x1, .i32⟩) main_call4_v2) (TRef.of (T := ⟨S262144x1, .i32⟩) main_call4_v3) addi,
    TRef.ternary (TRef.of (T := ⟨S262144x1, .i1⟩) main_call4_v1) (TRef.of (T := ⟨S262144x1, .i32⟩) main_call4_v3) (TRef.of (T := ⟨S262144x1, .i32⟩) main_v48) (TRef.of (T := ⟨S262144x1, .i32⟩) main_call4_v4) select,
    TRef.reshape (TRef.of (T := ⟨S262144x1, .i32⟩) main_call4_v4) (TRef.of (T := ⟨S262144x1x1, .i32⟩) main_call4_v5) rfl shapeCasts_S262144x1_S262144x1x1,
    TRef.nullary (TRef.of (T := ⟨S1, .i32⟩) main_call4_c_1) (constantI S1 32 999#32),
    TRef.nullary (TRef.of (T := ⟨S_, .i32⟩) main_call4_c_2) (constantI S_ 32 0#32),
    TRef.unary (TRef.of (T := ⟨S_, .i32⟩) main_call4_c_2) (TRef.of (T := ⟨S262144x1x1, .i32⟩) main_call4_v6) (broadcastInDim S262144x1x1 ![] bcast_S_S262144x1x1),
    TRef.binary (TRef.of (T := ⟨S262144x1x1, .i32⟩) main_call4_v5) (TRef.of (T := ⟨S262144x1x1, .i32⟩) main_call4_v6) (TRef.of (T := ⟨S262144x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S262144x1x1, .i32⟩) main_call4_v9) (broadcastInDim S262144x1x1 ![0, 1, 2] bcast_S1x1x1_S262144x1x1_0_1_2),
    TRef.binary (TRef.of (T := ⟨S262144x1x1, .i32⟩) main_call4_v5) (TRef.of (T := ⟨S262144x1x1, .i32⟩) main_call4_v9) (TRef.of (T := ⟨S262144x1x1, .i1⟩) main_call4_v10) (cmpi .sle),
    TRef.binary (TRef.of (T := ⟨S262144x1x1, .i1⟩) main_call4_v7) (TRef.of (T := ⟨S262144x1x1, .i1⟩) main_call4_v10) (TRef.of (T := ⟨S262144x1x1, .i1⟩) main_call4_v11) andi,
    TRef.nullary (TRef.of (T := ⟨S_, .i1⟩) main_call4_c_3) (constantI S_ 1 1#1),
    TRef.binary (TRef.of (T := ⟨S262144x1x1, .i1⟩) main_call4_v11) (TRef.of (T := ⟨S_, .i1⟩) main_call4_c_3) (TRef.of (T := ⟨S262144x1, .i1⟩) main_call4_v12) (fun x v => Host.reduce IntOp.andi x v reducesTo_S262144x1x1_S262144x1_d2 h_S_),
    TRef.binary (TRef.of (T := ⟨S262144x1000, .f32⟩) main_v47) (TRef.of (T := ⟨S262144x1x1, .i32⟩) main_call4_v5) (TRef.of (T := ⟨S262144x1, .f32⟩) main_call4_v13) (fun x i => Host.gather gather_S262144x1000_S262144x1x1_S262144x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S262144x1, .f32⟩) main_call4_v14) (broadcastInDim S262144x1 ![] bcast_S_S262144x1),
    TRef.ternary (TRef.of (T := ⟨S262144x1, .i1⟩) main_call4_v12) (TRef.of (T := ⟨S262144x1, .f32⟩) main_call4_v13) (TRef.of (T := ⟨S262144x1, .f32⟩) main_call4_v14) (TRef.of (T := ⟨S262144x1, .f32⟩) main_v49) select,
    nullary main_cst_11 (constant S_ .f32 0x00000000#32),
    binary main_v49 main_cst_11 main_v50 ((fun x v => Host.reduceAdd x v reducesTo_S262144x1_S_d0_1 h_S_) : (⟨S262144x1, .f32⟩ : BufTy).Contents (Elt F) → (⟨S_, .f32⟩ : BufTy).Contents (Elt F) → (⟨S_, .f32⟩ : BufTy).Contents (Elt F)),
    nullary main_cst_12 (constant S_ .f32 0x48800000#32),
    binary main_v50 main_cst_12 main_v51 (Host.divf : (⟨S_, .f32⟩ : BufTy).Contents (Elt F) → (⟨S_, .f32⟩ : BufTy).Contents (Elt F) → (⟨S_, .f32⟩ : BufTy).Contents (Elt F)),
    unary main_v51 main_v52 (Host.negf : (⟨S_, .f32⟩ : BufTy).Contents (Elt F) → (⟨S_, .f32⟩ : BufTy).Contents (Elt F)) ]

set_option maxRecDepth 8192 in
/-- The list is its stretches in order. -/
theorem ops_eq : (ops : List (HloOp τ sig (Elt F))) = opsP ++ (opsQ1 ++ (opsQ2 ++ (opsR1 ++ (opsR2 ++ (opsR3 ++ (opsS)))))) := rfl

section Stretch
variable (V : Valuation τ sig (Elt F)) (x0 : (⟨S262144x256, .f32⟩ : BufTy).Contents (Elt F)) (x1 : (⟨S262144, .i32⟩ : BufTy).Contents (Elt F)) (x2 : (⟨S1000x256, .f32⟩ : BufTy).Contents (Elt F))

set_option maxRecDepth 16384 in
set_option maxHeartbeats 4000000 in
theorem P_v4 (h0 : V (Proc.devRef .tc main_arg0) = x0) :
    after opsP V (Proc.devRef .tc main_v4) = val_main_v4 x0 := by
  after_results_simp
  (try simp only [TRef.ofBuf, TRef.toBuf, cast_eq])
  rw [h0]
  rfl

set_option maxRecDepth 16384 in
set_option maxHeartbeats 4000000 in
theorem P_v7 (h0 : V (Proc.devRef .tc main_arg0) = x0) (h1 : V (Proc.devRef .tc main_arg1) = x1) :
    after opsP V (Proc.devRef .tc main_v7) = val_main_v7 x0 x1 := by
  after_results_simp
  (try simp only [TRef.ofBuf, TRef.toBuf, cast_eq])
  rw [h0, h1]
  rfl

set_option maxRecDepth 16384 in
set_option maxHeartbeats 4000000 in
theorem P_v15 (h0 : V (Proc.devRef .tc main_arg1) = x1) :
    after opsP V (Proc.devRef .tc main_v15) = val_main_v15 x1 := by
  after_results_simp
  (try simp only [TRef.ofBuf, TRef.toBuf, cast_eq])
  rw [h0]
  rfl

set_option maxRecDepth 16384 in
theorem P_keep_arg0 : after opsP V (Proc.devRef .tc main_arg0) = V (Proc.devRef .tc main_arg0) := by
  after_results_simp

set_option maxRecDepth 16384 in
theorem P_keep_arg1 : after opsP V (Proc.devRef .tc main_arg1) = V (Proc.devRef .tc main_arg1) := by
  after_results_simp

set_option maxRecDepth 16384 in
theorem P_keep_arg2 : after opsP V (Proc.devRef .tc main_arg2) = V (Proc.devRef .tc main_arg2) := by
  after_results_simp

set_option maxRecDepth 16384 in
set_option maxHeartbeats 4000000 in
theorem Q1_v37 (h0 : V (Proc.devRef .tc main_v7) = val_main_v7 x0 x1) (h1 : V (Proc.devRef .tc main_v15) = val_main_v15 x1) (h2 : V (Proc.devRef .tc main_arg2) = x2) :
    after opsQ1 V (Proc.devRef .tc main_v37) = val_main_v37 x0 x1 x2 := by
  after_results_simp
  (try simp only [TRef.ofBuf, TRef.toBuf, cast_eq])
  rw [h0, h1, h2]
  rfl

set_option maxRecDepth 16384 in
theorem Q1_keep_v4 : after opsQ1 V (Proc.devRef .tc main_v4) = V (Proc.devRef .tc main_v4) := by
  after_results_simp

set_option maxRecDepth 16384 in
theorem Q1_keep_arg0 : after opsQ1 V (Proc.devRef .tc main_arg0) = V (Proc.devRef .tc main_arg0) := by
  after_results_simp

set_option maxRecDepth 16384 in
theorem Q1_keep_arg1 : after opsQ1 V (Proc.devRef .tc main_arg1) = V (Proc.devRef .tc main_arg1) := by
  after_results_simp

set_option maxRecDepth 16384 in
theorem Q1_keep_arg2 : after opsQ1 V (Proc.devRef .tc main_arg2) = V (Proc.devRef .tc main_arg2) := by
  after_results_simp

set_option maxRecDepth 16384 in
set_option maxHeartbeats 4000000 in
theorem Q2_v42 (h0 : V (Proc.devRef .tc main_v37) = val_main_v37 x0 x1 x2) :
    after opsQ2 V (Proc.devRef .tc main_v42) = val_main_v42 x0 x1 x2 := by
  after_results_simp
  (try simp only [TRef.ofBuf, TRef.toBuf, cast_eq])
  rw [h0]
  rfl

set_option maxRecDepth 16384 in
theorem Q2_keep_v4 : after opsQ2 V (Proc.devRef .tc main_v4) = V (Proc.devRef .tc main_v4) := by
  after_results_simp

set_option maxRecDepth 16384 in
theorem Q2_keep_arg0 : after opsQ2 V (Proc.devRef .tc main_arg0) = V (Proc.devRef .tc main_arg0) := by
  after_results_simp

set_option maxRecDepth 16384 in
theorem Q2_keep_arg1 : after opsQ2 V (Proc.devRef .tc main_arg1) = V (Proc.devRef .tc main_arg1) := by
  after_results_simp

set_option maxRecDepth 16384 in
theorem Q2_keep_arg2 : after opsQ2 V (Proc.devRef .tc main_arg2) = V (Proc.devRef .tc main_arg2) := by
  after_results_simp

set_option maxRecDepth 16384 in
set_option maxHeartbeats 4000000 in
theorem R1_v46 (h0 : V (Proc.devRef .tc main_v4) = val_main_v4 x0) (h1 : V (Proc.devRef .tc main_v42) = val_main_v42 x0 x1 x2) :
    after opsR1 V (Proc.devRef .tc main_v46) = val_main_v46 x0 x1 x2 := by
  after_results_simp
  (try simp only [TRef.ofBuf, TRef.toBuf, cast_eq])
  rw [h0, h1]
  rfl

set_option maxRecDepth 16384 in
theorem R1_keep_v42 : after opsR1 V (Proc.devRef .tc main_v42) = V (Proc.devRef .tc main_v42) := by
  after_results_simp

set_option maxRecDepth 16384 in
theorem R1_keep_arg0 : after opsR1 V (Proc.devRef .tc main_arg0) = V (Proc.devRef .tc main_arg0) := by
  after_results_simp

set_option maxRecDepth 16384 in
theorem R1_keep_arg1 : after opsR1 V (Proc.devRef .tc main_arg1) = V (Proc.devRef .tc main_arg1) := by
  after_results_simp

set_option maxRecDepth 16384 in
theorem R1_keep_arg2 : after opsR1 V (Proc.devRef .tc main_arg2) = V (Proc.devRef .tc main_arg2) := by
  after_results_simp

set_option maxRecDepth 16384 in
set_option maxHeartbeats 4000000 in
theorem R2_call3_v5 (h0 : V (Proc.devRef .tc main_v46) = val_main_v46 x0 x1 x2) :
    after opsR2 V (Proc.devRef .tc main_call3_v5) = val_main_call3_v5 x0 x1 x2 := by
  after_results_simp
  rw [h0]
  dsimp only [TRef.ofBuf, TRef.toBuf]
  repeat rw [cast_eq]
  rfl

set_option maxRecDepth 16384 in
set_option maxHeartbeats 4000000 in
theorem R2_call3_v6 (h0 : V (Proc.devRef .tc main_v46) = val_main_v46 x0 x1 x2) :
    after opsR2 V (Proc.devRef .tc main_call3_v6) = val_main_call3_v6 x0 x1 x2 := by
  after_results_simp
  rw [h0]
  dsimp only [TRef.ofBuf, TRef.toBuf]
  repeat rw [cast_eq]
  rfl

set_option maxRecDepth 16384 in
theorem R2_keep_v42 : after opsR2 V (Proc.devRef .tc main_v42) = V (Proc.devRef .tc main_v42) := by
  after_results_simp

set_option maxRecDepth 16384 in
theorem R2_keep_arg0 : after opsR2 V (Proc.devRef .tc main_arg0) = V (Proc.devRef .tc main_arg0) := by
  after_results_simp

set_option maxRecDepth 16384 in
theorem R2_keep_arg1 : after opsR2 V (Proc.devRef .tc main_arg1) = V (Proc.devRef .tc main_arg1) := by
  after_results_simp

set_option maxRecDepth 16384 in
theorem R2_keep_arg2 : after opsR2 V (Proc.devRef .tc main_arg2) = V (Proc.devRef .tc main_arg2) := by
  after_results_simp

set_option maxRecDepth 16384 in
set_option maxHeartbeats 4000000 in
theorem R3_v47 (h0 : V (Proc.devRef .tc main_call3_v5) = val_main_call3_v5 x0 x1 x2) (h1 : V (Proc.devRef .tc main_call3_v6) = val_main_call3_v6 x0 x1 x2) :
    after opsR3 V (Proc.devRef .tc main_v47) = val_main_v47 x0 x1 x2 := by
  after_results_simp
  (try simp only [TRef.ofBuf, TRef.toBuf, cast_eq])
  rw [h0, h1]
  rfl

set_option maxRecDepth 16384 in
theorem R3_keep_v42 : after opsR3 V (Proc.devRef .tc main_v42) = V (Proc.devRef .tc main_v42) := by
  after_results_simp

set_option maxRecDepth 16384 in
theorem R3_keep_arg0 : after opsR3 V (Proc.devRef .tc main_arg0) = V (Proc.devRef .tc main_arg0) := by
  after_results_simp

set_option maxRecDepth 16384 in
theorem R3_keep_arg1 : after opsR3 V (Proc.devRef .tc main_arg1) = V (Proc.devRef .tc main_arg1) := by
  after_results_simp

set_option maxRecDepth 16384 in
theorem R3_keep_arg2 : after opsR3 V (Proc.devRef .tc main_arg2) = V (Proc.devRef .tc main_arg2) := by
  after_results_simp

set_option maxRecDepth 16384 in
set_option maxHeartbeats 4000000 in
theorem S_v52 (h0 : V (Proc.devRef .tc main_arg1) = x1) (h1 : V (Proc.devRef .tc main_v47) = val_main_v47 x0 x1 x2) :
    after opsS V (Proc.devRef .tc main_v52) = val_main_v52 x0 x1 x2 := by
  after_results_simp
  (try simp only [TRef.ofBuf, TRef.toBuf, cast_eq])
  rw [h0, h1]
  rfl

set_option maxRecDepth 16384 in
theorem S_keep_v42 : after opsS V (Proc.devRef .tc main_v42) = V (Proc.devRef .tc main_v42) := by
  after_results_simp

set_option maxRecDepth 16384 in
theorem S_keep_arg0 : after opsS V (Proc.devRef .tc main_arg0) = V (Proc.devRef .tc main_arg0) := by
  after_results_simp

set_option maxRecDepth 16384 in
theorem S_keep_arg1 : after opsS V (Proc.devRef .tc main_arg1) = V (Proc.devRef .tc main_arg1) := by
  after_results_simp

set_option maxRecDepth 16384 in
theorem S_keep_arg2 : after opsS V (Proc.devRef .tc main_arg2) = V (Proc.devRef .tc main_arg2) := by
  after_results_simp

end Stretch

/-- Contents after two lists in a row. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- From any contents W, the whole list leaves the two results at their stages of W's arguments, and the arguments. -/
theorem after_ops (W : Valuation τ sig (Elt F)) (x0 : (⟨S262144x256, .f32⟩ : BufTy).Contents (Elt F)) (x1 : (⟨S262144, .i32⟩ : BufTy).Contents (Elt F)) (x2 : (⟨S1000x256, .f32⟩ : BufTy).Contents (Elt F))
    (e0 : W (Proc.devRef .tc main_arg0) = x0) (e1 : W (Proc.devRef .tc main_arg1) = x1) (e2 : W (Proc.devRef .tc main_arg2) = x2) :
    after ops W (Proc.devRef .tc main_v52) = val_main_v52 x0 x1 x2
    ∧ after ops W (Proc.devRef .tc main_v42) = val_main_v42 x0 x1 x2
    ∧ after ops W (Proc.devRef .tc main_arg0) = x0 ∧ after ops W (Proc.devRef .tc main_arg1) = x1 ∧ after ops W (Proc.devRef .tc main_arg2) = x2 := by
  rw [ops_eq, after_app, after_app, after_app, after_app, after_app, after_app]
  have k0_v4 := P_v4 W x0 e0
  have k0_v7 := P_v7 W x0 x1 e0 e1
  have k0_v15 := P_v15 W x1 e1
  have k0_arg0 := (P_keep_arg0 W).trans e0
  have k0_arg1 := (P_keep_arg1 W).trans e1
  have k0_arg2 := (P_keep_arg2 W).trans e2
  have k1_v37 := Q1_v37 (after opsP W) x0 x1 x2 k0_v7 k0_v15 k0_arg2
  have k1_v4 := (Q1_keep_v4 (after opsP W)).trans k0_v4
  have k1_arg0 := (Q1_keep_arg0 (after opsP W)).trans k0_arg0
  have k1_arg1 := (Q1_keep_arg1 (after opsP W)).trans k0_arg1
  have k1_arg2 := (Q1_keep_arg2 (after opsP W)).trans k0_arg2
  have k2_v42 := Q2_v42 (after opsQ1 (after opsP W)) x0 x1 x2 k1_v37
  have k2_v4 := (Q2_keep_v4 (after opsQ1 (after opsP W))).trans k1_v4
  have k2_arg0 := (Q2_keep_arg0 (after opsQ1 (after opsP W))).trans k1_arg0
  have k2_arg1 := (Q2_keep_arg1 (after opsQ1 (after opsP W))).trans k1_arg1
  have k2_arg2 := (Q2_keep_arg2 (after opsQ1 (after opsP W))).trans k1_arg2
  have k3_v46 := R1_v46 (after opsQ2 (after opsQ1 (after opsP W))) x0 x1 x2 k2_v4 k2_v42
  have k3_v42 := (R1_keep_v42 (after opsQ2 (after opsQ1 (after opsP W)))).trans k2_v42
  have k3_arg0 := (R1_keep_arg0 (after opsQ2 (after opsQ1 (after opsP W)))).trans k2_arg0
  have k3_arg1 := (R1_keep_arg1 (after opsQ2 (after opsQ1 (after opsP W)))).trans k2_arg1
  have k3_arg2 := (R1_keep_arg2 (after opsQ2 (after opsQ1 (after opsP W)))).trans k2_arg2
  have k4_call3_v5 := R2_call3_v5 (after opsR1 (after opsQ2 (after opsQ1 (after opsP W)))) x0 x1 x2 k3_v46
  have k4_call3_v6 := R2_call3_v6 (after opsR1 (after opsQ2 (after opsQ1 (after opsP W)))) x0 x1 x2 k3_v46
  have k4_v42 := (R2_keep_v42 (after opsR1 (after opsQ2 (after opsQ1 (after opsP W))))).trans k3_v42
  have k4_arg0 := (R2_keep_arg0 (after opsR1 (after opsQ2 (after opsQ1 (after opsP W))))).trans k3_arg0
  have k4_arg1 := (R2_keep_arg1 (after opsR1 (after opsQ2 (after opsQ1 (after opsP W))))).trans k3_arg1
  have k4_arg2 := (R2_keep_arg2 (after opsR1 (after opsQ2 (after opsQ1 (after opsP W))))).trans k3_arg2
  have k5_v47 := R3_v47 (after opsR2 (after opsR1 (after opsQ2 (after opsQ1 (after opsP W))))) x0 x1 x2 k4_call3_v5 k4_call3_v6
  have k5_v42 := (R3_keep_v42 (after opsR2 (after opsR1 (after opsQ2 (after opsQ1 (after opsP W)))))).trans k4_v42
  have k5_arg0 := (R3_keep_arg0 (after opsR2 (after opsR1 (after opsQ2 (after opsQ1 (after opsP W)))))).trans k4_arg0
  have k5_arg1 := (R3_keep_arg1 (after opsR2 (after opsR1 (after opsQ2 (after opsQ1 (after opsP W)))))).trans k4_arg1
  have k5_arg2 := (R3_keep_arg2 (after opsR2 (after opsR1 (after opsQ2 (after opsQ1 (after opsP W)))))).trans k4_arg2
  have k6_v52 := S_v52 (after opsR3 (after opsR2 (after opsR1 (after opsQ2 (after opsQ1 (after opsP W)))))) x0 x1 x2 k5_arg1 k5_v47
  have k6_v42 := (S_keep_v42 (after opsR3 (after opsR2 (after opsR1 (after opsQ2 (after opsQ1 (after opsP W))))))).trans k5_v42
  have k6_arg0 := (S_keep_arg0 (after opsR3 (after opsR2 (after opsR1 (after opsQ2 (after opsQ1 (after opsP W))))))).trans k5_arg0
  have k6_arg1 := (S_keep_arg1 (after opsR3 (after opsR2 (after opsR1 (after opsQ2 (after opsQ1 (after opsP W))))))).trans k5_arg1
  have k6_arg2 := (S_keep_arg2 (after opsR3 (after opsR2 (after opsR1 (after opsQ2 (after opsQ1 (after opsP W))))))).trans k5_arg2
  exact ⟨k6_v52, k6_v42, k6_arg0, k6_arg1, k6_arg2⟩

/-- On every device, from any memory with zero counters: every weakly fair execution of the reference terminates
    with the two results at their stages of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = val_main_v52 (F := F) (m ((c.tc : Thread nD τ).loc main_arg0)) (m ((c.tc : Thread nD τ).loc main_arg1)) (m ((c.tc : Thread nD τ).loc main_arg2))
      ∧ r.2.mem ((c.tc : Thread nD τ).loc main_v42) = val_main_v42 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      have a := after_ops (launchContents m c) _ _ _ (rfl : launchContents m c (Proc.devRef .tc main_arg0) = m ((c.tc : Thread nD τ).loc main_arg0)) rfl rfl
      exact ⟨(h c main_v52).trans a.1, (h c main_v42).trans a.2.1, (h c main_arg0).trans a.2.2.1, (h c main_arg1).trans a.2.2.2.1,
        (h c main_arg2).trans a.2.2.2.2⟩)
    (run_seq scopedRefs_eq scopedSems_eq defs main (fun _ => ops) main_eq (fun _ => ops_sub) m ρ)

end Cert.ReferenceIdeal.StageRun

end
-- ==== Proof.Mid.lean ====
/-
  The host computation both programs share between the class totals and the loss: from the class totals, the 0/1 flags
  of the classes met in the batch and the stored class rows to the updated, renormalised class rows.

  With c the class totals divided by their clamped norms and masked by the flags, the weight of a class is
  w = 1 − (1 − ⟨memory, c⟩) · flag, and the updated row is w · memory + (1 − w) · c divided by its clamped norm.
  Stated once over the literal shapes, with the shapes' facts as hypotheses, so that either program's chain of
  operations is this function by unfolding.
-/
import Idealize.ShloMosaic.PureOps.Ideal.Laws
import Idealize.ShloMosaic.Lib.ValueIdx

noncomputable section

namespace Cert.SegLoss

open Idealize.ShloMosaic

variable {F : FTy → Type} [FloatOps F]

abbrev Sh0 : Shape := ⟨0, ![]⟩
abbrev ShC : Shape := ⟨1, ![1000]⟩
abbrev ShC1 : Shape := ⟨2, ![1000, 1]⟩
abbrev ShCD : Shape := ⟨2, ![1000, 256]⟩

/-- The Euclidean norm of every row, as a column. -/
def rowNorms (hr : ShCD.ReducesTo [1] ShC) (h0 : 0 < Sh0.numel) (hv : ShC.BroadcastsInDim ShC1 ![0])
    (x : FVec F ShCD .f32) : FVec F ShC1 .f32 :=
  Host.sqrt (broadcastInDim ShC1 ![0] hv (Host.reduceAdd (mulf x x) (constant Sh0 .f32 0x00000000#32) hr h0))

/-- Every row divided by its norm clamped below by ε. -/
def normalise (hr : ShCD.ReducesTo [1] ShC) (h0 : 0 < Sh0.numel) (hv : ShC.BroadcastsInDim ShC1 ![0])
    (hs : Sh0.BroadcastsInDim ShC1 (![] : Fin 0 → Fin ShC1.rank)) (hw : ShC1.BroadcastsInDim ShCD ![0, 1])
    (x : FVec F ShCD .f32) : FVec F ShCD .f32 :=
  Host.divf x (broadcastInDim ShCD ![0, 1] hw
    (maximumf (rowNorms hr h0 hv x) (broadcastInDim ShC1 ![] hs (constant Sh0 .f32 0x2B8CBCCC#32))))

/-- The updated class rows from the class totals, the flags and the stored rows. -/
def newMem (hr : ShCD.ReducesTo [1] ShC) (h0 : 0 < Sh0.numel) (hv : ShC.BroadcastsInDim ShC1 ![0])
    (hs : Sh0.BroadcastsInDim ShC1 (![] : Fin 0 → Fin ShC1.rank)) (hw : ShC1.BroadcastsInDim ShCD ![0, 1])
    (sums : FVec F ShCD .f32) (flags : FVec F ShC1 .f32) (mem : FVec F ShCD .f32) : FVec F ShCD .f32 :=
  let centre : FVec F ShCD .f32 := mulf (normalise hr h0 hv hs hw sums) (broadcastInDim ShCD ![0, 1] hw flags)
  let one : FVec F ShC1 .f32 := broadcastInDim ShC1 ![] hs (constant Sh0 .f32 0x3F800000#32)
  let sim : FVec F ShC1 .f32 :=
    broadcastInDim ShC1 ![0] hv (Host.reduceAdd (mulf mem centre) (constant Sh0 .f32 0x00000000#32) hr h0)
  let w : FVec F ShC1 .f32 := subf one (mulf (subf one sim) flags)
  let mixed : FVec F ShCD .f32 :=
    addf (mulf (broadcastInDim ShCD ![0, 1] hw w) mem) (mulf (broadcastInDim ShCD ![0, 1] hw (subf one w)) centre)
  normalise hr h0 hv hs hw mixed

end Cert.SegLoss

end
-- ==== Proof.KHost.lean ====
/-
  The kernel program's host operations around its two launches, read as functions of the arrays the launches leave:
  before the first launch the labels are reshaped to a column; between the launches the two halves' class totals and
  counts are added, the counts become 0/1 flags, and the class rows are updated and renormalised (the shared host
  computation), then narrowed for the second launch; after it the two halves' partial losses are added and divided by
  the batch size.
-/
import proofs.«407345_j1580547965106_3_alg».proof.Proof.Gen.KernelIdeal.Frame
import proofs.«407345_j1580547965106_3_alg».proof.Proof.Mid
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F] [Named F]

/-- The two halves' class totals added. -/
def sumsOf (sc : FVec F S2x1000x256 .f32) : FVec F S1000x256 .f32 :=
  Host.reduceAdd sc (constant S_ .f32 0x00000000#32) reducesTo_S2x1000x256_S1000x256_d0 h_S_

/-- The two halves' class counts added, as a vector over the classes. -/
def countsOf (cc : FVec F S2x1x1000 .f32) : FVec F S1000 .f32 :=
  shapeCast S1000 (Host.reduceAdd cc (constant S_ .f32 0x00000000#32) reducesTo_S2x1x1000_S1x1000_d0 h_S_) shapeCasts_S1x1000_S1000

/-- The flag of a class: 1 when its count is positive, else 0, as a column. -/
def flagsOf (cc : FVec F S2x1x1000 .f32) : FVec F S1000x1 .f32 :=
  shapeCast S1000x1 (uitofp .f32 (cmpf .ogt (countsOf cc) (broadcastInDim S1000 ![] bcast_S_S1000 (constant S_ .f32 0x00000000#32))))
    shapeCasts_S1000_S1000x1

/-- The updated class rows from the halves' totals and counts and the stored rows. -/
def newMemK (sc : FVec F S2x1000x256 .f32) (cc : FVec F S2x1x1000 .f32) (mem : FVec F S1000x256 .f32) : FVec F S1000x256 .f32 :=
  Cert.SegLoss.newMem reducesTo_S1000x256_S1000_d1 h_S_ bcast_S1000_S1000x1_0 bcast_S_S1000x1 bcast_S1000x1_S1000x256_0_1
    (sumsOf sc) (flagsOf cc) mem

/-- The loss from the two halves' partial sums. -/
def lossOf (lc : FVec F S2x1x1 .f32) : FVec F S_ .f32 :=
  Host.divf (shapeCast S_ (Host.reduceAdd lc (constant S_ .f32 0x00000000#32) reducesTo_S2x1x1_S1x1_d0 h_S_) shapeCasts_S1x1_S_)
    (constant S_ .f32 0x48800000#32)

/-- The class rows after the update and before the last renormalisation: with c the normalised, masked totals and
    w = 1 − (1 − ⟨memory, c⟩) · flag, the row w · memory + (1 − w) · c. -/
private def mixedK (sums : FVec F S1000x256 .f32) (flags : FVec F S1000x1 .f32) (mem : FVec F S1000x256 .f32) :
    FVec F S1000x256 .f32 :=
  let centre : FVec F S1000x256 .f32 :=
    mulf (Cert.SegLoss.normalise reducesTo_S1000x256_S1000_d1 h_S_ bcast_S1000_S1000x1_0 bcast_S_S1000x1 bcast_S1000x1_S1000x256_0_1 sums)
      (broadcastInDim S1000x256 ![0, 1] bcast_S1000x1_S1000x256_0_1 flags)
  let one : FVec F S1000x1 .f32 := broadcastInDim S1000x1 ![] bcast_S_S1000x1 (constant S_ .f32 0x3F800000#32)
  let sim : FVec F S1000x1 .f32 :=
    broadcastInDim S1000x1 ![0] bcast_S1000_S1000x1_0
      (Host.reduceAdd (mulf mem centre) (constant S_ .f32 0x00000000#32) reducesTo_S1000x256_S1000_d1 h_S_)
  let w : FVec F S1000x1 .f32 := subf one (mulf (subf one sim) flags)
  addf (mulf (broadcastInDim S1000x256 ![0, 1] bcast_S1000x1_S1000x256_0_1 w) mem)
    (mulf (broadcastInDim S1000x256 ![0, 1] bcast_S1000x1_S1000x256_0_1 (subf one w)) centre)

/-- The updated rows are the mixed rows renormalised. -/
private theorem newMemK_eq (sc : FVec F S2x1000x256 .f32) (cc : FVec F S2x1x1000 .f32) (mem : FVec F S1000x256 .f32) :
    newMemK sc cc mem = Cert.SegLoss.normalise reducesTo_S1000x256_S1000_d1 h_S_ bcast_S1000_S1000x1_0 bcast_S_S1000x1
      bcast_S1000x1_S1000x256_0_1 (mixedK (sumsOf sc) (flagsOf cc) mem) := rfl

section Stretch
variable (V : Valuation τ sig (Elt F))

/-! ### The operations between the launches, stretch by stretch, from any contents -/

private theorem s1_v2 : StableHlo.after hostOps1 V (Proc.devRef .tc main_v2)
    = sumsOf (V (Proc.devRef .tc main_v1_0) : FVec F S2x1000x256 .f32) := by
  after_results
  rfl

private theorem s1_v8 : StableHlo.after hostOps1 V (Proc.devRef .tc main_v8)
    = flagsOf (V (Proc.devRef .tc main_v1_1) : FVec F S2x1x1000 .f32) := by
  after_results
  rfl

private theorem s1_arg2 : StableHlo.after hostOps1 V (Proc.devRef .tc main_arg2) = V (Proc.devRef .tc main_arg2) := by
  after_results

private theorem s23_v30 : StableHlo.after hostOps1_2 (StableHlo.after hostOps1_1 V) (Proc.devRef .tc main_v30)
    = mixedK (V (Proc.devRef .tc main_v2) : FVec F S1000x256 .f32) (V (Proc.devRef .tc main_v8) : FVec F S1000x1 .f32)
        (V (Proc.devRef .tc main_arg2) : FVec F S1000x256 .f32) := by
  after_results_simp
  (try simp only [StableHlo.TRef.ofBuf, StableHlo.TRef.toBuf, cast_eq])
  rfl

private theorem s45_v35 : StableHlo.after hostOps1_4 (StableHlo.after hostOps1_3 V) (Proc.devRef .tc main_v35)
    = Cert.SegLoss.normalise reducesTo_S1000x256_S1000_d1 h_S_ bcast_S1000_S1000x1_0 bcast_S_S1000x1
        bcast_S1000x1_S1000x256_0_1 (V (Proc.devRef .tc main_v30) : FVec F S1000x256 .f32) := by
  after_results
  (try simp only [StableHlo.TRef.ofBuf, StableHlo.TRef.toBuf, cast_eq])
  rfl

private theorem s45_v36 : StableHlo.after hostOps1_4 (StableHlo.after hostOps1_3 V) (Proc.devRef .tc main_v36)
    = truncf .bf16 (Cert.SegLoss.normalise reducesTo_S1000x256_S1000_d1 h_S_ bcast_S1000_S1000x1_0 bcast_S_S1000x1
        bcast_S1000x1_S1000x256_0_1 (V (Proc.devRef .tc main_v30) : FVec F S1000x256 .f32)) bitsLt_bf16_f32 := by
  after_results
  (try simp only [StableHlo.TRef.ofBuf, StableHlo.TRef.toBuf, cast_eq])
  rfl

/-- No operation between the launches writes the features … -/
private theorem mid_arg0 : StableHlo.after hostOps1_4 (StableHlo.after hostOps1_3 (StableHlo.after hostOps1_2
    (StableHlo.after hostOps1_1 (StableHlo.after hostOps1 V)))) (Proc.devRef .tc main_arg0) = V (Proc.devRef .tc main_arg0) := by
  after_results

/-- … or the label column. -/
private theorem mid_v0 : StableHlo.after hostOps1_4 (StableHlo.after hostOps1_3 (StableHlo.after hostOps1_2
    (StableHlo.after hostOps1_1 (StableHlo.after hostOps1 V)))) (Proc.devRef .tc main_v0) = V (Proc.devRef .tc main_v0) := by
  after_results

private theorem s6_v40 : StableHlo.after hostOps2 V (Proc.devRef .tc main_v40)
    = lossOf (V (Proc.devRef .tc main_v37) : FVec F S2x1x1 .f32) := by
  after_results
  rfl

private theorem s6_v35 : StableHlo.after hostOps2 V (Proc.devRef .tc main_v35) = V (Proc.devRef .tc main_v35) := by
  after_results

end Stretch

variable (m : (ℓ : Loc nD τ sig) → Buf (Elt F) ℓ) (ρ : Dev nD → PrngReg)

/-- The first launch finds the features as launched … -/
theorem V1_arg0 (c : Dev nD) : V1 m ρ c main_arg0 = m ((c : Thread nD τ).loc main_arg0) := by
  show StableHlo.after hostOps0 (W0 m ρ c) (Proc.devRef .tc main_arg0) = _
  after_results

/-- … and the labels as a column. -/
theorem V1_v0 (c : Dev nD) :
    V1 m ρ c main_v0 = shapeCast S262144x1 (m ((c : Thread nD τ).loc main_arg1)) shapeCasts_S262144_S262144x1 := by
  show StableHlo.after hostOps0 (W0 m ρ c) (Proc.devRef .tc main_v0) = _
  after_results
  rfl

/-- The first launch leaves its input arrays as it found them. -/
private theorem W2_arg0 (c : Dev nD) : W2 m ρ c (Proc.devRef .tc main_arg0) = V1 m ρ c main_arg0 :=
  (W2_arr m ρ c 0).trans (((dat0 (V1 m ρ) c).arrAt_in 0 rfl _).trans (A_eq0 (V1 m ρ) c 0))
private theorem W2_v0 (c : Dev nD) : W2 m ρ c (Proc.devRef .tc main_v0) = V1 m ρ c main_v0 :=
  (W2_arr m ρ c 1).trans (((dat0 (V1 m ρ) c).arrAt_in 1 rfl _).trans (A_eq0 (V1 m ρ) c 1))

/-- The second launch finds the features as launched, -/
theorem V7_arg0 (c : Dev nD) : V7 m ρ c main_arg0 = m ((c : Thread nD τ).loc main_arg0) :=
  (mid_arg0 (W2 m ρ c)).trans ((W2_arg0 m ρ c).trans (V1_arg0 m ρ c))

/-- the labels as a column, -/
theorem V7_v0 (c : Dev nD) :
    V7 m ρ c main_v0 = shapeCast S262144x1 (m ((c : Thread nD τ).loc main_arg1)) shapeCasts_S262144_S262144x1 :=
  (mid_v0 (W2 m ρ c)).trans ((W2_v0 m ρ c).trans (V1_v0 m ρ c))

/-- The stored class rows reach the host computation as launched. -/
private theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results

/-- The mixed rows from what the first launch left. -/
private theorem W5_v30 (c : Dev nD) : (W5 m ρ c (Proc.devRef .tc main_v30) : FVec F S1000x256 .f32)
    = mixedK (sumsOf ((dat0 (V1 m ρ) c).arrAt 2 cfg0.N)) (flagsOf ((dat0 (V1 m ρ) c).arrAt 3 cfg0.N))
        (m ((c : Thread nD τ).loc main_arg2)) := by
  refine (s23_v30 (W3 m ρ c)).trans ?_
  have e2 : W3 m ρ c (Proc.devRef .tc main_v2) = sumsOf ((dat0 (V1 m ρ) c).arrAt 2 cfg0.N) :=
    (s1_v2 (W2 m ρ c)).trans (congrArg sumsOf (W2_arr m ρ c 2))
  have e8 : W3 m ρ c (Proc.devRef .tc main_v8) = flagsOf ((dat0 (V1 m ρ) c).arrAt 3 cfg0.N) :=
    (s1_v8 (W2 m ρ c)).trans (congrArg flagsOf (W2_arr m ρ c 3))
  have ea : W3 m ρ c (Proc.devRef .tc main_arg2) = m ((c : Thread nD τ).loc main_arg2) :=
    (s1_arg2 (W2 m ρ c)).trans (W2_arg2 m ρ c)
  rw [e2, e8, ea]

/-- The updated class rows at the second launch. -/
private theorem W7_v35 (c : Dev nD) : W7 m ρ c (Proc.devRef .tc main_v35)
    = newMemK ((dat0 (V1 m ρ) c).arrAt 2 cfg0.N) ((dat0 (V1 m ρ) c).arrAt 3 cfg0.N) (m ((c : Thread nD τ).loc main_arg2)) := by
  refine (s45_v35 (W5 m ρ c)).trans ?_
  rw [W5_v30 m ρ c, newMemK_eq]

/-- and the updated class rows, narrowed, computed from what the first launch left. -/
theorem V7_v36 (c : Dev nD) :
    V7 m ρ c main_v36 = truncf .bf16 (newMemK ((dat0 (V1 m ρ) c).arrAt 2 cfg0.N) ((dat0 (V1 m ρ) c).arrAt 3 cfg0.N)
      (m ((c : Thread nD τ).loc main_arg2))) bitsLt_bf16_f32 := by
  refine (s45_v36 (W5 m ρ c)).trans ?_
  rw [W5_v30 m ρ c, newMemK_eq]

/-- The second result: the updated class rows. -/
theorem W9_v35 (c : Dev nD) :
    W9 m ρ c (Proc.devRef .tc main_v35) = newMemK ((dat0 (V1 m ρ) c).arrAt 2 cfg0.N) ((dat0 (V1 m ρ) c).arrAt 3 cfg0.N)
      (m ((c : Thread nD τ).loc main_arg2)) :=
  (s6_v35 (W8 m ρ c)).trans ((W8_of_ne m ρ c main_v35 (by decide)).trans (W7_v35 m ρ c))

/-- The first result: the loss from what the second launch left. -/
theorem W9_v40 (c : Dev nD) :
    W9 m ρ c (Proc.devRef .tc main_v40) = lossOf ((dat1 (V7 m ρ) c).arrAt 3 cfg1.N) :=
  (s6_v40 (W8 m ρ c)).trans (congrArg lossOf (W8_arr m ρ c 3))

end Cert.KernelIdeal.HostValue

end
-- ==== Proof.Spec.lean ====
/-
  The mathematics shared by the two programs, over the extended reals and plain coordinates.

  A feature row x (256 entries) is divided by its Euclidean norm clamped below by a small constant ε.  For a class k
  the class total is the sum of the normalised rows whose label is k, and the class count the number of such rows.
  Against a table of class rows, row b's logit for class k is the inner product of its normalised row with the
  table's row k, scaled by the inverse temperature; the row's log-probability of its own label is that logit less
  the row's largest logit less the logarithm of the sum of the exponentials of the shifted logits.  The loss is the
  mean over the batch of the negated log-probabilities.

  The batch of 262144 rows is walked as 2 halves of 64 tiles of 2048 rows: row (c, j, r) is row (64 c + j) 2048 + r.
-/
import Idealize.ShloMosaic.PureOps.Ideal.Laws
import Idealize.ShloMosaic.Lib.ValueIdx

noncomputable section

namespace Cert.SegLoss

open Idealize.ShloMosaic

/-- The clamp ε under the norm, as the word both programs carry. -/
def epsv : EReal := Ideal.ofBits .f32 0x2B8CBCCC#32

/-- The inverse temperature: the reciprocal of the temperature's own binary value. -/
def invT : EReal := ((134217728 / 13421773 : ℝ) : EReal)

/-- The temperature as the reference's word. -/
def tempv : EReal := Ideal.ofBits .f32 0x3DCCCCCD#32

/-- The batch size as the word both programs divide by. -/
def batchv : EReal := Ideal.ofBits .f32 0x48800000#32

/-- A row's Euclidean norm, clamped below by ε. -/
def cnorm (x : Fin 256 → EReal) : EReal := max (Ideal.sqrt (∑ d, x d * x d)) epsv

/-- The row divided by its clamped norm. -/
def unit (x : Fin 256 → EReal) (d : Fin 256) : EReal := Ideal.div (x d) (cnorm x)

/-- 1 when the label word is class k, else 0. -/
def hot (l : BitVec 32) (k : Fin 1000) : EReal := if l = BitVec.ofNat 32 k.val then 1 else 0

/-- Row (c, j, r) of the batch: half c, tile j of the half, row r of the tile. -/
def brow (c : Fin 2) (j : Fin 64) (r : Fin 2048) : Fin 262144 :=
  ⟨(c.val * 64 + j.val) * 2048 + r.val, by have := c.isLt; have := j.isLt; have := r.isLt; omega⟩

/-- Half c's share of class k's total at column d: over the half's tiles and their rows. -/
def halfSum (feat : Fin 262144 → Fin 256 → EReal) (lab : Fin 262144 → BitVec 32) (c : Fin 2) (k : Fin 1000)
    (d : Fin 256) : EReal :=
  ∑ j : Fin 64, ∑ r : Fin 2048, hot (lab (brow c j r)) k * unit (feat (brow c j r)) d

/-- Half c's share of class k's count. -/
def halfCount (lab : Fin 262144 → BitVec 32) (c : Fin 2) (k : Fin 1000) : EReal :=
  ∑ j : Fin 64, ∑ r : Fin 2048, 1 * hot (lab (brow c j r)) k

/-- Class k's total at column d: the normalised rows labelled k, summed. -/
def classSum (feat : Fin 262144 → Fin 256 → EReal) (lab : Fin 262144 → BitVec 32) (k : Fin 1000) (d : Fin 256) : EReal :=
  ∑ b ∈ Finset.univ.filter (fun b => lab b = BitVec.ofNat 32 k.val), unit (feat b) d

/-- Class k's count: one for each row labelled k. -/
def classCount (lab : Fin 262144 → BitVec 32) (k : Fin 1000) (one : EReal) : EReal :=
  ∑ b ∈ Finset.univ.filter (fun b => lab b = BitVec.ofNat 32 k.val), one

/-- The largest of a row's logits (from −∞). -/
def rowMax (s : Fin 1000 → EReal) : EReal := (Finset.univ : Finset (Fin 1000)).fold max ⊥ s

/-- The logarithm of the sum of the exponentials of the logits shifted by their maximum. -/
def lse (s : Fin 1000 → EReal) : EReal := Ideal.log (∑ k, Ideal.exp (s k - rowMax s))

/-- The log-probability of class l. -/
def logp (s : Fin 1000 → EReal) (l : Fin 1000) : EReal := (s l - rowMax s) - lse s

/-- The logit a label word selects by comparison with every class: the sum of the logits masked by the indicator. -/
def pick (s : Fin 1000 → EReal) (l : BitVec 32) : EReal := ∑ k : Fin 1000, if l = BitVec.ofNat 32 k.val then s k else 0

/-- The kernel's logits of a row against a table: inner products scaled by the inverse temperature. -/
def logitK (x : Fin 256 → EReal) (nm : Fin 1000 → Fin 256 → EReal) (k : Fin 1000) : EReal :=
  (∑ d, unit x d * nm k d) * invT

/-- The reference's logits: inner products divided by the temperature. -/
def logitR (x : Fin 256 → EReal) (nm : Fin 1000 → Fin 256 → EReal) (k : Fin 1000) : EReal :=
  Ideal.div (∑ d, unit x d * nm k d) tempv

/-- A row's negated log-probability of its label as the kernel forms it. -/
def rowLossK (x : Fin 256 → EReal) (l : BitVec 32) (nm : Fin 1000 → Fin 256 → EReal) : EReal :=
  0 - ((pick (logitK x nm) l - rowMax (logitK x nm)) - lse (logitK x nm))

/-- Half c's share of the summed loss. -/
def halfLoss (feat : Fin 262144 → Fin 256 → EReal) (lab : Fin 262144 → BitVec 32) (nm : Fin 1000 → Fin 256 → EReal)
    (c : Fin 2) : EReal :=
  ∑ j : Fin 64, ∑ r : Fin 2048, rowLossK (feat (brow c j r)) (lab (brow c j r)) nm

end Cert.SegLoss

end
-- ==== Proof.LibColumn.lean ====
/-
  A column kept after a sum over the last axis, read at an index.

  A length-a vector viewed as an a × 1 column reads, at (i, 0), the vector at i; an a × 1 column repeated along
  b columns reads, at (i, j), the column at (i, 0), whatever j. Together they say that a row total broadcast
  back over its row is that total at every column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KSegPay.lean ====
/-
  The first kernel's arithmetic at one entry, over the extended reals.  On a tile of 2048 feature rows and their
  labels the kernel forms the class indicators (a label compared with every class), normalises every row, and adds to
  the running class totals the product of the transposed indicators with the normalised rows — at class k and column d
  the sum over the tile's rows r of indicator(r, k) · normalised(r, d) — and to the running counts the product of a row
  of ones with the indicators.  The reset stores zeros.
-/
import proofs.«407345_j1580547965106_3_alg».proof.Proof.Gen.KernelIdeal.Skeleton
import proofs.«407345_j1580547965106_3_alg».proof.Proof.Spec
import proofs.«407345_j1580547965106_3_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.SegPay

open Cert.KernelIdeal Cert.KernelIdeal.Gen
open Idealize.ShloMosaic Idealize.ShloMosaic.ValueIdx

/-- The totals' reset block is zero everywhere. -/
theorem pay2_apply (i : S1x1000x256.Idx) : k0_pay2 (F := Ideal) i = 0 :=
  Ideal.ofBits_zero_f32

/-- The counts' reset block is zero everywhere. -/
theorem pay3_apply (i : S1x1x1000.Idx) : k0_pay3 (F := Ideal) i = 0 :=
  Ideal.ofBits_zero_f32

/-- A one-bit comparison result widened to a word and read as a signed integer is the indicator of equality. -/
private theorem hot_word (a : BitVec 32) (k : Fin 1000) :
    (((((IntOp.cmpi .eq a (BitVec.ofNat 32 k.val)).setWidth 32).toInt : ℤ) : ℝ) : EReal) = Cert.SegLoss.hot a k := by
  unfold Cert.SegLoss.hot IntOp.cmpi
  have h1 : ((BitVec.ofBool true).setWidth 32).toInt = 1 := by decide
  have h0 : ((BitVec.ofBool false).setWidth 32).toInt = 0 := by decide
  by_cases h : a = BitVec.ofNat 32 k.val
  · have hb : (a == BitVec.ofNat 32 k.val) = true := by simp [h]
    rw [if_pos h]
    show ((((BitVec.ofBool (a == BitVec.ofNat 32 k.val)).setWidth 32).toInt : ℝ) : EReal) = 1
    rw [hb, h1]; simp
  · have hb : (a == BitVec.ofNat 32 k.val) = false := by simp [h]
    rw [if_neg h]
    show ((((BitVec.ofBool (a == BitVec.ofNat 32 k.val)).setWidth 32).toInt : ℝ) : EReal) = 0
    rw [hb, h0]; simp

/-- The indicator block at row r and class k: 1 when row r's label is class k, else 0 (the label column repeated
    along the classes, compared with the class numbers, read as a number). -/
private theorem pay4_apply (l : Vec Ideal S2048x1 .i32) (r : Fin 2048) (k : Fin 1000) :
    k0_pay4 (F := Ideal) l (ix2 r k) = Cert.SegLoss.hot (l (ix2 r (0 : Fin 1))) k := by
  unfold k0_pay4
  have e1 : broadcastTo S2048x1000 (shapeCast S2048x1 l shapeCasts_S2048x1_S2048x1) broadcasts_S2048x1_S2048x1000 (ix2 r k) = l (ix2 r (0 : Fin 1)) :=
    (Cert.LibColumn.broadcastTo_a1_ab_apply _ _ r k).trans (congrFun (shapeCast_self l shapeCasts_S2048x1_S2048x1) _)
  have e2 : iota .tc S2048x1000 32 [1] iota_S2048x1000_d1_w32 (ix2 r k) = BitVec.ofNat 32 k.val :=
    iota_single_apply .tc S2048x1000 32 1 iota_S2048x1000_d1_w32 (ix2 r k)
  refine Eq.trans ?_ (hot_word (l (ix2 r (0 : Fin 1))) k)
  show (((((IntOp.cmpi .eq (broadcastTo S2048x1000 (shapeCast S2048x1 l shapeCasts_S2048x1_S2048x1) broadcasts_S2048x1_S2048x1000 (ix2 r k)) (iota .tc S2048x1000 32 [1] iota_S2048x1000_d1_w32 (ix2 r k))).setWidth 32).toInt : ℤ) : ℝ) : EReal) = _
  rw [e1, e2]

/-- The tile's rows divided by their clamped norms, as the kernel forms them. -/
private def nrm (x : Vec Ideal S2048x256 .f32) : FVec Ideal S2048x256 .bf16 :=
  have v3 : FVec Ideal S2048x256 .f32 := x
  truncf .bf16 (divf v3 (broadcastTo S2048x256 (maximumf (sqrt (shapeCast S2048x1 (multiReduction .add [1] S2048 (mulf v3 v3) 0x00000000#32 reduces_S2048x256_S2048 (.inl rfl) rfl) shapeCasts_S2048_S2048x1)) (broadcast S2048x1 (Scalar.ofBits .f32 0x2B8CBCCC#32))) broadcasts_S2048x1_S2048x256)) bitsLt_bf16_f32

/-- The sum of a row's squares. -/
private theorem rowsq_apply (x : FVec Ideal S2048x256 .f32) (r : Fin 2048) :
    multiReduction .add [1] S2048 (mulf x x) 0x00000000#32 reduces_S2048x256_S2048 (.inl rfl) rfl (ix1 r)
      = ∑ d : Fin 256, x (ix2 r d) * x (ix2 r d) := by
  refine (Ideal.multiReduction_add_single (mulf x x) 0x00000000#32 reduces_S2048x256_S2048 (.inl rfl) rfl (ix1 r)).trans ?_
  refine Finset.sum_congr rfl fun d _ => ?_
  have e : reduces_S2048x256_S2048.lift (ix1 r) d = ix2 r d := by
    funext c; apply Fin.ext
    fin_cases c <;> rfl
  exact congrArg (fun j => x j * x j) e

/-- The normalised block at row r and column d: the entry divided by the row's clamped Euclidean norm. -/
private theorem nrm_apply (x : Vec Ideal S2048x256 .f32) (r : Fin 2048) (d : Fin 256) :
    nrm x (ix2 r d) = Cert.SegLoss.unit (fun d' => x (ix2 r d')) d := by
  unfold nrm Cert.SegLoss.unit Cert.SegLoss.cnorm
  show Ideal.div (x (ix2 r d)) (broadcastTo S2048x256 _ broadcasts_S2048x1_S2048x256 (ix2 r d)) = _
  refine congrArg (Ideal.div (x (ix2 r d))) ?_
  refine (Cert.LibColumn.broadcastTo_a1_ab_apply _ _ r d).trans ?_
  show max (Ideal.sqrt (shapeCast S2048x1 _ shapeCasts_S2048_S2048x1 (ix2 r (0 : Fin 1)))) (Ideal.ofBits .f32 0x2B8CBCCC#32) = _
  refine congrArg (fun t => max (Ideal.sqrt t) (Ideal.ofBits .f32 0x2B8CBCCC#32)) ?_
  refine (Cert.LibColumn.shapeCast_a_a1_apply _ _ r (0 : Fin 1)).trans ?_
  exact rowsq_apply x r

/-! The first product contracts the row axis of both operands: at output (k, d) and row r the left operand is read
    at (r, k) and the right at (r, d).  The four coordinate facts, axis by axis. -/

private theorem lhs5_0 (i : S1000x256.Idx) (q : dot_S2048x1000_S2048x256_S1000x256_0_0_1_1_n_n.contr.Idx) :
    (dot_S2048x1000_S2048x256_S1000x256_0_0_1_1_n_n.lhsIdx i q 0).val = (q ⟨0, by decide⟩).val :=
  dot_S2048x1000_S2048x256_S1000x256_0_0_1_1_n_n.lhsIdx_val_of_single rfl i q
private theorem lhs5_1 (i : S1000x256.Idx) (q : dot_S2048x1000_S2048x256_S1000x256_0_0_1_1_n_n.contr.Idx) :
    (dot_S2048x1000_S2048x256_S1000x256_0_0_1_1_n_n.lhsIdx i q 1).val = (i 0).val := by
  unfold DotDims.lhsIdx
  rw [dif_neg (show ¬(1 : Fin S2048x1000.rank) ∈ dot_S2048x1000_S2048x256_S1000x256_0_0_1_1_n_n.lhsBatch by decide), dif_pos (show (1 : Fin S2048x1000.rank) ∈ dot_S2048x1000_S2048x256_S1000x256_0_0_1_1_n_n.lhsNonContracting by decide)]
  rfl
private theorem rhs5_0 (i : S1000x256.Idx) (q : dot_S2048x1000_S2048x256_S1000x256_0_0_1_1_n_n.contr.Idx) :
    (dot_S2048x1000_S2048x256_S1000x256_0_0_1_1_n_n.rhsIdx i q 0).val = (q ⟨0, by decide⟩).val :=
  dot_S2048x1000_S2048x256_S1000x256_0_0_1_1_n_n.rhsIdx_val_of_single rfl i q
private theorem rhs5_1 (i : S1000x256.Idx) (q : dot_S2048x1000_S2048x256_S1000x256_0_0_1_1_n_n.contr.Idx) :
    (dot_S2048x1000_S2048x256_S1000x256_0_0_1_1_n_n.rhsIdx i q 1).val = (i 1).val := by
  unfold DotDims.rhsIdx
  rw [dif_neg (show ¬(1 : Fin S2048x256.rank) ∈ dot_S2048x1000_S2048x256_S1000x256_0_0_1_1_n_n.rhsBatch by decide), dif_pos (show (1 : Fin S2048x256.rank) ∈ dot_S2048x1000_S2048x256_S1000x256_0_0_1_1_n_n.rhsNonContracting by decide)]
  rfl

/-- The product of the transposed indicators with the rows, into zeros: entry (k, d) sums over the tile's rows. -/
private theorem mm5_apply (A : FVec Ideal S2048x1000 .bf16) (B : FVec Ideal S2048x256 .bf16) (k : Fin 1000) (d : Fin 256) :
    matmul dot_S2048x1000_S2048x256_S1000x256_0_0_1_1_n_n none A B (constant S1000x256 .f32 0x00000000#32) (ix2 k d)
      = ∑ r : Fin 2048, A (ix2 r k) * B (ix2 r d) := by
  refine (Ideal.matmul_constant_zero_apply dot_S2048x1000_S2048x256_S1000x256_0_0_1_1_n_n none A B (ix2 k d)).trans ?_
  rw [← Equiv.sum_comp (contrEquiv1 dot_S2048x1000_S2048x256_S1000x256_0_0_1_1_n_n 2048 rfl rfl).symm]
  refine Finset.sum_congr rfl fun r _ => ?_
  have hk := contrEquiv1_symm_val dot_S2048x1000_S2048x256_S1000x256_0_0_1_1_n_n 2048 rfl rfl r
  have el : dot_S2048x1000_S2048x256_S1000x256_0_0_1_1_n_n.lhsIdx (ix2 k d) ((contrEquiv1 dot_S2048x1000_S2048x256_S1000x256_0_0_1_1_n_n 2048 rfl rfl).symm r) = ix2 r k := funext fun a => Fin.ext (by
    match a with
    | ⟨0, _⟩ => exact (lhs5_0 _ _).trans hk
    | ⟨1, _⟩ => exact lhs5_1 _ _)
  have er : dot_S2048x1000_S2048x256_S1000x256_0_0_1_1_n_n.rhsIdx (ix2 k d) ((contrEquiv1 dot_S2048x1000_S2048x256_S1000x256_0_0_1_1_n_n 2048 rfl rfl).symm r) = ix2 r d := funext fun a => Fin.ext (by
    match a with
    | ⟨0, _⟩ => exact (rhs5_0 _ _).trans hk
    | ⟨1, _⟩ => exact rhs5_1 _ _)
  rw [el, er]

/-! The second product contracts the row axis likewise: at output (u, k) and row r the left operand is read at (r, u)
    and the right at (r, k). -/

private theorem lhs6_0 (i : S1x1000.Idx) (q : dot_S2048x1_S2048x1000_S1x1000_0_0_1_1_n_n.contr.Idx) :
    (dot_S2048x1_S2048x1000_S1x1000_0_0_1_1_n_n.lhsIdx i q 0).val = (q ⟨0, by decide⟩).val :=
  dot_S2048x1_S2048x1000_S1x1000_0_0_1_1_n_n.lhsIdx_val_of_single rfl i q
private theorem lhs6_1 (i : S1x1000.Idx) (q : dot_S2048x1_S2048x1000_S1x1000_0_0_1_1_n_n.contr.Idx) :
    (dot_S2048x1_S2048x1000_S1x1000_0_0_1_1_n_n.lhsIdx i q 1).val = (i 0).val := by
  unfold DotDims.lhsIdx
  rw [dif_neg (show ¬(1 : Fin S2048x1.rank) ∈ dot_S2048x1_S2048x1000_S1x1000_0_0_1_1_n_n.lhsBatch by decide), dif_pos (show (1 : Fin S2048x1.rank) ∈ dot_S2048x1_S2048x1000_S1x1000_0_0_1_1_n_n.lhsNonContracting by decide)]
  rfl
private theorem rhs6_0 (i : S1x1000.Idx) (q : dot_S2048x1_S2048x1000_S1x1000_0_0_1_1_n_n.contr.Idx) :
    (dot_S2048x1_S2048x1000_S1x1000_0_0_1_1_n_n.rhsIdx i q 0).val = (q ⟨0, by decide⟩).val :=
  dot_S2048x1_S2048x1000_S1x1000_0_0_1_1_n_n.rhsIdx_val_of_single rfl i q
private theorem rhs6_1 (i : S1x1000.Idx) (q : dot_S2048x1_S2048x1000_S1x1000_0_0_1_1_n_n.contr.Idx) :
    (dot_S2048x1_S2048x1000_S1x1000_0_0_1_1_n_n.rhsIdx i q 1).val = (i 1).val := by
  unfold DotDims.rhsIdx
  rw [dif_neg (show ¬(1 : Fin S2048x1000.rank) ∈ dot_S2048x1_S2048x1000_S1x1000_0_0_1_1_n_n.rhsBatch by decide), dif_pos (show (1 : Fin S2048x1000.rank) ∈ dot_S2048x1_S2048x1000_S1x1000_0_0_1_1_n_n.rhsNonContracting by decide)]
  rfl

/-- The product of a transposed column with the indicators, into zeros: entry (0, k) sums over the tile's rows. -/
private theorem mm6_apply (A : FVec Ideal S2048x1 .bf16) (B : FVec Ideal S2048x1000 .bf16) (u : Fin 1) (k : Fin 1000) :
    matmul dot_S2048x1_S2048x1000_S1x1000_0_0_1_1_n_n none A B (constant S1x1000 .f32 0x00000000#32) (ix2 u k)
      = ∑ r : Fin 2048, A (ix2 r u) * B (ix2 r k) := by
  refine (Ideal.matmul_constant_zero_apply dot_S2048x1_S2048x1000_S1x1000_0_0_1_1_n_n none A B (ix2 u k)).trans ?_
  rw [← Equiv.sum_comp (contrEquiv1 dot_S2048x1_S2048x1000_S1x1000_0_0_1_1_n_n 2048 rfl rfl).symm]
  refine Finset.sum_congr rfl fun r _ => ?_
  have hk := contrEquiv1_symm_val dot_S2048x1_S2048x1000_S1x1000_0_0_1_1_n_n 2048 rfl rfl r
  have el : dot_S2048x1_S2048x1000_S1x1000_0_0_1_1_n_n.lhsIdx (ix2 u k) ((contrEquiv1 dot_S2048x1_S2048x1000_S1x1000_0_0_1_1_n_n 2048 rfl rfl).symm r) = ix2 r u := funext fun a => Fin.ext (by
    match a with
    | ⟨0, _⟩ => exact (lhs6_0 _ _).trans hk
    | ⟨1, _⟩ => exact lhs6_1 _ _)
  have er : dot_S2048x1_S2048x1000_S1x1000_0_0_1_1_n_n.rhsIdx (ix2 u k) ((contrEquiv1 dot_S2048x1_S2048x1000_S1x1000_0_0_1_1_n_n 2048 rfl rfl).symm r) = ix2 r k := funext fun a => Fin.ext (by
    match a with
    | ⟨0, _⟩ => exact (rhs6_0 _ _).trans hk
    | ⟨1, _⟩ => exact rhs6_1 _ _)
  rw [el, er]

/-- The bf16 word of one. -/
private theorem one_bf16 : Ideal.ofBits .bf16 0x3F80#16 = 1 := by
  simp [Ideal.ofBits, Ideal.ieee, -EReal.coe_mul]; norm_num

/-- The totals after a tile: the running total plus the tile's rows of class k, normalised, at column d. -/
theorem pay5_apply (x : Vec Ideal S2048x256 .f32) (l : Vec Ideal S2048x1 .i32) (acc : Vec Ideal S1x1000x256 .f32)
    (k : Fin 1000) (d : Fin 256) :
    k0_pay5 (F := Ideal) x l acc (ix3 (0 : Fin 1) k d)
      = acc (ix3 (0 : Fin 1) k d)
        + ∑ r : Fin 2048, Cert.SegLoss.hot (l (ix2 r (0 : Fin 1))) k * Cert.SegLoss.unit (fun d' => x (ix2 r d')) d := by
  have hdef : k0_pay5 (F := Ideal) x l acc
      = shapeCast S1x1000x256 (addf (shapeCast S1000x256 acc shapeCasts_S1x1000x256_S1000x256)
          (matmul dot_S2048x1000_S2048x256_S1000x256_0_0_1_1_n_n none (k0_pay4 (F := Ideal) l) (nrm x) (constant S1000x256 .f32 0x00000000#32)))
          shapeCasts_S1000x256_S1x1000x256 := rfl
  refine (congrFun hdef _).trans ?_
  refine (shapeCast_ab_1ab_apply _ _ (0 : Fin 1) k d).trans ?_
  refine congrArg₂ (· + ·) (shapeCast_1ab_ab_apply acc _ k d) ((mm5_apply _ _ k d).trans ?_)
  refine Finset.sum_congr rfl fun r _ => ?_
  rw [pay4_apply, nrm_apply]

/-- The counts after a tile: the running count plus one for each of the tile's rows of class k. -/
theorem pay61_apply (l : Vec Ideal S2048x1 .i32) (acc : Vec Ideal S1x1x1000 .f32) (k : Fin 1000) :
    k0_pay1 (F := Ideal) (k0_pay6 (F := Ideal) l acc) (ix3 (0 : Fin 1) (0 : Fin 1) k)
      = acc (ix3 (0 : Fin 1) (0 : Fin 1) k) + ∑ r : Fin 2048, 1 * Cert.SegLoss.hot (l (ix2 r (0 : Fin 1))) k := by
  have hdef : k0_pay6 (F := Ideal) l acc
      = addf (shapeCast S1x1000 acc shapeCasts_S1x1x1000_S1x1000)
          (matmul dot_S2048x1_S2048x1000_S1x1000_0_0_1_1_n_n none (broadcast S2048x1 (Ideal.ofBits .bf16 0x3F80#16)) (k0_pay4 (F := Ideal) l) (constant S1x1000 .f32 0x00000000#32)) := rfl
  unfold k0_pay1
  refine (shapeCast_ab_1ab_apply _ _ (0 : Fin 1) (0 : Fin 1) k).trans ?_
  refine (congrFun hdef _).trans ?_
  refine congrArg₂ (· + ·) (shapeCast_1ab_ab_apply acc _ (0 : Fin 1) k) ((mm6_apply _ _ (0 : Fin 1) k).trans ?_)
  refine Finset.sum_congr rfl fun r _ => ?_
  rw [pay4_apply]
  show Ideal.ofBits .bf16 0x3F80#16 * _ = _
  rw [one_bf16]

end Cert.KernelIdeal.SegPay

end
-- ==== Proof.KSegStruct.lean ====
/-
  What the first launch leaves in its two result arrays.  The grid has 128 points: half c (of 2) walks its 64 tiles in
  order; the point's input blocks are rows [2048 t, 2048 t + 2048) of the features and of the label column.  The
  result blocks (one per half) stay in place across a half's points: the first point of a half resets them, every
  point adds its tile, and the last point of the half writes them back.  So block c of the totals holds, at class k
  and column d, the sum over the half's tiles and their rows of indicator · normalised row, and block c of the counts
  the number of the half's rows of class k.
-/
import proofs.«407345_j1580547965106_3_alg».proof.Proof.Gen.KernelIdeal.Frame
import proofs.«407345_j1580547965106_3_alg».proof.Proof.KSegPay
import proofs.«407345_j1580547965106_3_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.SegValue

open Cert.KernelIdeal Cert.KernelIdeal.Gen
open Idealize.ShloMosaic Idealize.ShloMosaic.TcCoe Idealize.ShloMosaic.ValueIdx Idealize.SL.Sem
open Idealize.ShloMosaic.Pipeline (Dat)

section Pieces
variable {F : FTy → Type} [FloatOps F] [Named F]

private theorem hz3 : (![0, 0, 0] : Fin 3 → Nat) = fun _ => 0 := funext fun a => by fin_cases a <;> rfl
private theorem hz2 : (![0, 0] : Fin 2 → Nat) = fun _ => 0 := funext fun a => by fin_cases a <;> rfl

/-- A later point of a half leaves in the totals' block the running totals plus its tile's share. -/
private theorem out_B_2 (c : Dev nD) (i : grid0.Coords) (a2 : Memref sig .tc .vmem S2048x256 .f32) (h2 : a2.IsWhole)
    (a3 : Memref sig .tc .vmem S2048x1 .i32) (h3 : a3.IsWhole) (a4 : Memref sig .tc .vmem S1x1000x256 .f32) (h4 : a4.IsWhole)
    (a5 : Memref sig .tc .vmem S1x1x1000 .f32) (h5 : a5.IsWhole) (hc : ¬cond0_0 i)
    (x0 : Vec F S2048x256 .f32) (x1 : Vec F S2048x1 .i32) (xo2 : Vec F S1x1000x256 .f32) (xo3 : Vec F S1x1x1000 .f32) :
    out0_B_2 c i a2 h2 a3 h3 a4 h4 a5 h5 hc x0 x1 xo2 xo3 = k0_pay5 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S2048x256) hz2,
    View.ld_unit_zero (S := S2048x1) hz2, View.ld_unit_zero (S := S1x1000x256) hz3, shapeCast_self]

/-- A later point of a half leaves in the counts' block the running counts plus its tile's share. -/
private theorem out_B_3 (c : Dev nD) (i : grid0.Coords) (a2 : Memref sig .tc .vmem S2048x256 .f32) (h2 : a2.IsWhole)
    (a3 : Memref sig .tc .vmem S2048x1 .i32) (h3 : a3.IsWhole) (a4 : Memref sig .tc .vmem S1x1000x256 .f32) (h4 : a4.IsWhole)
    (a5 : Memref sig .tc .vmem S1x1x1000 .f32) (h5 : a5.IsWhole) (hc : ¬cond0_0 i)
    (x0 : Vec F S2048x256 .f32) (x1 : Vec F S2048x1 .i32) (xo2 : Vec F S1x1000x256 .f32) (xo3 : Vec F S1x1x1000 .f32) :
    out0_B_3 c i a2 h2 a3 h3 a4 h4 a5 h5 hc x0 x1 xo2 xo3 = k0_pay1 (k0_pay6 x1 xo3) := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h5.read_unread, View.ld_unit_zero (S := S2048x256) hz2,
    View.ld_unit_zero (S := S2048x1) hz2, View.ld_unit_zero (S := S1x1x1000) hz3, shapeCast_self]

/-- The first point of a half leaves in the totals' block its tile's share over the reset block. -/
private theorem out_A_2 (c : Dev nD) (i : grid0.Coords) (a2 : Memref sig .tc .vmem S2048x256 .f32) (h2 : a2.IsWhole)
    (a3 : Memref sig .tc .vmem S2048x1 .i32) (h3 : a3.IsWhole) (a4 : Memref sig .tc .vmem S1x1000x256 .f32) (h4 : a4.IsWhole)
    (a5 : Memref sig .tc .vmem S1x1x1000 .f32) (h5 : a5.IsWhole) (hc : cond0_0 i)
    (x0 : Vec F S2048x256 .f32) (x1 : Vec F S2048x1 .i32) :
    out0_A_2 c i a2 h2 a3 h3 a4 h4 a5 h5 hc x0 x1 = k0_pay5 x0 x1 k0_pay2 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1000x256) hz3, View.readCov_unit_zero (S := S1x1000x256) _ hz3]
  simp only [View.readAt_eq_ld, h2.read_unread, h3.read_unread, View.ld_unit_zero (S := S2048x256) hz2,
    View.ld_unit_zero (S := S2048x1) hz2, View.ld_unit_zero (S := S1x1000x256) hz3, shapeCast_self]

/-- The first point of a half leaves in the counts' block its tile's share over the reset block. -/
private theorem out_A_3 (c : Dev nD) (i : grid0.Coords) (a2 : Memref sig .tc .vmem S2048x256 .f32) (h2 : a2.IsWhole)
    (a3 : Memref sig .tc .vmem S2048x1 .i32) (h3 : a3.IsWhole) (a4 : Memref sig .tc .vmem S1x1000x256 .f32) (h4 : a4.IsWhole)
    (a5 : Memref sig .tc .vmem S1x1x1000 .f32) (h5 : a5.IsWhole) (hc : cond0_0 i)
    (x0 : Vec F S2048x256 .f32) (x1 : Vec F S2048x1 .i32) :
    out0_A_3 c i a2 h2 a3 h3 a4 h4 a5 h5 hc x0 x1 = k0_pay1 (k0_pay6 x1 k0_pay3) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x1000) hz3, View.readCov_unit_zero (S := S1x1x1000) _ hz3]
  simp only [View.readAt_eq_ld, h2.read_unread, h3.read_unread, View.ld_unit_zero (S := S2048x256) hz2,
    View.ld_unit_zero (S := S2048x1) hz2, View.ld_unit_zero (S := S1x1x1000) hz3, shapeCast_self]
end Pieces

variable (V : (c : Dev nD) → (b : Ref sig .tc) → Buf (Elt Ideal) ((c : Thread nD τ).loc b))

/-- The features the launch finds, by row and column. -/
abbrev featOf (c : Dev nD) (b : Fin 262144) (d : Fin 256) : EReal := (V c main_arg0 : S262144x256.Idx → EReal) (ix2 b d)

/-- The labels the launch finds, by row. -/
abbrev labOf (c : Dev nD) (b : Fin 262144) : BitVec 32 := (V c main_v0 : S262144x1.Idx → BitVec 32) (ix2 b (0 : Fin 1))

/-- The feature tile of point t. -/
abbrev xblk (c : Dev nD) (t : Fin cfg0.N) : Vec Ideal S2048x256 .f32 := iblk0 V c 0 t

/-- The label tile of point t. -/
abbrev lblk (c : Dev nD) (t : Fin cfg0.N) : Vec Ideal S2048x1 .i32 := iblk0 V c 1 t

private theorem N128 : cfg0.N = 128 := N_0

/-- Where the input windows' blocks sit: block t of the rows, block 0 of the columns. -/
private theorem idx_in : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- Where the output windows' blocks sit: the half's slab. -/
private theorem idx_out : ∀ t : Fin cfg0.N, (win0_2.index t 0 = t.val / 64 ∧ win0_2.index t 1 = 0 ∧ win0_2.index t 2 = 0) ∧ (win0_3.index t 0 = t.val / 64 ∧ win0_3.index t 1 = 0 ∧ win0_3.index t 2 = 0) :=
  (by decide +kernel : ∀ t : Fin grid0.N, (win0_2.index t 0 = t.val / 64 ∧ win0_2.index t 1 = 0 ∧ win0_2.index t 2 = 0) ∧ (win0_3.index t 0 = t.val / 64 ∧ win0_3.index t 1 = 0 ∧ win0_3.index t 2 = 0))

/-- Row r of point t's feature tile is row 2048 t + r of the features. -/
private theorem xblk_apply (c : Dev nD) (t : Fin cfg0.N) (r : Fin 2048) (d : Fin 256) (b : Fin 262144) (hb : b.val = 2048 * t.val + r.val) :
    xblk V c t (ix2 r d) = featOf V c b d := by
  unfold xblk iblk0
  rw [View.read_apply]
  show V c main_arg0 _ = V c main_arg0 _
  congr 1
  funext a
  apply Fin.ext
  match a with
  | ⟨0, _⟩ => show win0_0.index t 0 * 2048 + 1 * r.val = b.val; rw [(idx_in t).1.1]; omega
  | ⟨1, _⟩ => show win0_0.index t 1 * 256 + 1 * d.val = d.val; rw [(idx_in t).1.2]; omega

/-- Row r of point t's label tile is row 2048 t + r of the labels. -/
private theorem lblk_apply (c : Dev nD) (t : Fin cfg0.N) (r : Fin 2048) (b : Fin 262144) (hb : b.val = 2048 * t.val + r.val) :
    lblk V c t (ix2 r (0 : Fin 1)) = labOf V c b := by
  unfold lblk iblk0
  rw [View.read_apply]
  show V c main_v0 _ = V c main_v0 _
  congr 1
  funext a
  apply Fin.ext
  match a with
  | ⟨0, _⟩ => show win0_1.index t 0 * 2048 + 1 * r.val = b.val; rw [(idx_in t).2.1]; omega
  | ⟨1, _⟩ => show win0_1.index t 1 * 1 + 1 * 0 = 0; rw [(idx_in t).2.2]

/-- The share of point t's tile in the totals of class k at column d. -/
def tileSum (c : Dev nD) (t : Fin cfg0.N) (k : Fin 1000) (d : Fin 256) : EReal :=
  ∑ r : Fin 2048, Cert.SegLoss.hot (lblk V c t (ix2 r (0 : Fin 1))) k * Cert.SegLoss.unit (fun d' => xblk V c t (ix2 r d')) d

/-- The share of point t's tile in the count of class k. -/
def tileCount (c : Dev nD) (t : Fin cfg0.N) (k : Fin 1000) : EReal :=
  ∑ r : Fin 2048, 1 * Cert.SegLoss.hot (lblk V c t (ix2 r (0 : Fin 1))) k

/-- The first point of a half leaves its tile's share over zero. -/
private theorem sums_A (c : Dev nD) (t : Fin cfg0.N) (h0 : t.val % 64 = 0) (k : Fin 1000) (d : Fin 256) :
    (outsAt0 V c t.val t.isLt).1 (ix3 (0 : Fin 1) k d) = 0 + tileSum V c t k d := by
  rw [outsAt0_A V c t h0]
  dsimp only
  refine (congrFun (out_A_2 (F := Ideal) c (grid0.coords t) (ms0_0 t) (hs0_0 t) (ms0_1 t) (hs0_1 t) (ms0_2 t) (hs0_2 t)
    (ms0_3 t) (hs0_3 t) ((hcond0_0 t).mpr h0) (xblk V c t) (lblk V c t)) (ix3 (0 : Fin 1) k d)).trans ?_
  refine (SegPay.pay5_apply (xblk V c t) (lblk V c t) (k0_pay2 (F := Ideal)) k d).trans ?_
  rw [SegPay.pay2_apply]
  rfl

/-- A later point of a half adds its tile's share to what the point before left. -/
private theorem sums_B (c : Dev nD) (t : Fin cfg0.N) (h0 : ¬t.val % 64 = 0) (k : Fin 1000) (d : Fin 256) :
    (outsAt0 V c t.val t.isLt).1 (ix3 (0 : Fin 1) k d)
      = (outsAt0 V c (t.val - 1) (Nat.lt_of_le_of_lt (Nat.sub_le _ _) t.isLt)).1 (ix3 (0 : Fin 1) k d) + tileSum V c t k d := by
  rw [outsAt0_B V c t h0]
  dsimp only
  refine (congrFun (out_B_2 (F := Ideal) c (grid0.coords t) (ms0_0 t) (hs0_0 t) (ms0_1 t) (hs0_1 t) (ms0_2 t) (hs0_2 t)
    (ms0_3 t) (hs0_3 t) (fun h => h0 ((hcond0_0 t).mp h)) (xblk V c t) (lblk V c t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) k d)).trans ?_
  exact SegPay.pay5_apply (xblk V c t) (lblk V c t) (outsAt0 V c (t.val - 1) (Nat.lt_of_le_of_lt (Nat.sub_le _ _) t.isLt)).1 k d

/-- The first point of a half leaves its tile's count over zero. -/
private theorem counts_A (c : Dev nD) (t : Fin cfg0.N) (h0 : t.val % 64 = 0) (k : Fin 1000) :
    (outsAt0 V c t.val t.isLt).2 (ix3 (0 : Fin 1) (0 : Fin 1) k) = 0 + tileCount V c t k := by
  rw [outsAt0_A V c t h0]
  dsimp only
  refine (congrFun (out_A_3 (F := Ideal) c (grid0.coords t) (ms0_0 t) (hs0_0 t) (ms0_1 t) (hs0_1 t) (ms0_2 t) (hs0_2 t)
    (ms0_3 t) (hs0_3 t) ((hcond0_0 t).mpr h0) (xblk V c t) (lblk V c t)) (ix3 (0 : Fin 1) (0 : Fin 1) k)).trans ?_
  refine (SegPay.pay61_apply (lblk V c t) (k0_pay3 (F := Ideal)) k).trans ?_
  rw [SegPay.pay3_apply]
  rfl

/-- A later point of a half adds its tile's count to what the point before left. -/
private theorem counts_B (c : Dev nD) (t : Fin cfg0.N) (h0 : ¬t.val % 64 = 0) (k : Fin 1000) :
    (outsAt0 V c t.val t.isLt).2 (ix3 (0 : Fin 1) (0 : Fin 1) k)
      = (outsAt0 V c (t.val - 1) (Nat.lt_of_le_of_lt (Nat.sub_le _ _) t.isLt)).2 (ix3 (0 : Fin 1) (0 : Fin 1) k) + tileCount V c t k := by
  rw [outsAt0_B V c t h0]
  dsimp only
  refine (congrFun (out_B_3 (F := Ideal) c (grid0.coords t) (ms0_0 t) (hs0_0 t) (ms0_1 t) (hs0_1 t) (ms0_2 t) (hs0_2 t)
    (ms0_3 t) (hs0_3 t) (fun h => h0 ((hcond0_0 t).mp h)) (xblk V c t) (lblk V c t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) (0 : Fin 1) k)).trans ?_
  exact SegPay.pay61_apply (lblk V c t) (outsAt0 V c (t.val - 1) (Nat.lt_of_le_of_lt (Nat.sub_le _ _) t.isLt)).2 k

/-- Point 64 c' + j's tile holds the rows (c', j, ·) of the batch: its share of the totals in the batch's own terms. -/
private theorem tileSum_eq (c : Dev nD) (t : Fin cfg0.N) (c' : Fin 2) (j : Fin 64) (ht : t.val = 64 * c'.val + j.val)
    (k : Fin 1000) (d : Fin 256) :
    tileSum V c t k d = ∑ r : Fin 2048, Cert.SegLoss.hot (labOf V c (Cert.SegLoss.brow c' j r)) k
      * Cert.SegLoss.unit (featOf V c (Cert.SegLoss.brow c' j r)) d := by
  unfold tileSum
  refine Finset.sum_congr rfl fun r _ => ?_
  have hb : (Cert.SegLoss.brow c' j r).val = 2048 * t.val + r.val := by
    show (c'.val * 64 + j.val) * 2048 + r.val = _
    rw [ht]; omega
  have hx : (fun d' => xblk V c t (ix2 r d')) = featOf V c (Cert.SegLoss.brow c' j r) :=
    funext fun d' => xblk_apply V c t r d' _ hb
  rw [lblk_apply V c t r _ hb, hx]

/-- The same for the counts. -/
private theorem tileCount_eq (c : Dev nD) (t : Fin cfg0.N) (c' : Fin 2) (j : Fin 64) (ht : t.val = 64 * c'.val + j.val)
    (k : Fin 1000) :
    tileCount V c t k = ∑ r : Fin 2048, 1 * Cert.SegLoss.hot (labOf V c (Cert.SegLoss.brow c' j r)) k := by
  unfold tileCount
  refine Finset.sum_congr rfl fun r _ => ?_
  have hb : (Cert.SegLoss.brow c' j r).val = 2048 * t.val + r.val := by
    show (c'.val * 64 + j.val) * 2048 + r.val = _
    rw [ht]; omega
  rw [lblk_apply V c t r _ hb]

/-- Tile s of half c' in the totals of class k at column d; nothing past the half's 64 tiles. -/
def halfTile (c : Dev nD) (c' : Fin 2) (k : Fin 1000) (d : Fin 256) (s : Nat) : EReal :=
  if hs : s < 64 then ∑ r : Fin 2048, Cert.SegLoss.hot (labOf V c (Cert.SegLoss.brow c' ⟨s, hs⟩ r)) k
    * Cert.SegLoss.unit (featOf V c (Cert.SegLoss.brow c' ⟨s, hs⟩ r)) d else 0

/-- Tile s of half c' in the count of class k. -/
def halfTileCount (c : Dev nD) (c' : Fin 2) (k : Fin 1000) (s : Nat) : EReal :=
  if hs : s < 64 then ∑ r : Fin 2048, 1 * Cert.SegLoss.hot (labOf V c (Cert.SegLoss.brow c' ⟨s, hs⟩ r)) k else 0

private theorem outs_cast (c : Dev nD) (u n : Nat) (hu : u < cfg0.N) (hn : n < cfg0.N) (e : u = n) :
    outsAt0 V c u hu = outsAt0 V c n hn := by subst e; rfl

/-- After tile j of half c' the totals' block holds the sum of the half's tiles 0 … j: by induction on j. -/
private theorem sums_inv (c : Dev nD) (c' : Fin 2) (k : Fin 1000) (d : Fin 256) :
    ∀ (j : Nat) (hj : j < 64) (h : 64 * c'.val + j < cfg0.N),
      (outsAt0 V c (64 * c'.val + j) h).1 (ix3 (0 : Fin 1) k d) = ∑ s ∈ Finset.range (j + 1), halfTile V c c' k d s
  | 0, hj, h => by
    have hA := sums_A V c ⟨64 * c'.val + 0, h⟩ (by show (64 * c'.val + 0) % 64 = 0; omega) k d
    rw [Finset.sum_range_one]
    refine hA.trans ?_
    rw [zero_add, tileSum_eq V c ⟨64 * c'.val + 0, h⟩ c' ⟨0, hj⟩ rfl k d]
    unfold halfTile; rw [dif_pos hj]
  | j + 1, hj, h => by
    have hB := sums_B V c ⟨64 * c'.val + (j + 1), h⟩ (by show ¬(64 * c'.val + (j + 1)) % 64 = 0; omega) k d
    refine hB.trans ?_
    rw [Finset.sum_range_succ _ (j + 1)]
    congr 1
    · rw [← sums_inv c c' k d j (Nat.lt_of_succ_lt hj) (by omega)]
      exact congrArg (fun p => p.1 (ix3 (0 : Fin 1) k d))
        (outs_cast V c _ _ _ _ (by show 64 * c'.val + (j + 1) - 1 = 64 * c'.val + j; omega))
    · rw [tileSum_eq V c ⟨64 * c'.val + (j + 1), h⟩ c' ⟨j + 1, hj⟩ rfl k d]
      unfold halfTile; rw [dif_pos hj]

/-- After tile j of half c' the counts' block holds the sum of the counts of the half's tiles 0 … j. -/
private theorem counts_inv (c : Dev nD) (c' : Fin 2) (k : Fin 1000) :
    ∀ (j : Nat) (hj : j < 64) (h : 64 * c'.val + j < cfg0.N),
      (outsAt0 V c (64 * c'.val + j) h).2 (ix3 (0 : Fin 1) (0 : Fin 1) k) = ∑ s ∈ Finset.range (j + 1), halfTileCount V c c' k s
  | 0, hj, h => by
    have hA := counts_A V c ⟨64 * c'.val + 0, h⟩ (by show (64 * c'.val + 0) % 64 = 0; omega) k
    rw [Finset.sum_range_one]
    refine hA.trans ?_
    rw [zero_add, tileCount_eq V c ⟨64 * c'.val + 0, h⟩ c' ⟨0, hj⟩ rfl k]
    unfold halfTileCount; rw [dif_pos hj]
  | j + 1, hj, h => by
    have hB := counts_B V c ⟨64 * c'.val + (j + 1), h⟩ (by show ¬(64 * c'.val + (j + 1)) % 64 = 0; omega) k
    refine hB.trans ?_
    rw [Finset.sum_range_succ _ (j + 1)]
    congr 1
    · rw [← counts_inv c c' k j (Nat.lt_of_succ_lt hj) (by omega)]
      exact congrArg (fun p => p.2 (ix3 (0 : Fin 1) (0 : Fin 1) k))
        (outs_cast V c _ _ _ _ (by show 64 * c'.val + (j + 1) - 1 = 64 * c'.val + j; omega))
    · rw [tileCount_eq V c ⟨64 * c'.val + (j + 1), h⟩ c' ⟨j + 1, hj⟩ rfl k]
      unfold halfTileCount; rw [dif_pos hj]

/-- The half's 64 tiles together are the half's share of the totals. -/
private theorem sum_halfTile (c : Dev nD) (c' : Fin 2) (k : Fin 1000) (d : Fin 256) :
    ∑ s ∈ Finset.range 64, halfTile V c c' k d s = Cert.SegLoss.halfSum (featOf V c) (labOf V c) c' k d := by
  unfold Cert.SegLoss.halfSum
  rw [Finset.sum_range]
  refine Finset.sum_congr rfl fun j _ => ?_
  unfold halfTile
  rw [dif_pos j.isLt]

/-- The half's 64 tiles together are the half's share of the counts. -/
private theorem sum_halfTileCount (c : Dev nD) (c' : Fin 2) (k : Fin 1000) :
    ∑ s ∈ Finset.range 64, halfTileCount V c c' k s = Cert.SegLoss.halfCount (labOf V c) c' k := by
  unfold Cert.SegLoss.halfCount
  rw [Finset.sum_range]
  refine Finset.sum_congr rfl fun j _ => ?_
  unfold halfTileCount
  rw [dif_pos j.isLt]

/-- What the totals array ends holding: at (c', k, d) the half's share. -/
def G2 (c : Dev nD) : S2x1000x256.Idx → EReal :=
  fun i => Cert.SegLoss.halfSum (featOf V c) (labOf V c) (i 0) (i 1) (i 2)

/-- What the counts array ends holding: at (c', 0, k) the half's count. -/
def G3 (c : Dev nD) : S2x1x1000.Idx → EReal :=
  fun i => Cert.SegLoss.halfCount (labOf V c) (i 0) (i 2)

/-- At the last point of half c' the totals' block holds the half's share. -/
private theorem sums_last (c : Dev nD) (t : Fin cfg0.N) (c' : Fin 2) (ht : t.val = 64 * c'.val + 63) (k : Fin 1000) (d : Fin 256) :
    (outsAt0 V c t.val t.isLt).1 (ix3 (0 : Fin 1) k d) = Cert.SegLoss.halfSum (featOf V c) (labOf V c) c' k d := by
  have h : 64 * c'.val + 63 < cfg0.N := ht ▸ t.isLt
  rw [← sum_halfTile V c c' k d, ← sums_inv V c c' k d 63 (by omega) h]
  exact congrArg (fun p => p.1 (ix3 (0 : Fin 1) k d)) (outs_cast V c _ _ _ _ ht)

/-- At the last point of half c' the counts' block holds the half's count. -/
private theorem counts_last (c : Dev nD) (t : Fin cfg0.N) (c' : Fin 2) (ht : t.val = 64 * c'.val + 63) (k : Fin 1000) :
    (outsAt0 V c t.val t.isLt).2 (ix3 (0 : Fin 1) (0 : Fin 1) k) = Cert.SegLoss.halfCount (labOf V c) c' k := by
  have h : 64 * c'.val + 63 < cfg0.N := ht ▸ t.isLt
  rw [← sum_halfTileCount V c c' k, ← counts_inv V c c' k 63 (by omega) h]
  exact congrArg (fun p => p.2 (ix3 (0 : Fin 1) (0 : Fin 1) k)) (outs_cast V c _ _ _ _ ht)

/-- What a half's last point writes back is the half's slab of the totals. -/
private theorem flushed2_eq (c : Dev nD) (t : Fin cfg0.N) (hf : (cfg0.win 2).flush t = true) :
    (dat0 V c).flushed 2 t = ((cfg0.win 2).blk t).view.read (Elt Ideal) (G2 V c) := by
  have h63 : t.val % 64 = 63 := (flush0_2 t).mp hf
  have hN : t.val < 128 := lt_of_lt_of_eq t.isLt N128
  show (cfg0.win 2).cut (grid0.coords t) ((dat0 V c).after 2 t) = _
  rw [after0_2]
  funext y
  rw [View.read_apply]
  have hc' : t.val / 64 < 2 := by omega
  have ht : t.val = 64 * (⟨t.val / 64, hc'⟩ : Fin 2).val + 63 := by show t.val = 64 * (t.val / 64) + 63; omega
  have e0 : (y 0 : Nat) = 0 := by have : (y 0 : Nat) < 1 := (y 0).isLt; omega
  obtain ⟨k, hk⟩ : ∃ k : Fin 1000, k.val = (y 1 : Nat) := ⟨⟨(y 1 : Nat), (y 1).isLt⟩, rfl⟩
  obtain ⟨d, hd⟩ : ∃ d : Fin 256, d.val = (y 2 : Nat) := ⟨⟨(y 2 : Nat), (y 2).isLt⟩, rfl⟩
  show ((outsAt0 V c t.val t.isLt).1 : Vec Ideal S1x1000x256 .f32) ((cfg0.win 2).xinj (grid0.coords t) y) = G2 V c (((cfg0.win 2).blk t).view.emb y)
  have ex : ((cfg0.win 2).xinj (grid0.coords t) y : S1x1000x256.Idx) = ix3 (0 : Fin 1) k d :=
    funext fun a => match a with | ⟨0, _⟩ => Fin.ext e0 | ⟨1, _⟩ => Fin.ext hk.symm | ⟨2, _⟩ => Fin.ext hd.symm
  refine (congrArg ((outsAt0 V c t.val t.isLt).1 : Vec Ideal S1x1000x256 .f32) ex).trans ?_
  refine (sums_last V c t ⟨t.val / 64, hc'⟩ ht k d).trans ?_
  have a0 : (⟨t.val / 64, hc'⟩ : Fin 2) = (((cfg0.win 2).blk t).view.emb y) 0 :=
    Fin.ext (by show t.val / 64 = win0_2.index t 0 * 1 + 1 * (y 0 : Nat); rw [(idx_out t).1.1, e0]; omega)
  have a1 : k = (((cfg0.win 2).blk t).view.emb y) 1 :=
    Fin.ext (by show k.val = win0_2.index t 1 * 1000 + 1 * (y 1 : Nat); rw [(idx_out t).1.2.1, hk]; omega)
  have a2 : d = (((cfg0.win 2).blk t).view.emb y) 2 :=
    Fin.ext (by show d.val = win0_2.index t 2 * 256 + 1 * (y 2 : Nat); rw [(idx_out t).1.2.2, hd]; omega)
  exact congr (congr (congrArg (Cert.SegLoss.halfSum (featOf V c) (labOf V c)) a0) a1) a2

/-- What a half's last point writes back is the half's slab of the counts. -/
private theorem flushed3_eq (c : Dev nD) (t : Fin cfg0.N) (hf : (cfg0.win 3).flush t = true) :
    (dat0 V c).flushed 3 t = ((cfg0.win 3).blk t).view.read (Elt Ideal) (G3 V c) := by
  have h63 : t.val % 64 = 63 := (flush0_3 t).mp hf
  have hN : t.val < 128 := lt_of_lt_of_eq t.isLt N128
  show (cfg0.win 3).cut (grid0.coords t) ((dat0 V c).after 3 t) = _
  rw [after0_3]
  funext y
  rw [View.read_apply]
  have hc' : t.val / 64 < 2 := by omega
  have ht : t.val = 64 * (⟨t.val / 64, hc'⟩ : Fin 2).val + 63 := by show t.val = 64 * (t.val / 64) + 63; omega
  have e0 : (y 0 : Nat) = 0 := by have : (y 0 : Nat) < 1 := (y 0).isLt; omega
  have e1 : (y 1 : Nat) = 0 := by have : (y 1 : Nat) < 1 := (y 1).isLt; omega
  obtain ⟨k, hk⟩ : ∃ k : Fin 1000, k.val = (y 2 : Nat) := ⟨⟨(y 2 : Nat), (y 2).isLt⟩, rfl⟩
  show ((outsAt0 V c t.val t.isLt).2 : Vec Ideal S1x1x1000 .f32) ((cfg0.win 3).xinj (grid0.coords t) y) = G3 V c (((cfg0.win 3).blk t).view.emb y)
  have ex : ((cfg0.win 3).xinj (grid0.coords t) y : S1x1x1000.Idx) = ix3 (0 : Fin 1) (0 : Fin 1) k :=
    funext fun a => match a with | ⟨0, _⟩ => Fin.ext e0 | ⟨1, _⟩ => Fin.ext e1 | ⟨2, _⟩ => Fin.ext hk.symm
  refine (congrArg ((outsAt0 V c t.val t.isLt).2 : Vec Ideal S1x1x1000 .f32) ex).trans ?_
  refine (counts_last V c t ⟨t.val / 64, hc'⟩ ht k).trans ?_
  have a0 : (⟨t.val / 64, hc'⟩ : Fin 2) = (((cfg0.win 3).blk t).view.emb y) 0 :=
    Fin.ext (by show t.val / 64 = win0_3.index t 0 * 1 + 1 * (y 0 : Nat); rw [(idx_out t).2.1, e0]; omega)
  have a2 : k = (((cfg0.win 3).blk t).view.emb y) 2 :=
    Fin.ext (by show k.val = win0_3.index t 2 * 1000 + 1 * (y 2 : Nat); rw [(idx_out t).2.2.2, hk]; omega)
  exact congr (congrArg (Cert.SegLoss.halfCount (labOf V c)) a0) a2

/-- The totals array ends holding each half's share: every entry lies in the slab its half's last point writes back. -/
private theorem final2 (c : Dev nD) : (dat0 V c).arrAt 2 cfg0.N = G2 V c :=
  (dat0 V c).arrAt_eq_of_cover 2 (G2 V c) (flushed2_eq V c) fun i => by
    have hi0 : (i 0 : Nat) < 2 := (i 0).isLt
    have hi1 : (i 1 : Nat) < 1000 := (i 1).isLt
    have hi2 : (i 2 : Nat) < 256 := (i 2).isLt
    have hN : cfg0.N = 128 := N128
    have ht : 64 * (i 0).val + 63 < cfg0.N := by rw [hN]; omega
    refine ⟨⟨64 * (i 0).val + 63, ht⟩, (flush0_2 _).mpr (by show (64 * (i 0).val + 63) % 64 = 63; omega), ?_⟩
    show i ∈ ((View.whole main_v1_0).slice (win0_2.rect ⟨64 * (i 0).val + 63, ht⟩)).set
    rw [View.set_slice_whole, Rect.mem_set_unit]
    intro a
    match a with
    | ⟨0, _⟩ =>
      show win0_2.index ⟨64 * (i 0).val + 63, ht⟩ 0 * 1 ≤ (i 0 : Nat) ∧ (i 0 : Nat) < win0_2.index ⟨64 * (i 0).val + 63, ht⟩ 0 * 1 + 1
      rw [(idx_out ⟨64 * (i 0).val + 63, ht⟩).1.1]
      show (64 * (i 0).val + 63) / 64 * 1 ≤ (i 0 : Nat) ∧ (i 0 : Nat) < (64 * (i 0).val + 63) / 64 * 1 + 1
      omega
    | ⟨1, _⟩ =>
      show win0_2.index ⟨64 * (i 0).val + 63, ht⟩ 1 * 1000 ≤ (i 1 : Nat) ∧ (i 1 : Nat) < win0_2.index ⟨64 * (i 0).val + 63, ht⟩ 1 * 1000 + 1000
      rw [(idx_out ⟨64 * (i 0).val + 63, ht⟩).1.2.1]; omega
    | ⟨2, _⟩ =>
      show win0_2.index ⟨64 * (i 0).val + 63, ht⟩ 2 * 256 ≤ (i 2 : Nat) ∧ (i 2 : Nat) < win0_2.index ⟨64 * (i 0).val + 63, ht⟩ 2 * 256 + 256
      rw [(idx_out ⟨64 * (i 0).val + 63, ht⟩).1.2.2]; omega

/-- The counts array ends holding each half's counts. -/
private theorem final3 (c : Dev nD) : (dat0 V c).arrAt 3 cfg0.N = G3 V c :=
  (dat0 V c).arrAt_eq_of_cover 3 (G3 V c) (flushed3_eq V c) fun i => by
    have hi0 : (i 0 : Nat) < 2 := (i 0).isLt
    have hi1 : (i 1 : Nat) < 1 := (i 1).isLt
    have hi2 : (i 2 : Nat) < 1000 := (i 2).isLt
    have hN : cfg0.N = 128 := N128
    have ht : 64 * (i 0).val + 63 < cfg0.N := by rw [hN]; omega
    refine ⟨⟨64 * (i 0).val + 63, ht⟩, (flush0_3 _).mpr (by show (64 * (i 0).val + 63) % 64 = 63; omega), ?_⟩
    show i ∈ ((View.whole main_v1_1).slice (win0_3.rect ⟨64 * (i 0).val + 63, ht⟩)).set
    rw [View.set_slice_whole, Rect.mem_set_unit]
    intro a
    match a with
    | ⟨0, _⟩ =>
      show win0_3.index ⟨64 * (i 0).val + 63, ht⟩ 0 * 1 ≤ (i 0 : Nat) ∧ (i 0 : Nat) < win0_3.index ⟨64 * (i 0).val + 63, ht⟩ 0 * 1 + 1
      rw [(idx_out ⟨64 * (i 0).val + 63, ht⟩).2.1]
      show (64 * (i 0).val + 63) / 64 * 1 ≤ (i 0 : Nat) ∧ (i 0 : Nat) < (64 * (i 0).val + 63) / 64 * 1 + 1
      omega
    | ⟨1, _⟩ =>
      show win0_3.index ⟨64 * (i 0).val + 63, ht⟩ 1 * 1 ≤ (i 1 : Nat) ∧ (i 1 : Nat) < win0_3.index ⟨64 * (i 0).val + 63, ht⟩ 1 * 1 + 1
      rw [(idx_out ⟨64 * (i 0).val + 63, ht⟩).2.2.1]; omega
    | ⟨2, _⟩ =>
      show win0_3.index ⟨64 * (i 0).val + 63, ht⟩ 2 * 1000 ≤ (i 2 : Nat) ∧ (i 2 : Nat) < win0_3.index ⟨64 * (i 0).val + 63, ht⟩ 2 * 1000 + 1000
      rw [(idx_out ⟨64 * (i 0).val + 63, ht⟩).2.2.2]; omega

/-- Half c' of the totals array after the launch. -/
theorem sums_arr (c : Dev nD) (c' : Fin 2) (k : Fin 1000) (d : Fin 256) :
    ((dat0 (F := Ideal) V c).arrAt 2 cfg0.N : S2x1000x256.Idx → EReal) (ix3 c' k d)
      = Cert.SegLoss.halfSum (featOf V c) (labOf V c) c' k d := by
  rw [final2 V c]
  rfl

/-- Half c' of the counts array after the launch. -/
theorem counts_arr (c : Dev nD) (c' : Fin 2) (k : Fin 1000) :
    ((dat0 (F := Ideal) V c).arrAt 3 cfg0.N : S2x1x1000.Idx → EReal) (ix3 c' (0 : Fin 1) k)
      = Cert.SegLoss.halfCount (labOf V c) c' k := by
  rw [final3 V c]
  rfl

end Cert.KernelIdeal.SegValue

end
-- ==== Proof.KLossPay.lean ====
/-
  The second kernel's arithmetic at one row, over the extended reals.  On a tile of 2048 feature rows, their labels and
  the table of class rows the kernel normalises every row, takes its inner products with the class rows scaled by the
  inverse temperature (the logits), and forms for every row the negated log-probability of its label: the logit the
  label selects by comparison with every class, less the row's largest logit, less the logarithm of the sum of the
  exponentials of the shifted logits, subtracted from zero.  The tile's rows are then summed into the running partial
  loss; the reset stores zero.
-/
import proofs.«407345_j1580547965106_3_alg».proof.Proof.Gen.KernelIdeal.Skeleton
import proofs.«407345_j1580547965106_3_alg».proof.Proof.Spec
import proofs.«407345_j1580547965106_3_alg».proof.Proof.LibColumn
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.LossPay

open Cert.KernelIdeal Cert.KernelIdeal.Gen
open Idealize.ShloMosaic Idealize.ShloMosaic.ValueIdx

/-- The named scale is the inverse temperature. -/
theorem named_invT : Named.named (F := Ideal) κ "inv_temp" (φ := .f32) 0x41200000#32 = Cert.SegLoss.invT := by
  exact IdealRules.named_const.ideal_named_scalar _ _ _ _ rfl

/-- The partial loss's reset block is zero. -/
theorem pay2_apply (i : S1x1x1.Idx) : k1_pay2 (F := Ideal) i = 0 := by
  unfold k1_pay2
  show Ideal.ofBits .f32 0x00000000#32 = 0
  exact Ideal.ofBits_zero_f32

/-! ### Reductions along a row -/

/-- The index over row r with column k put back is (r, k). -/
private theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A sum along the rows of a 2048 × n array, read at row r. -/
private theorem rowsum_apply {n : Nat} (src : FVec Ideal ⟨2, ![2048, n]⟩ .f32) (h : (⟨2, ![2048, n]⟩ : Shape).Reduces [1] S2048)
    (hφ : FKind.Formats .f32) (hacc : (0x00000000#32 : BitVec 32) = FKind.add.neutral .f32 hφ) (r : Fin 2048) :
    multiReduction .add [1] S2048 src 0x00000000#32 h hφ hacc (ix1 r) = ∑ k : Fin n, src (ix2 r k) := by
  refine (Ideal.multiReduction_add_single src 0x00000000#32 h hφ hacc (ix1 r)).trans ?_
  exact Finset.sum_congr rfl fun k _ => congrArg src (lift_row h r k)

/-- A maximum along the rows of a 2048 × n array from −∞, read at row r. -/
private theorem rowmax_apply {n : Nat} (src : FVec Ideal ⟨2, ![2048, n]⟩ .f32) (h : (⟨2, ![2048, n]⟩ : Shape).Reduces [1] S2048)
    (hφ : FKind.Formats .f32) (hacc : (0xFF800000#32 : BitVec 32) = FKind.maximumf.neutral .f32 hφ) (r : Fin 2048) :
    multiReduction .maximumf [1] S2048 src 0xFF800000#32 h hφ hacc (ix1 r)
      = (Finset.univ : Finset (Fin n)).fold max ⊥ (fun k => src (ix2 r k)) := by
  refine (Ideal.multiReduction_maximumf_single src 0xFF800000#32 h hφ hacc (ix1 r)).trans ?_
  have hb : (FloatOps.ofBits (F := Ideal) .f32 0xFF800000#32 : EReal) = ⊥ := by
    show Ideal.ofBits .f32 0xFF800000#32 = ⊥
    simp [Ideal.ofBits, Ideal.ieee]
  have hf : (src ∘ h.lift (ix1 r)) = fun k : Fin n => src (ix2 r k) := funext fun k => congrArg src (lift_row h r k)
  rw [hb, hf]
  rfl

/-! ### The inner products -/

/-- The operands' indices under output index i and contraction position q: the left operand is read at (i₀, q), the
    right at (i₁, q), both products running over their second axis. -/
private theorem lhs_dot_0 (i : S2048x1000.Idx) (q : dot_S2048x256_S1000x256_S2048x1000_1_1_0_0_n_n.contr.Idx) :
    (dot_S2048x256_S1000x256_S2048x1000_1_1_0_0_n_n.lhsIdx i q 0).val = (i 0).val := by
  unfold DotDims.lhsIdx
  rw [dif_neg (show ¬(0 : Fin S2048x256.rank) ∈ dot_S2048x256_S1000x256_S2048x1000_1_1_0_0_n_n.lhsBatch by decide), dif_pos (show (0 : Fin S2048x256.rank) ∈ dot_S2048x256_S1000x256_S2048x1000_1_1_0_0_n_n.lhsNonContracting by decide)]
  rfl
private theorem lhs_dot_1 (i : S2048x1000.Idx) (q : dot_S2048x256_S1000x256_S2048x1000_1_1_0_0_n_n.contr.Idx) :
    (dot_S2048x256_S1000x256_S2048x1000_1_1_0_0_n_n.lhsIdx i q 1).val = (q ⟨0, by decide⟩).val :=
  dot_S2048x256_S1000x256_S2048x1000_1_1_0_0_n_n.lhsIdx_val_of_single rfl i q
private theorem rhs_dot_0 (i : S2048x1000.Idx) (q : dot_S2048x256_S1000x256_S2048x1000_1_1_0_0_n_n.contr.Idx) :
    (dot_S2048x256_S1000x256_S2048x1000_1_1_0_0_n_n.rhsIdx i q 0).val = (i 1).val := by
  unfold DotDims.rhsIdx
  rw [dif_neg (show ¬(0 : Fin S1000x256.rank) ∈ dot_S2048x256_S1000x256_S2048x1000_1_1_0_0_n_n.rhsBatch by decide), dif_pos (show (0 : Fin S1000x256.rank) ∈ dot_S2048x256_S1000x256_S2048x1000_1_1_0_0_n_n.rhsNonContracting by decide)]
  rfl
private theorem rhs_dot_1 (i : S2048x1000.Idx) (q : dot_S2048x256_S1000x256_S2048x1000_1_1_0_0_n_n.contr.Idx) :
    (dot_S2048x256_S1000x256_S2048x1000_1_1_0_0_n_n.rhsIdx i q 1).val = (q ⟨0, by decide⟩).val :=
  dot_S2048x256_S1000x256_S2048x1000_1_1_0_0_n_n.rhsIdx_val_of_single rfl i q

/-- The product of a 2048 × 256 array with the transpose of a 1000 × 256 one, into zero, at (r, k): the inner
    product of row r of the first with row k of the second. -/
private theorem dot_apply (a : FVec Ideal S2048x256 .bf16) (b : FVec Ideal S1000x256 .bf16) (r : Fin 2048) (k : Fin 1000) :
    matmul dot_S2048x256_S1000x256_S2048x1000_1_1_0_0_n_n none a b (constant S2048x1000 .f32 0x00000000#32) (ix2 r k)
      = ∑ d : Fin 256, a (ix2 r d) * b (ix2 k d) := by
  simp only [matmul]
  rw [Ideal.matmul_constant_zero_apply, ← Equiv.sum_comp (ValueIdx.contrEquiv1 dot_S2048x256_S1000x256_S2048x1000_1_1_0_0_n_n 256 rfl rfl).symm]
  refine Finset.sum_congr rfl fun d _ => ?_
  have hk := ValueIdx.contrEquiv1_symm_val dot_S2048x256_S1000x256_S2048x1000_1_1_0_0_n_n 256 rfl rfl d
  have el : dot_S2048x256_S1000x256_S2048x1000_1_1_0_0_n_n.lhsIdx (ix2 r k) ((ValueIdx.contrEquiv1 dot_S2048x256_S1000x256_S2048x1000_1_1_0_0_n_n 256 rfl rfl).symm d) = ix2 r d := funext fun ax => Fin.ext (by
    match ax with
    | ⟨0, _⟩ => exact lhs_dot_0 _ _
    | ⟨1, _⟩ => exact (lhs_dot_1 _ _).trans hk)
  have er : dot_S2048x256_S1000x256_S2048x1000_1_1_0_0_n_n.rhsIdx (ix2 r k) ((ValueIdx.contrEquiv1 dot_S2048x256_S1000x256_S2048x1000_1_1_0_0_n_n 256 rfl rfl).symm d) = ix2 k d := funext fun ax => Fin.ext (by
    match ax with
    | ⟨0, _⟩ => exact rhs_dot_0 _ _
    | ⟨1, _⟩ => exact (rhs_dot_1 _ _).trans hk)
  rw [el, er]

/-! ### The normalised row and the logits -/

/-- A row divided by its clamped norm, at (r, d). -/
private theorem unit_apply (x : FVec Ideal S2048x256 .f32) (r : Fin 2048) (d : Fin 256) :
    divf x (broadcastTo S2048x256 (maximumf (sqrt (shapeCast S2048x1 (multiReduction .add [1] S2048 (mulf x x) 0x00000000#32 reduces_S2048x256_S2048 (.inl rfl) rfl) shapeCasts_S2048_S2048x1)) (broadcast S2048x1 (Scalar.ofBits .f32 0x2B8CBCCC#32))) broadcasts_S2048x1_S2048x256) (ix2 r d)
      = Cert.SegLoss.unit (fun d => x (ix2 r d)) d := by
  refine (divf_apply _ _ _).trans ?_
  unfold Cert.SegLoss.unit
  refine congrArg (Ideal.div (x (ix2 r d))) ?_
  refine (Cert.LibColumn.broadcastTo_a1_ab_apply _ broadcasts_S2048x1_S2048x256 r d).trans ?_
  refine (maximumf_apply _ _ _).trans ?_
  unfold Cert.SegLoss.cnorm
  refine congrArg₂ max ?_ rfl
  refine congrArg Ideal.sqrt ?_
  refine (Cert.LibColumn.shapeCast_a_a1_apply _ shapeCasts_S2048_S2048x1 r (0 : Fin 1)).trans ?_
  exact rowsum_apply (mulf x x) _ _ _ r

/-- The logits of a tile: the normalised rows' inner products with the class rows, scaled by the named inverse
    temperature. -/
private def logits (x : FVec Ideal S2048x256 .f32) (nmb : FVec Ideal S1000x256 .bf16) : FVec Ideal S2048x1000 .f32 :=
  mulf (matmul dot_S2048x256_S1000x256_S2048x1000_1_1_0_0_n_n none
      (truncf .bf16 (divf x (broadcastTo S2048x256 (maximumf (sqrt (shapeCast S2048x1 (multiReduction .add [1] S2048 (mulf x x) 0x00000000#32 reduces_S2048x256_S2048 (.inl rfl) rfl) shapeCasts_S2048_S2048x1)) (broadcast S2048x1 (Scalar.ofBits .f32 0x2B8CBCCC#32))) broadcasts_S2048x1_S2048x256)) bitsLt_bf16_f32)
      (shapeCast S1000x256 nmb shapeCasts_S1000x256_S1000x256) (constant S2048x1000 .f32 0x00000000#32))
    (broadcast S2048x1000 (Named.named κ "inv_temp" 0x41200000#32))

/-- The logit of row r for class k is the specification's. -/
private theorem logits_apply (x : FVec Ideal S2048x256 .f32) (nmb : FVec Ideal S1000x256 .bf16) (r : Fin 2048) (k : Fin 1000) :
    logits x nmb (ix2 r k) = Cert.SegLoss.logitK (fun d => x (ix2 r d)) (fun k d => nmb (ix2 k d)) k := by
  unfold logits Cert.SegLoss.logitK
  refine (mulf_apply _ _ _).trans ?_
  refine congrArg₂ (· * ·) ?_ named_invT
  refine (dot_apply _ _ r k).trans ?_
  refine Finset.sum_congr rfl fun d _ => congrArg₂ (· * ·) ?_ ?_
  · exact unit_apply x r d
  · exact congrFun (shapeCast_self nmb shapeCasts_S1000x256_S1000x256) (ix2 k d)

/-! ### The row's maximum, its log-sum-exp and the picked logit -/

/-- The rows' maxima kept as a column. -/
private abbrev maxCol (S : FVec Ideal S2048x1000 .f32) : FVec Ideal S2048x1 .f32 :=
  shapeCast S2048x1 (multiReduction .maximumf [1] S2048 S 0xFF800000#32 reduces_S2048x1000_S2048 (.inl rfl) rfl) shapeCasts_S2048_S2048x1

/-- At row r the kept maximum is the largest of the row's logits. -/
private theorem maxCol_apply (S : FVec Ideal S2048x1000 .f32) (s : Fin 1000 → EReal) (r : Fin 2048) (hS : ∀ k, S (ix2 r k) = s k) :
    maxCol S (ix2 r (0 : Fin 1)) = Cert.SegLoss.rowMax s := by
  unfold maxCol Cert.SegLoss.rowMax
  refine (Cert.LibColumn.shapeCast_a_a1_apply _ shapeCasts_S2048_S2048x1 r (0 : Fin 1)).trans ?_
  refine (rowmax_apply S _ _ _ r).trans ?_
  rw [show (fun k => S (ix2 r k)) = s from funext hS]

/-- At row r the logarithm of the sum of the exponentials of the logits shifted by the row's maximum. -/
private theorem lseCol_apply (S : FVec Ideal S2048x1000 .f32) (s : Fin 1000 → EReal) (r : Fin 2048) (hS : ∀ k, S (ix2 r k) = s k) :
    log (shapeCast S2048x1 (multiReduction .add [1] S2048 (exp (subf S (broadcastTo S2048x1000 (maxCol S) broadcasts_S2048x1_S2048x1000))) 0x00000000#32 reduces_S2048x1000_S2048 (.inl rfl) rfl) shapeCasts_S2048_S2048x1) (ix2 r (0 : Fin 1))
      = Cert.SegLoss.lse s := by
  unfold Cert.SegLoss.lse
  refine congrArg Ideal.log ?_
  refine (Cert.LibColumn.shapeCast_a_a1_apply _ shapeCasts_S2048_S2048x1 r (0 : Fin 1)).trans ?_
  refine (rowsum_apply _ _ _ _ r).trans ?_
  refine Finset.sum_congr rfl fun k _ => ?_
  refine congrArg Ideal.exp ?_
  refine (subf_apply _ _ _).trans (congrArg₂ (· - ·) (hS k) ?_)
  exact (Cert.LibColumn.broadcastTo_a1_ab_apply (maxCol S) broadcasts_S2048x1_S2048x1000 r k).trans (maxCol_apply S s r hS)

/-- A selection on a comparison for equality of two words is the choice on their equality. -/
private theorem select_eq_ite (a b : BitVec 32) (u v : EReal) : Scalar.select (IntOp.cmpi .eq a b) u v = if a = b then u else v := by
  unfold Scalar.select IntOp.cmpi
  by_cases h : a = b
  · subst h; simp
  · have hb : (a == b) = false := by simpa using h
    simp [hb, h]

/-- At row r the sum over the classes of the logits masked by "the label is this class": the column number at (r, k) is
    the word k, and the label column repeated along the classes is the row's label. -/
private theorem pickCol_apply (S : FVec Ideal S2048x1000 .f32) (s : Fin 1000 → EReal) (l : IVec S2048x1 32) (r : Fin 2048)
    (hS : ∀ k, S (ix2 r k) = s k) :
    shapeCast S2048x1 (multiReduction .add [1] S2048 (select (cmpi .eq (broadcastTo S2048x1000 (shapeCast S2048x1 l shapeCasts_S2048x1_S2048x1) broadcasts_S2048x1_S2048x1000) (iota .tc S2048x1000 32 [1] iota_S2048x1000_d1_w32)) S (broadcast S2048x1000 (Scalar.ofBits .f32 0x00000000#32))) 0x00000000#32 reduces_S2048x1000_S2048 (.inl rfl) rfl) shapeCasts_S2048_S2048x1 (ix2 r (0 : Fin 1))
      = Cert.SegLoss.pick s (l (ix2 r (0 : Fin 1))) := by
  unfold Cert.SegLoss.pick
  refine (Cert.LibColumn.shapeCast_a_a1_apply _ shapeCasts_S2048_S2048x1 r (0 : Fin 1)).trans ?_
  refine (rowsum_apply _ _ _ _ r).trans ?_
  refine Finset.sum_congr rfl fun k _ => ?_
  have hA : broadcastTo S2048x1000 (shapeCast S2048x1 l shapeCasts_S2048x1_S2048x1) broadcasts_S2048x1_S2048x1000 (ix2 r k) = l (ix2 r (0 : Fin 1)) :=
    (Cert.LibColumn.broadcastTo_a1_ab_apply _ broadcasts_S2048x1_S2048x1000 r k).trans (congrFun (shapeCast_self l shapeCasts_S2048x1_S2048x1) _)
  have hB : iota .tc S2048x1000 32 [1] iota_S2048x1000_d1_w32 (ix2 r k) = BitVec.ofNat 32 k.val :=
    iota_single_apply .tc S2048x1000 32 1 iota_S2048x1000_d1_w32 (ix2 r k)
  refine (select_apply _ _ _ _).trans ?_
  refine (select_eq_ite _ _ _ _).trans ?_
  rw [hA, hB, hS k]
  exact if_congr Iff.rfl rfl Ideal.ofBits_zero_f32

/-- A tile row's negated log-probability of its label. -/
theorem pay3_apply (x : Vec Ideal S2048x256 .f32) (nmb : Vec Ideal S1000x256 .bf16) (l : Vec Ideal S2048x1 .i32) (r : Fin 2048) :
    k1_pay3 (F := Ideal) x nmb l (ix2 r (0 : Fin 1))
      = Cert.SegLoss.rowLossK (fun d => x (ix2 r d)) (l (ix2 r (0 : Fin 1))) (fun k d => nmb (ix2 k d)) := by
  have hS : ∀ k, logits x nmb (ix2 r k) = Cert.SegLoss.logitK (fun d => x (ix2 r d)) (fun k d => nmb (ix2 k d)) k :=
    fun k => logits_apply x nmb r k
  unfold k1_pay3 Cert.SegLoss.rowLossK
  refine (subf_apply _ _ _).trans (congrArg₂ (· - ·) Ideal.ofBits_zero_f32 ?_)
  refine (subf_apply _ _ _).trans (congrArg₂ (· - ·) ?_ ?_)
  · refine (subf_apply _ _ _).trans (congrArg₂ (· - ·) ?_ ?_)
    · exact pickCol_apply (logits x nmb) _ l r hS
    · exact maxCol_apply (logits x nmb) _ r hS
  · exact lseCol_apply (logits x nmb) _ r hS

/-- A sum over the rows of a 2048 × 1 column, read at its one entry. -/
private theorem colsum_apply (v : FVec Ideal S2048x1 .f32) (h : S2048x1.Reduces [0] S1) (hφ : FKind.Formats .f32)
    (hacc : (0x00000000#32 : BitVec 32) = FKind.add.neutral .f32 hφ) :
    multiReduction .add [0] S1 v 0x00000000#32 h hφ hacc (ix1 (0 : Fin 1)) = ∑ r : Fin 2048, v (ix2 r (0 : Fin 1)) := by
  refine (Ideal.multiReduction_add_single v 0x00000000#32 h hφ hacc (ix1 (0 : Fin 1))).trans ?_
  refine Finset.sum_congr rfl fun r _ => congrArg v ?_
  funext c; apply Fin.ext
  fin_cases c <;> rfl

/-- The partial loss after a tile: the running partial loss plus the tile's rows. -/
theorem pay1_apply (v : FVec Ideal S2048x1 .f32) (acc : Vec Ideal S1x1x1 .f32) :
    k1_pay1 (F := Ideal) v acc (ix3 (0 : Fin 1) (0 : Fin 1) (0 : Fin 1))
      = acc (ix3 (0 : Fin 1) (0 : Fin 1) (0 : Fin 1)) + ∑ r : Fin 2048, v (ix2 r (0 : Fin 1)) := by
  unfold k1_pay1
  refine (shapeCast_ab_1ab_apply _ shapeCasts_S1x1_S1x1x1 (0 : Fin 1) (0 : Fin 1) (0 : Fin 1)).trans ?_
  refine (addf_apply _ _ _).trans ?_
  refine congrArg₂ (· + ·) ?_ ?_
  · exact shapeCast_1ab_ab_apply acc shapeCasts_S1x1x1_S1x1 (0 : Fin 1) (0 : Fin 1)
  · refine (Cert.LibColumn.shapeCast_a_a1_apply _ shapeCasts_S1_S1x1 (0 : Fin 1) (0 : Fin 1)).trans ?_
    exact colsum_apply v _ _ _

end Cert.KernelIdeal.LossPay

end
-- ==== Proof.KLossStruct.lean ====
/-
  What the second launch leaves in its result array.  The grid has 128 points: half c (of 2) walks its 64 tiles in
  order; the point's input blocks are rows [2048 t, 2048 t + 2048) of the features and of the label column, and the
  whole table of class rows, fetched once.  The result block (one per half) stays in place across a half's points:
  the first point of a half resets it, every point adds the sum of its tile's rows' negated log-probabilities, and
  the last point of the half writes it back.  So entry c of the result holds the half's summed loss.
-/
import proofs.«407345_j1580547965106_3_alg».proof.Proof.Gen.KernelIdeal.Frame
import proofs.«407345_j1580547965106_3_alg».proof.Proof.KLossPay
import proofs.«407345_j1580547965106_3_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.LossValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The features the launch finds, by row and column. -/
abbrev featOf (c : Dev nD) (b : Fin 262144) (d : Fin 256) : EReal := (V c main_arg0 : S262144x256.Idx → EReal) (ix2 b d)

/-- The labels the launch finds, by row. -/
abbrev labOf (c : Dev nD) (b : Fin 262144) : BitVec 32 := (V c main_v0 : S262144x1.Idx → BitVec 32) (ix2 b (0 : Fin 1))

/-- The table of class rows the launch finds, by class and column. -/
abbrev tabOf (c : Dev nD) (k : Fin 1000) (d : Fin 256) : EReal := (V c main_v36 : S1000x256.Idx → EReal) (ix2 k d)

/-! ## What one point leaves in the partial loss, for any float values -/

section Pieces
variable {F : FTy → Type} [FloatOps F] [Named F]

private theorem hz3 : (![0, 0, 0] : Fin 3 → Nat) = fun _ => 0 := funext fun a => by fin_cases a <;> rfl
private theorem hz2 : (![0, 0] : Fin 2 → Nat) = fun _ => 0 := funext fun a => by fin_cases a <;> rfl

/-- A point that is not the first of its half: the one store covers the block, and its payload is the running
    partial loss (the block as the point found it) plus the tile's rows. -/
private theorem out_B (c : Dev nD) (i : grid1.Coords) (a2 : Memref sig .tc .vmem S2048x256 .f32) (h2 : a2.IsWhole)
    (a3 : Memref sig .tc .vmem S2048x1 .i32) (h3 : a3.IsWhole) (a4 : Memref sig .tc .vmem S1000x256 .bf16) (h4 : a4.IsWhole)
    (a5 : Memref sig .tc .vmem S1x1x1 .f32) (h5 : a5.IsWhole) (hc : ¬cond1_0 i)
    (x0 : Vec F S2048x256 .f32) (x1 : Vec F S2048x1 .i32) (x2 : Vec F S1000x256 .bf16) (xo : Vec F S1x1x1 .f32) :
    out1_B_3 c i a2 h2 a3 h3 a4 h4 a5 h5 hc x0 x1 x2 xo = k1_pay1 (k1_pay3 x0 x2 x1) xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  simp only [View.readAt_eq_ld, h2.read_unread, h3.read_unread, h4.read_unread, h5.read_unread,
    View.ld_unit_zero (S := S1x1x1) hz3, View.ld_unit_zero (S := S2048x256) hz2, View.ld_unit_zero (S := S2048x1) hz2,
    View.ld_unit_zero (S := S1000x256) hz2, shapeCast_self]

/-- The first point of a half: the reset store, then the update store over what the reset left; the later store
    covers the block, and the block it read back is the reset's payload. -/
private theorem out_A (c : Dev nD) (i : grid1.Coords) (a2 : Memref sig .tc .vmem S2048x256 .f32) (h2 : a2.IsWhole)
    (a3 : Memref sig .tc .vmem S2048x1 .i32) (h3 : a3.IsWhole) (a4 : Memref sig .tc .vmem S1000x256 .bf16) (h4 : a4.IsWhole)
    (a5 : Memref sig .tc .vmem S1x1x1 .f32) (h5 : a5.IsWhole) (hc : cond1_0 i)
    (x0 : Vec F S2048x256 .f32) (x1 : Vec F S2048x1 .i32) (x2 : Vec F S1000x256 .bf16) :
    out1_A_3 c i a2 h2 a3 h3 a4 h4 a5 h5 hc x0 x1 x2 = k1_pay1 (k1_pay3 x0 x2 x1) k1_pay2 := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S2048x256) hz2, View.ld_unit_zero (S := S2048x1) hz2,
    View.ld_unit_zero (S := S1000x256) hz2, shapeCast_self]

end Pieces

/-! ## The point's input blocks, read off the arrays

A block's coordinate in its array is the block index times the block's extent plus the coordinate inside the block.
At point t the features' and the labels' block index is (t, 0); the table's is (0, 0) at every point; the partial
loss's is (t / 64, 0, 0). -/

private theorem idx0 : ∀ t : Fin grid1.N, win1_0.index t 0 = t.val ∧ win1_0.index t 1 = 0 := by decide +kernel
private theorem idx1 : ∀ t : Fin grid1.N, win1_1.index t 0 = t.val ∧ win1_1.index t 1 = 0 := by decide +kernel
private theorem idx2 : ∀ t : Fin grid1.N, win1_2.index t 0 = 0 ∧ win1_2.index t 1 = 0 := by decide +kernel
private theorem idx3 : ∀ t : Fin grid1.N, win1_3.index t 0 = t.val / 64 ∧ win1_3.index t 1 = 0 ∧ win1_3.index t 2 = 0 := by
  decide +kernel

/-- The three input blocks of point t, at their literal types. -/
private abbrev fblk (c : Dev nD) (t : Fin cfg1.N) : Vec Ideal S2048x256 .f32 := iblk1 V c 0 t
private abbrev lblk (c : Dev nD) (t : Fin cfg1.N) : Vec Ideal S2048x1 .i32 := iblk1 V c 1 t
private abbrev tblk (c : Dev nD) (t : Fin cfg1.N) : Vec Ideal S1000x256 .bf16 := iblk1 V c 2 t

/-- Row r of point t's feature block is row 2048 t + r of the features. -/
private theorem fblk_apply (c : Dev nD) (t : Fin cfg1.N) (r : Fin 2048) (d : Fin 256) (hb : 2048 * t.val + r.val < 262144) :
    fblk V c t (ix2 r d) = featOf V c ⟨2048 * t.val + r.val, hb⟩ d := by
  unfold fblk iblk1
  rw [View.read_apply]
  show V c main_arg0 _ = V c main_arg0 _
  congr 1
  funext a
  apply Fin.ext
  match a with
  | ⟨0, _⟩ => show win1_0.index t 0 * 2048 + 1 * r.val = 2048 * t.val + r.val; rw [(idx0 t).1]; omega
  | ⟨1, _⟩ => show win1_0.index t 1 * 256 + 1 * d.val = d.val; rw [(idx0 t).2]; omega

/-- Row r of point t's label block is row 2048 t + r of the label column. -/
private theorem lblk_apply (c : Dev nD) (t : Fin cfg1.N) (r : Fin 2048) (hb : 2048 * t.val + r.val < 262144) :
    lblk V c t (ix2 r (0 : Fin 1)) = labOf V c ⟨2048 * t.val + r.val, hb⟩ := by
  unfold lblk iblk1
  rw [View.read_apply]
  show V c main_v0 _ = V c main_v0 _
  congr 1
  funext a
  apply Fin.ext
  match a with
  | ⟨0, _⟩ => show win1_1.index t 0 * 2048 + 1 * r.val = 2048 * t.val + r.val; rw [(idx1 t).1]; omega
  | ⟨1, _⟩ => show win1_1.index t 1 * 1 + 1 * 0 = 0; rw [(idx1 t).2]

/-- The table's block is the whole table at every point. -/
private theorem tblk_apply (c : Dev nD) (t : Fin cfg1.N) (k : Fin 1000) (d : Fin 256) :
    tblk V c t (ix2 k d) = tabOf V c k d := by
  unfold tblk iblk1
  rw [View.read_apply]
  show V c main_v36 _ = V c main_v36 _
  congr 1
  funext a
  apply Fin.ext
  match a with
  | ⟨0, _⟩ => show win1_2.index t 0 * 1000 + 1 * k.val = k.val; rw [(idx2 t).1]; omega
  | ⟨1, _⟩ => show win1_2.index t 1 * 256 + 1 * d.val = d.val; rw [(idx2 t).2]; omega
/-! ## The running partial loss, by induction on the point -/

/-- Row r of tile t of the batch (tiles counted through both halves). -/
private def rowOf (t : Nat) (r : Fin 2048) : Fin 262144 := ⟨(2048 * t + r.val) % 262144, Nat.mod_lt _ (by decide)⟩

private theorem rowOf_eq (t : Nat) (r : Fin 2048) (hb : 2048 * t + r.val < 262144) : rowOf t r = ⟨2048 * t + r.val, hb⟩ :=
  Fin.ext (Nat.mod_eq_of_lt hb)

/-- The summed loss of tile t's rows. -/
private def tileLoss (c : Dev nD) (t : Nat) : EReal :=
  ∑ r : Fin 2048, Cert.SegLoss.rowLossK (featOf V c (rowOf t r)) (labOf V c (rowOf t r)) (tabOf V c)

/-- The tile's rows through the point's blocks are the tile's rows of the arrays. -/
private theorem tile_eq (c : Dev nD) (t : Fin cfg1.N) :
    ∑ r : Fin 2048, k1_pay3 (F := Ideal) (fblk V c t) (tblk V c t) (lblk V c t) (ix2 r (0 : Fin 1)) = tileLoss V c t.val := by
  have hN : t.val < 128 := lt_of_lt_of_eq t.isLt (show cfg1.N = 128 from N_1)
  unfold tileLoss
  refine Finset.sum_congr rfl fun r _ => ?_
  have hr : r.val < 2048 := r.isLt
  have hb : 2048 * t.val + r.val < 262144 := by omega
  refine (LossPay.pay3_apply (fblk V c t) (tblk V c t) (lblk V c t) r).trans ?_
  rw [rowOf_eq t.val r hb]
  congr 1
  · funext d; exact fblk_apply V c t r d hb
  · exact lblk_apply V c t r hb
  · funext k d; exact tblk_apply V c t k d

/-- After point n the partial loss holds the summed losses of the tiles of n's half up to n. -/
private theorem outsAt_eq (c : Dev nD) : ∀ (n : ℕ) (h : n < cfg1.N),
    (outsAt1 V c n h : Vec Ideal S1x1x1 .f32) (ix3 (0 : Fin 1) (0 : Fin 1) (0 : Fin 1))
      = ∑ s ∈ Finset.range (n % 64 + 1), tileLoss V c (n - n % 64 + s)
  | 0, h => by
    rw [outsAt1_A V c ⟨0, h⟩ (Nat.zero_mod _)]
    refine (congrFun (out_A (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) (ms1_3 ⟨0, h⟩) (hs1_3 ⟨0, h⟩) ((hcond1_0 ⟨0, h⟩).mpr (Nat.zero_mod _))
      (fblk V c ⟨0, h⟩) (lblk V c ⟨0, h⟩) (tblk V c ⟨0, h⟩)) (ix3 (0 : Fin 1) (0 : Fin 1) (0 : Fin 1))).trans ?_
    rw [LossPay.pay1_apply, LossPay.pay2_apply, tile_eq V c ⟨0, h⟩, zero_add]
    simp
  | n + 1, h => by
    by_cases h0 : (n + 1) % 64 = 0
    · rw [outsAt1_A V c ⟨n + 1, h⟩ h0]
      refine (congrFun (out_A (F := Ideal) c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (ms1_3 ⟨n + 1, h⟩) (hs1_3 ⟨n + 1, h⟩) ((hcond1_0 ⟨n + 1, h⟩).mpr h0)
        (fblk V c ⟨n + 1, h⟩) (lblk V c ⟨n + 1, h⟩) (tblk V c ⟨n + 1, h⟩)) (ix3 (0 : Fin 1) (0 : Fin 1) (0 : Fin 1))).trans ?_
      rw [LossPay.pay1_apply, LossPay.pay2_apply, tile_eq V c ⟨n + 1, h⟩, zero_add, h0]
      simp
    · rw [outsAt1_B V c ⟨n + 1, h⟩ h0]
      dsimp only
      refine (congrFun (out_B (F := Ideal) c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (ms1_3 ⟨n + 1, h⟩) (hs1_3 ⟨n + 1, h⟩) (fun hc => h0 ((hcond1_0 ⟨n + 1, h⟩).mp hc))
        (fblk V c ⟨n + 1, h⟩) (lblk V c ⟨n + 1, h⟩) (tblk V c ⟨n + 1, h⟩)
        (outsAt1 V c n (Nat.lt_of_succ_lt h))) (ix3 (0 : Fin 1) (0 : Fin 1) (0 : Fin 1))).trans ?_
      rw [LossPay.pay1_apply, tile_eq V c ⟨n + 1, h⟩, outsAt_eq c n (Nat.lt_of_succ_lt h)]
      have e1 : (n + 1) % 64 = n % 64 + 1 := by omega
      have e2 : n + 1 - (n % 64 + 1) = n - n % 64 := by omega
      rw [e1, e2, Finset.sum_range_succ _ (n % 64 + 1)]
      congr 2
      show n + 1 = n - n % 64 + (n % 64 + 1)
      omega
/-! ## The write-backs and the result array -/

/-- The only index of a one-entry block. -/
private theorem idx111 (j : S1x1x1.Idx) : j = ix3 (0 : Fin 1) (0 : Fin 1) (0 : Fin 1) := by
  funext a
  apply Fin.ext
  match a with
  | ⟨0, _⟩ => have : (j 0).val < 1 := (j 0).isLt; show (j 0).val = 0; omega
  | ⟨1, _⟩ => have : (j 1).val < 1 := (j 1).isLt; show (j 1).val = 0; omega
  | ⟨2, _⟩ => have : (j 2).val < 1 := (j 2).isLt; show (j 2).val = 0; omega

/-- A half's loss is the sum of its 64 tiles' losses. -/
private theorem halfLoss_eq (c : Dev nD) (c' : Fin 2) :
    Cert.SegLoss.halfLoss (featOf V c) (labOf V c) (tabOf V c) c' = ∑ s ∈ Finset.range 64, tileLoss V c (64 * c'.val + s) := by
  unfold Cert.SegLoss.halfLoss tileLoss
  rw [Finset.sum_range]
  refine Finset.sum_congr rfl fun j _ => Finset.sum_congr rfl fun r _ => ?_
  have hc : c'.val < 2 := c'.isLt
  have hj : j.val < 64 := j.isLt
  have hr : r.val < 2048 := r.isLt
  have e : Cert.SegLoss.brow c' j r = rowOf (64 * c'.val + j.val) r := by
    rw [rowOf_eq _ r (by omega)]
    apply Fin.ext
    show (c'.val * 64 + j.val) * 2048 + r.val = 2048 * (64 * c'.val + j.val) + r.val
    omega
  rw [e]

/-- The array of the two halves' losses. -/
private def lossArr (c : Dev nD) : Buf (Elt Ideal) ((c : Thread nD τ).loc main_v37) :=
  fun i => Cert.SegLoss.halfLoss (featOf V c) (labOf V c) (tabOf V c) ⟨(i 0).val, (i 0).isLt⟩

/-- What the last point of a half writes back is that half's entry of the array of losses. -/
private theorem flushed_eq (c : Dev nD) (t : Fin cfg1.N) (hf : (cfg1.win 3).flush t = true) :
    (dat1 V c).flushed 3 t = ((cfg1.win 3).blk t).view.read (Elt Ideal) (lossArr V c) := by
  have hN : t.val < 128 := lt_of_lt_of_eq t.isLt (show cfg1.N = 128 from N_1)
  have h63 : t.val % 64 = 63 := (flush1_3 t).mp hf
  show (cfg1.win 3).cut (grid1.coords t) ((dat1 V c).after 3 t) = _
  rw [after1_3]
  funext j
  rw [View.read_apply]
  refine (congrArg (outsAt1 V c t.val t.isLt : Vec Ideal S1x1x1 .f32) (idx111 _)).trans ?_
  rw [outsAt_eq V c t.val t.isLt]
  show _ = Cert.SegLoss.halfLoss (featOf V c) (labOf V c) (tabOf V c) ⟨win1_3.index t 0 * 1 + 1 * (j 0).val, _⟩
  rw [halfLoss_eq, h63]
  have hj : (j 0).val < 1 := (j 0).isLt
  refine Finset.sum_congr rfl fun s _ => ?_
  congr 1
  show t.val - 63 + s = 64 * (win1_3.index t 0 * 1 + 1 * (j 0).val) + s
  rw [(idx3 t).1]
  omega

/-- The result array ends holding the two halves' losses. -/
private theorem final_arr (c : Dev nD) : (dat1 V c).arrAt 3 cfg1.N = lossArr V c :=
  (dat1 V c).arrAt_eq_of_cover 3 (lossArr V c) (flushed_eq V c) fun i => by
    have hi0 : (i 0 : Nat) < 2 := (i 0).isLt
    have hi1 : (i 1 : Nat) < 1 := (i 1).isLt
    have hi2 : (i 2 : Nat) < 1 := (i 2).isLt
    have hN : cfg1.N = 128 := N_1
    have ht : 64 * (i 0).val + 63 < cfg1.N := by rw [hN]; omega
    refine ⟨⟨64 * (i 0).val + 63, ht⟩, (flush1_3 _).mpr (by show (64 * (i 0).val + 63) % 64 = 63; omega), ?_⟩
    show i ∈ ((View.whole main_v37).slice (win1_3.rect ⟨64 * (i 0).val + 63, ht⟩)).set
    rw [View.set_slice_whole, Rect.mem_set_unit]
    intro a
    match a with
    | ⟨0, _⟩ =>
      show win1_3.index ⟨64 * (i 0).val + 63, ht⟩ 0 * 1 ≤ (i 0 : Nat) ∧ (i 0 : Nat) < win1_3.index ⟨64 * (i 0).val + 63, ht⟩ 0 * 1 + 1
      rw [(idx3 ⟨64 * (i 0).val + 63, ht⟩).1]
      show (64 * (i 0).val + 63) / 64 * 1 ≤ (i 0 : Nat) ∧ (i 0 : Nat) < (64 * (i 0).val + 63) / 64 * 1 + 1
      omega
    | ⟨1, _⟩ =>
      show win1_3.index ⟨64 * (i 0).val + 63, ht⟩ 1 * 1 ≤ (i 1 : Nat) ∧ (i 1 : Nat) < win1_3.index ⟨64 * (i 0).val + 63, ht⟩ 1 * 1 + 1
      rw [(idx3 ⟨64 * (i 0).val + 63, ht⟩).2.1]; omega
    | ⟨2, _⟩ =>
      show win1_3.index ⟨64 * (i 0).val + 63, ht⟩ 2 * 1 ≤ (i 2 : Nat) ∧ (i 2 : Nat) < win1_3.index ⟨64 * (i 0).val + 63, ht⟩ 2 * 1 + 1
      rw [(idx3 ⟨64 * (i 0).val + 63, ht⟩).2.2]; omega

/-- Entry c' of the partial-loss array after the launch. -/
theorem loss_arr (c : Dev nD) (c' : Fin 2) :
    ((dat1 (F := Ideal) V c).arrAt 3 cfg1.N : S2x1x1.Idx → EReal) (ix3 c' (0 : Fin 1) (0 : Fin 1))
      = Cert.SegLoss.halfLoss (featOf V c) (labOf V c) (tabOf V c) c' := by
  rw [final_arr V c]
  rfl

end Cert.KernelIdeal.LossValue

end
-- ==== Proof.RSeg.lean ====
/-
  The reference's class totals and counts at one entry.  The reference normalises every feature row, then scatters
  the rows into a zero array by their labels, adding: entry (k, d) of the result is the sum of the normalised rows'
  entries at column d over the rows whose label is k (an update lands on row k exactly when its label word, read as
  a signed number, is k; labels outside the classes land nowhere).  The counts scatter ones the same way.
-/
import proofs.«407345_j1580547965106_3_alg».proof.Proof.RefRead
import proofs.«407345_j1580547965106_3_alg».proof.Proof.Spec
import Idealize.ShloMosaic.PureOps.Ideal.Laws
import Idealize.ShloMosaic.Lib.ValueIdx
import Idealize.ShloMosaic.Lib.Pipeline.Value

noncomputable section

namespace Cert.ReferenceIdeal.SegValue

open Cert.ReferenceIdeal Cert.ReferenceIdeal.Gen Cert.ReferenceIdeal.ReadP
open Idealize.ShloMosaic Idealize.ShloMosaic.ValueIdx

/-- An update lands on an element exactly when, on every axis, its window's start plus its window coordinate is that
    element's coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    constructor
    · intro e a
      have e' := Option.some.inj e
      rw [← e']
      show _ = (((d.start j idx a + d.window j a).toNat : ℕ) : ℤ)
      rw [Int.toNat_of_nonneg (h a).1]
    · intro e
      refine congrArg some (funext fun a => Fin.ext ?_)
      show (d.start j idx a + d.window j a).toNat = (i a).val
      rw [e a]; exact Int.toNat_natCast _
  · rename_i h
    constructor
    · intro e; exact absurd e (by simp)
    · intro e
      exact absurd (fun a => by rw [e a]; exact ⟨Int.natCast_nonneg _, by exact_mod_cast (i a).isLt⟩) h

/-! The totals' scatter: an update at (b, d') starts its window at row (label of b, read signed) and column 0, and
    its window coordinate is (0, d'). -/

private theorem sums_start0 (idx : IVec S262144x1 32) (b : Fin 262144) (d' : Fin 256) :
    scatter_S1000x256_S262144x1_S262144x256_1_0_0_1.start (ix2 b d') idx 0 = (idx (ix2 b (0 : Fin 1))).toInt := by
  unfold ScatterDims.start
  rw [dif_pos (show (0 : Fin S1000x256.rank) ∈ scatter_S1000x256_S262144x1_S262144x256_1_0_0_1.scatterDimsToOperandDims by decide)]
  refine congrArg (fun i => (idx i).toInt) (funext fun a => Fin.ext ?_)
  match a with
  | ⟨0, _⟩ => rfl
  | ⟨1, _⟩ => rfl

private theorem sums_start1 (idx : IVec S262144x1 32) (b : Fin 262144) (d' : Fin 256) :
    scatter_S1000x256_S262144x1_S262144x256_1_0_0_1.start (ix2 b d') idx 1 = 0 := by
  unfold ScatterDims.start
  rw [dif_neg (show ¬(1 : Fin S1000x256.rank) ∈ scatter_S1000x256_S262144x1_S262144x256_1_0_0_1.scatterDimsToOperandDims by decide)]

private theorem sums_window0 (b : Fin 262144) (d' : Fin 256) :
    scatter_S1000x256_S262144x1_S262144x256_1_0_0_1.window (ix2 b d') 0 = 0 := by
  unfold ScatterDims.window
  rw [dif_neg (show ¬(0 : Fin S1000x256.rank) ∈ scatter_S1000x256_S262144x1_S262144x256_1_0_0_1.sKept by decide)]

private theorem sums_window1 (b : Fin 262144) (d' : Fin 256) :
    scatter_S1000x256_S262144x1_S262144x256_1_0_0_1.window (ix2 b d') 1 = d'.val := by
  unfold ScatterDims.window
  rw [dif_pos (show (1 : Fin S1000x256.rank) ∈ scatter_S1000x256_S262144x1_S262144x256_1_0_0_1.sKept by decide)]
  rfl

/-- A word read signed is the class number k exactly when it is k's word (k is far below 2^31). -/
private theorem toInt_eq_class (a : BitVec 32) (k : Fin 1000) : a.toInt = (k.val : ℤ) ↔ a = BitVec.ofNat 32 k.val := by
  constructor
  · intro h
    have e : BitVec.ofInt 32 a.toInt = a := BitVec.ofInt_toInt
    rw [h] at e
    rw [← e]; exact BitVec.ofInt_natCast 32 k.val
  · intro h
    have hk := k.isLt
    have hp : (2 : ℕ) ^ 32 = 4294967296 := by norm_num
    have hn : (BitVec.ofNat 32 k.val).toNat = k.val := by
      rw [BitVec.toNat_ofNat]; exact Nat.mod_eq_of_lt (by omega)
    rw [h, BitVec.toInt_eq_toNat_of_lt (by rw [hn]; omega), hn]

/-- An update of the totals' scatter lands on (k, d) exactly when its row's label word is class k and its column is d. -/
private theorem sums_lands (idx : IVec S262144x1 32) (b : Fin 262144) (d' d : Fin 256) (k : Fin 1000) :
    scatter_S1000x256_S262144x1_S262144x256_1_0_0_1.resultIdx? (ix2 b d') idx = some (ix2 k d)
      ↔ idx (ix2 b (0 : Fin 1)) = BitVec.ofNat 32 k.val ∧ d' = d := by
  rw [resultIdx?_eq_some_iff]
  constructor
  · intro h
    have h0 : (idx (ix2 b (0 : Fin 1))).toInt + ((0 : ℕ) : ℤ) = (k.val : ℤ) := by
      have := h 0; rwa [sums_start0, sums_window0] at this
    have h1 : (0 : ℤ) + ((d'.val : ℕ) : ℤ) = (d.val : ℤ) := by
      have := h 1; rwa [sums_start1, sums_window1] at this
    exact ⟨(toInt_eq_class _ k).1 (by omega), Fin.ext (by omega)⟩
  · rintro ⟨hl, rfl⟩ a
    have h0 : scatter_S1000x256_S262144x1_S262144x256_1_0_0_1.start (ix2 b d') idx 0 + ((scatter_S1000x256_S262144x1_S262144x256_1_0_0_1.window (ix2 b d') 0 : ℕ) : ℤ) = (k.val : ℤ) := by
      rw [sums_start0, sums_window0, (toInt_eq_class _ k).2 hl]; omega
    have h1 : scatter_S1000x256_S262144x1_S262144x256_1_0_0_1.start (ix2 b d') idx 1 + ((scatter_S1000x256_S262144x1_S262144x256_1_0_0_1.window (ix2 b d') 1 : ℕ) : ℤ) = (d'.val : ℤ) := by
      rw [sums_start1, sums_window1]; omega
    match a with
    | ⟨0, _⟩ => exact h0
    | ⟨1, _⟩ => exact h1

/-- The updates that land on (k, d), summed: over the rows whose label word is class k, the update at column d. -/
private theorem sums_scatter (idx : IVec S262144x1 32) (upd : S262144x256.Idx → EReal) (k : Fin 1000) (d : Fin 256)
    [DecidablePred fun j => scatter_S1000x256_S262144x1_S262144x256_1_0_0_1.resultIdx? j idx = some (ix2 k d)] :
    ∑ j ∈ Finset.univ.filter (fun j => scatter_S1000x256_S262144x1_S262144x256_1_0_0_1.resultIdx? j idx = some (ix2 k d)), upd j
      = ∑ b ∈ Finset.univ.filter (fun b : Fin 262144 => idx (ix2 b (0 : Fin 1)) = BitVec.ofNat 32 k.val), upd (ix2 b d) := by
  rw [Finset.sum_filter, sum_idx2, Finset.sum_filter]
  refine Finset.sum_congr rfl fun b _ => ?_
  by_cases hb : idx (ix2 b (0 : Fin 1)) = BitVec.ofNat 32 k.val
  · rw [if_pos hb, Finset.sum_eq_single d]
    · rw [if_pos ((sums_lands idx b d d k).2 ⟨hb, rfl⟩)]
    · intro d' _ hne; rw [if_neg (fun h => hne ((sums_lands idx b d' d k).1 h).2)]
    · intro h; exact absurd (Finset.mem_univ d) h
  · rw [if_neg hb]
    refine Finset.sum_eq_zero fun d' _ => ?_
    rw [if_neg (fun h => hb ((sums_lands idx b d' d k).1 h).1)]

/-- The totals' scatter read at (k, d): the operand there plus the updates of the rows labelled k, at column d. -/
private theorem scatterAdd_sums_apply (x : FVec Ideal S1000x256 .f32) (idx : IVec S262144x1 32) (upd : FVec Ideal S262144x256 .f32)
    (k : Fin 1000) (d : Fin 256) :
    Host.scatterAdd scatter_S1000x256_S262144x1_S262144x256_1_0_0_1 x idx upd (ix2 k d)
      = x (ix2 k d) + ∑ b ∈ Finset.univ.filter (fun b : Fin 262144 => idx (ix2 b (0 : Fin 1)) = BitVec.ofNat 32 k.val), upd (ix2 b d) :=
  congrArg (x (ix2 k d) + ·) (sums_scatter idx upd k d)

/-! The counts' scatter: one update per row, no window. -/

private theorem counts_start0 (idx : IVec S262144x1 32) (b : Fin 262144) :
    scatter_S1000_S262144x1_S262144_n_0_0_1.start (ix1 b) idx 0 = (idx (ix2 b (0 : Fin 1))).toInt := by
  unfold ScatterDims.start
  rw [dif_pos (show (0 : Fin S1000.rank) ∈ scatter_S1000_S262144x1_S262144_n_0_0_1.scatterDimsToOperandDims by decide)]
  refine congrArg (fun i => (idx i).toInt) (funext fun a => Fin.ext ?_)
  match a with
  | ⟨0, _⟩ => rfl
  | ⟨1, _⟩ => rfl

private theorem counts_window0 (b : Fin 262144) : scatter_S1000_S262144x1_S262144_n_0_0_1.window (ix1 b) 0 = 0 := by
  unfold ScatterDims.window
  rw [dif_neg (show ¬(0 : Fin S1000.rank) ∈ scatter_S1000_S262144x1_S262144_n_0_0_1.sKept by decide)]

/-- An update of the counts' scatter lands on k exactly when its row's label word is class k. -/
private theorem counts_lands (idx : IVec S262144x1 32) (b : Fin 262144) (k : Fin 1000) :
    scatter_S1000_S262144x1_S262144_n_0_0_1.resultIdx? (ix1 b) idx = some (ix1 k) ↔ idx (ix2 b (0 : Fin 1)) = BitVec.ofNat 32 k.val := by
  rw [resultIdx?_eq_some_iff]
  constructor
  · intro h
    have h0 : (idx (ix2 b (0 : Fin 1))).toInt + ((0 : ℕ) : ℤ) = (k.val : ℤ) := by
      have := h 0; rwa [counts_start0, counts_window0] at this
    exact (toInt_eq_class _ k).1 (by omega)
  · intro hl a
    have h0 : scatter_S1000_S262144x1_S262144_n_0_0_1.start (ix1 b) idx 0 + ((scatter_S1000_S262144x1_S262144_n_0_0_1.window (ix1 b) 0 : ℕ) : ℤ) = (k.val : ℤ) := by
      rw [counts_start0, counts_window0, (toInt_eq_class _ k).2 hl]; omega
    match a with
    | ⟨0, _⟩ => exact h0

/-- A rank-1 index set is its one coordinate's range … -/
private def idxEquiv1 {n : ℕ} : (⟨1, ![n]⟩ : Shape).Idx ≃ Fin n where
  toFun i := i 0
  invFun a := ix1 a
  left_inv i := (eq_ix1 i).symm
  right_inv _ := rfl
/-- … so a sum over it is the sum over the coordinate. -/
private theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The updates that land on k, summed: over the rows whose label word is class k. -/
private theorem counts_scatter (idx : IVec S262144x1 32) (upd : S262144.Idx → EReal) (k : Fin 1000)
    [DecidablePred fun j => scatter_S1000_S262144x1_S262144_n_0_0_1.resultIdx? j idx = some (ix1 k)] :
    ∑ j ∈ Finset.univ.filter (fun j => scatter_S1000_S262144x1_S262144_n_0_0_1.resultIdx? j idx = some (ix1 k)), upd j
      = ∑ b ∈ Finset.univ.filter (fun b : Fin 262144 => idx (ix2 b (0 : Fin 1)) = BitVec.ofNat 32 k.val), upd (ix1 b) := by
  rw [Finset.sum_filter, sum_idx1, Finset.sum_filter]
  refine Finset.sum_congr rfl fun b _ => ?_
  exact if_congr (counts_lands idx b k) rfl rfl

/-- The counts' scatter read at k: the operand there plus the updates of the rows labelled k. -/
private theorem scatterAdd_counts_apply (x : FVec Ideal S1000 .f32) (idx : IVec S262144x1 32) (upd : FVec Ideal S262144 .f32)
    (k : Fin 1000) :
    Host.scatterAdd scatter_S1000_S262144x1_S262144_n_0_0_1 x idx upd (ix1 k)
      = x (ix1 k) + ∑ b ∈ Finset.univ.filter (fun b : Fin 262144 => idx (ix2 b (0 : Fin 1)) = BitVec.ofNat 32 k.val), upd (ix1 b) :=
  congrArg (x (ix1 k) + ·) (counts_scatter idx upd k)

/-- The normalised features at row b, column d. -/
theorem featn_apply (x0 : FVec Ideal S262144x256 .f32) (b : Fin 262144) (d : Fin 256) :
    val_main_v4 (F := Ideal) x0 (ix2 b d) = Cert.SegLoss.unit (fun d' => x0 (ix2 b d')) d := by
  rw [val_main_v4_apply, val_main_v3_apply, val_main_v2_apply, val_main_v0_apply, val_main_v1_apply, val_main_cst_apply,
    val_main_call0_v2_apply, val_main_call0_v1_apply, val_main_call0_cst_apply]
  simp only [Ideal.hostDivf_def, Ideal.maximumf_def, Ideal.hostUnary_sqrt_def, Ideal.ofBits_def, Ideal.ofBits_zero_f32, zero_add]
  unfold Cert.SegLoss.unit Cert.SegLoss.cnorm Cert.SegLoss.epsv
  refine congrArg (fun t => Ideal.div (x0 (ix2 b d)) (max (Ideal.sqrt t) (Ideal.ofBits .f32 0x2B8CBCCC#32)))
    (Finset.sum_congr rfl fun k _ => ?_)
  have e : idx_main_call0_v1 (idx_main_call0_v2 (idx_main_v3 (ix2 b d))) k = ix2 b k :=
    funext fun a => Fin.ext (by match a with | ⟨0, _⟩ => rfl | ⟨1, _⟩ => rfl)
  rw [val_main_call0_v0_apply, Ideal.mulf_def, e]

/-- The class totals at class k, column d. -/
theorem sums_apply (x0 : FVec Ideal S262144x256 .f32) (x1 : IVec S262144 32) (k : Fin 1000) (d : Fin 256) :
    val_main_v7 (F := Ideal) x0 x1 (ix2 k d)
      = Cert.SegLoss.classSum (fun b d' => x0 (ix2 b d')) (fun b => x1 (ix1 b)) k d := by
  unfold val_main_v7 Cert.SegLoss.classSum
  refine (scatterAdd_sums_apply _ _ _ k d).trans ?_
  have hz : val_main_v5 (F := Ideal) (ix2 k d) = 0 := by
    rw [val_main_v5_apply]; exact Ideal.ofBits_zero_f32
  have hl : ∀ b : Fin 262144, val_main_v6 (F := Ideal) x1 (ix2 b (0 : Fin 1)) = x1 (ix1 b) := fun b => by
    rw [val_main_v6_apply]
    exact congrArg x1 (funext fun a => Fin.ext (by match a with | ⟨0, _⟩ => rfl))
  rw [hz, zero_add]
  simp only [hl]
  exact Finset.sum_congr rfl fun b _ => featn_apply x0 b d

/-- The class counts at class k. -/
theorem counts_apply (x1 : IVec S262144 32) (k : Fin 1000) :
    val_main_v11 (F := Ideal) x1 (ix1 k) = Cert.SegLoss.classCount (fun b => x1 (ix1 b)) k 1 := by
  unfold val_main_v11 Cert.SegLoss.classCount
  refine (scatterAdd_counts_apply _ _ _ k).trans ?_
  have hz : val_main_v9 (F := Ideal) (ix1 k) = 0 := by
    rw [val_main_v9_apply]; exact Ideal.ofBits_zero_f32
  have hl : ∀ b : Fin 262144, val_main_v10 (F := Ideal) x1 (ix2 b (0 : Fin 1)) = x1 (ix1 b) := fun b => by
    rw [val_main_v10_apply]
    exact congrArg x1 (funext fun a => Fin.ext (by match a with | ⟨0, _⟩ => rfl))
  have h1 : ∀ b : Fin 262144, val_main_v8 (F := Ideal) (ix1 b) = 1 := fun b => by
    rw [val_main_v8_apply]
    show Ideal.ofBits .f32 0x3F800000#32 = 1
    simp [Ideal.ofBits, Ideal.ieee, -EReal.coe_mul]; norm_num
  rw [hz, zero_add]
  simp only [hl, h1]

end Cert.ReferenceIdeal.SegValue

end
-- ==== Proof.RLogp.lean ====
/-
  The reference's log-probabilities at one entry.  Its logits are the inner products of the normalised feature rows with
  the updated class rows (a product with the transposed table), divided by the temperature; the log-probability of
  class k for row b is the logit shifted by the row's largest logit (a fold of max from −∞) less the logarithm of the sum
  over the classes of the exponentials of the shifted logits.
-/
import proofs.«407345_j1580547965106_3_alg».proof.Proof.RefRead
import proofs.«407345_j1580547965106_3_alg».proof.Proof.RSeg
import proofs.«407345_j1580547965106_3_alg».proof.Proof.Spec
import Idealize.ShloMosaic.PureOps.Ideal.Laws
import Idealize.ShloMosaic.Lib.ValueIdx
import Idealize.ShloMosaic.Lib.Pipeline.Value

noncomputable section

namespace Cert.ReferenceIdeal.LogpValue

open Cert.ReferenceIdeal Cert.ReferenceIdeal.Gen Cert.ReferenceIdeal.ReadP
open Idealize.ShloMosaic Idealize.ShloMosaic.ValueIdx

/-- Row b's logit for class k. -/
theorem logit_apply (x0 : FVec Ideal S262144x256 .f32) (x1 : IVec S262144 32) (x2 : FVec Ideal S1000x256 .f32)
    (b : Fin 262144) (k : Fin 1000) :
    val_main_v46 (F := Ideal) x0 x1 x2 (ix2 b k)
      = Cert.SegLoss.logitR (fun d => x0 (ix2 b d)) (fun k' d => val_main_v42 (F := Ideal) x0 x1 x2 (ix2 k' d)) k := by
  rw [val_main_v46_apply, val_main_v45_apply, val_main_cst_10_apply, val_main_v44_apply]
  unfold Cert.SegLoss.logitR
  refine congrArg₂ Ideal.div ?_ rfl
  refine Finset.sum_congr rfl fun d _ => ?_
  have el : lidx_main_v44 (ix2 b k) d = ix2 b d :=
    funext fun a => Fin.ext (by match a with | ⟨0, _⟩ => rfl | ⟨1, _⟩ => rfl)
  have er : idx_main_v43 (ridx_main_v44 (ix2 b k) d) = ix2 k d :=
    funext fun a => Fin.ext (by match a with | ⟨0, _⟩ => rfl | ⟨1, _⟩ => rfl)
  rw [el, val_main_v43_apply, er, Cert.ReferenceIdeal.SegValue.featn_apply]

/-- The index over row r with column k put back is (r, k). -/
theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The word of −∞ is the bottom of the extended reals. -/
theorem negInf_eq : Ideal.ofBits .f32 0xFF800000#32 = (⊥ : EReal) := by simp [Ideal.ofBits, Ideal.ieee]

/-- A fold of max along axis 1 of a two-axis array, at row r, is the fold of max over the row's entries. -/
theorem hostReduce_max_row {m n : Nat} {u : Shape} (x : FVec Ideal ⟨2, ![m, n]⟩ .f32) (init : FVec Ideal u .f32)
    (h' : (⟨2, ![m, n]⟩ : Shape).ReducesTo [1] (⟨1, ![m]⟩ : Shape))
    (h : (⟨2, ![m, n]⟩ : Shape).Reduces [1] (⟨1, ![m]⟩ : Shape)) (hu : 0 < u.numel) (r : Fin m) :
    Host.reduce FloatOps.maximumf x init h' hu (ix1 r)
      = (Finset.univ : Finset (Fin n)).fold max (init (Shape.Idx.first hu)) (fun k => x (ix2 r k)) := by
  rw [Host.reduce_eq_fold_single FloatOps.maximumf x _ h' h hu]
  have hf : (x ∘ h.lift (ix1 r)) = fun k : Fin n => x (ix2 r k) := funext fun k => congrArg x (lift_row h r k)
  exact congrArg (fun f => Finset.fold max (init (Shape.Idx.first hu)) f (Finset.univ : Finset (Fin n))) hf

/-- Dropping axis 1 of the logits' shape leaves the batch axis. -/
theorem reduces_rows : S262144x1000.Reduces [1] S262144 := by decide

/-- The fold of max from −∞ along row b is the largest of the row's logits. -/
theorem fold_apply (x0 : FVec Ideal S262144x256 .f32) (x1 : IVec S262144 32) (x2 : FVec Ideal S1000x256 .f32)
    (b : Fin 262144) :
    val_main_call3_v0 (F := Ideal) x0 x1 x2 (ix1 b)
      = Cert.SegLoss.rowMax (fun k => val_main_v46 (F := Ideal) x0 x1 x2 (ix2 b k)) := by
  unfold val_main_call3_v0 Cert.SegLoss.rowMax
  generalize val_main_v46 (F := Ideal) x0 x1 x2 = y
  have key := hostReduce_max_row (m := 262144) (n := 1000) y (val_main_call3_cst (F := Ideal)) reducesTo_S262144x1000_S262144_d1 reduces_rows h_S_ b
  rw [key]
  have hb : (val_main_call3_cst (F := Ideal)) (Shape.Idx.first h_S_) = (⊥ : EReal) := negInf_eq
  rw [hb]

/-- The row's largest logit, clamped below by −∞ and spread back over the row, at (b, k). -/
theorem shift_apply (x0 : FVec Ideal S262144x256 .f32) (x1 : IVec S262144 32) (x2 : FVec Ideal S1000x256 .f32)
    (b : Fin 262144) (k : Fin 1000) :
    val_main_call3_v4 (F := Ideal) x0 x1 x2 (ix2 b k)
      = Cert.SegLoss.rowMax (fun k' => val_main_v46 (F := Ideal) x0 x1 x2 (ix2 b k')) := by
  rw [val_main_call3_v4_apply, val_main_call3_v3_apply, val_main_call3_v2_apply, val_main_call3_v1_apply,
    val_main_call3_cst_0_apply]
  have e : idx_main_call3_v3 (idx_main_call3_v4 (ix2 b k)) = ix1 b :=
    funext fun a => Fin.ext (by match a with | ⟨0, _⟩ => rfl)
  rw [e, fold_apply, Ideal.maximumf_def]
  show max (Ideal.ofBits .f32 0xFF800000#32) _ = _
  rw [negInf_eq]
  exact max_eq_right bot_le

/-- The shifted logit at (b, k). -/
theorem shifted_apply (x0 : FVec Ideal S262144x256 .f32) (x1 : IVec S262144 32) (x2 : FVec Ideal S1000x256 .f32)
    (b : Fin 262144) (k : Fin 1000) :
    val_main_call3_v5 (F := Ideal) x0 x1 x2 (ix2 b k)
      = val_main_v46 (F := Ideal) x0 x1 x2 (ix2 b k)
        - Cert.SegLoss.rowMax (fun k' => val_main_v46 (F := Ideal) x0 x1 x2 (ix2 b k')) := by
  rw [val_main_call3_v5_apply, shift_apply, Ideal.subf_def]

/-- The logarithm of the row's sum of exponentials, spread back over the row, at (b, k). -/
theorem lse_apply (x0 : FVec Ideal S262144x256 .f32) (x1 : IVec S262144 32) (x2 : FVec Ideal S1000x256 .f32)
    (b : Fin 262144) (k : Fin 1000) :
    val_main_call3_v10 (F := Ideal) x0 x1 x2 (ix2 b k)
      = Cert.SegLoss.lse (fun k' => val_main_v46 (F := Ideal) x0 x1 x2 (ix2 b k')) := by
  rw [val_main_call3_v10_apply, val_main_call3_v9_apply, val_main_call3_v8_apply, val_main_call3_v7_apply,
    val_main_call3_cst_1_apply]
  have e : idx_main_call3_v8 (idx_main_call3_v10 (ix2 b k)) = ix1 b :=
    funext fun a => Fin.ext (by match a with | ⟨0, _⟩ => rfl)
  have e' : ∀ k' : Fin 1000, idx_main_call3_v7 (ix1 b) k' = ix2 b k' := fun k' =>
    funext fun a => Fin.ext (by match a with | ⟨0, _⟩ => rfl | ⟨1, _⟩ => rfl)
  rw [e, Ideal.hostUnary_log_def]
  unfold Cert.SegLoss.lse
  refine congrArg Ideal.log ?_
  show Ideal.ofBits .f32 0x00000000#32 + _ = _
  rw [Ideal.ofBits_zero_f32, zero_add]
  refine Finset.sum_congr rfl fun k' _ => ?_
  rw [e', val_main_call3_v6_apply, shifted_apply, Ideal.hostUnary_exp_def]

/-- Row b's log-probability of class k. -/
theorem logp_apply (x0 : FVec Ideal S262144x256 .f32) (x1 : IVec S262144 32) (x2 : FVec Ideal S1000x256 .f32)
    (b : Fin 262144) (k : Fin 1000) :
    val_main_v47 (F := Ideal) x0 x1 x2 (ix2 b k)
      = Cert.SegLoss.logp (Cert.SegLoss.logitR (fun d => x0 (ix2 b d)) (fun k' d => val_main_v42 (F := Ideal) x0 x1 x2 (ix2 k' d))) k := by
  have hrow : (fun k' => val_main_v46 (F := Ideal) x0 x1 x2 (ix2 b k'))
      = Cert.SegLoss.logitR (fun d => x0 (ix2 b d)) (fun k' d => val_main_v42 (F := Ideal) x0 x1 x2 (ix2 k' d)) :=
    funext fun k' => logit_apply x0 x1 x2 b k'
  rw [val_main_v47_apply, shifted_apply, lse_apply, Ideal.subf_def, hrow, logit_apply]
  unfold Cert.SegLoss.logp
  rfl

end Cert.ReferenceIdeal.LogpValue

end
-- ==== Proof.RLoss.lean ====
/-
  The reference's loss.  Its logits are the inner products of the normalised feature rows with the updated class rows,
  divided by the temperature; its log-probabilities the logits shifted by the row's maximum less the logarithm of the
  sum of the exponentials of the shifted logits; from every row it takes the log-probability of the row's label
  (a label in range is read as it is: neither wrapped nor replaced by the fill value), sums them, divides by the
  batch size and negates.
-/
import proofs.«407345_j1580547965106_3_alg».proof.Proof.RefRead
import proofs.«407345_j1580547965106_3_alg».proof.Proof.RSeg
import proofs.«407345_j1580547965106_3_alg».proof.Proof.RLogp
import proofs.«407345_j1580547965106_3_alg».proof.Proof.Spec
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.LossValue

open Cert.ReferenceIdeal Cert.ReferenceIdeal.Gen Cert.ReferenceIdeal.ReadP
open Idealize.ShloMosaic Idealize.ShloMosaic.ValueIdx

local notation "gd" => gather_S262144x1000_S262144x1x1_S262144x1_n_1_0_0_1_2_11

/-! ## Label words below 1000 as signed words -/

/-- Every index of the label vector is a row, so every label word is below 1000. -/
theorem lab_lt (x1 : IVec S262144 32) (h : ∀ b : Fin 262144, (x1 (ix1 b)).toNat < 1000) (j : S262144.Idx) :
    (x1 j).toNat < 1000 := by
  have e : j = ix1 (j 0) := by
    funext a
    match a with
    | ⟨0, _⟩ => rfl
  rw [e]; exact h _

/-- A word below 1000 is not negative as a signed word. -/
theorem slt_zero_of_lt {w : BitVec 32} (hw : w.toNat < 1000) : IntOp.cmpi .slt w 0#32 = 0#1 :=
  eq_zero_of_ne_one (fun e => by
    have := (StableHlo.Predicate.slt_iff_toNat (a := w) (b := 0#32) (by omega) (by decide)).1 e
    simp at this)

/-- A word below 1000 is at least 0 as a signed word. -/
theorem sge_zero_of_lt {w : BitVec 32} (hw : w.toNat < 1000) : IntOp.cmpi .sge w 0#32 = 1#1 :=
  (StableHlo.Predicate.sge_iff_toNat (a := w) (b := 0#32) (by omega) (by decide)).2 (by simp)

/-- A word below 1000 is at most 999 as a signed word. -/
theorem sle_999_of_lt {w : BitVec 32} (hw : w.toNat < 1000) : IntOp.cmpi .sle w 999#32 = 1#1 :=
  (StableHlo.Predicate.sle_iff_toNat (a := w) (b := 999#32) (by omega) (by decide)).2 (by
    show w.toNat ≤ 999; omega)

/-- A word below 1000 read signed is its unsigned value. -/
theorem toInt_toNat_of_lt {w : BitVec 32} (hw : w.toNat < 1000) : w.toInt.toNat = w.toNat := by
  rw [StableHlo.Predicate.toInt_eq_toNat_of_lt (by omega)]; exact Int.toNat_natCast _

/-! ## The index word and the range test -/

/-- The wrapped index word is the label word: a label in range is not negative, so the wrap by 1000 is not taken. -/
theorem v4_apply (x1 : IVec S262144 32) (h : ∀ b : Fin 262144, (x1 (ix1 b)).toNat < 1000) (i : S262144x1.Idx) :
    val_main_call4_v4 (F := Ideal) x1 i = x1 (idx_main_v48 i) := by
  rw [val_main_call4_v4_apply, val_main_call4_v1_apply, val_main_v48_apply, val_main_call4_v0_apply,
    val_main_call4_c_apply, slt_zero_of_lt (lab_lt x1 h _), select_zero]

/-- The start indices (the index words with a unit axis appended) are the label words. -/
theorem v5_apply (x1 : IVec S262144 32) (h : ∀ b : Fin 262144, (x1 (ix1 b)).toNat < 1000) (i : S262144x1x1.Idx) :
    val_main_call4_v5 (F := Ideal) x1 i = x1 (idx_main_v48 (idx_main_call4_v5 i)) := by
  rw [val_main_call4_v5_apply, v4_apply x1 h]

/-- Row b's start index is row b's label word. -/
theorem v5_row (x1 : IVec S262144 32) (h : ∀ b : Fin 262144, (x1 (ix1 b)).toNat < 1000) (b : Fin 262144) :
    val_main_call4_v5 (F := Ideal) x1 (ix3 b 0 0) = x1 (ix1 b) := by
  rw [v5_apply x1 h]
  congr 1
  funext a
  match a with
  | ⟨0, _⟩ => exact Fin.ext (by show ((b.val * 1 + 0) * 1 + 0) / 1 = b.val; omega)

/-- The range test 0 ≤ index ≤ 999 holds at every row. -/
theorem v11_apply (x1 : IVec S262144 32) (h : ∀ b : Fin 262144, (x1 (ix1 b)).toNat < 1000) (i : S262144x1x1.Idx) :
    val_main_call4_v11 (F := Ideal) x1 i = 1#1 := by
  rw [val_main_call4_v11_apply, val_main_call4_v7_apply, val_main_call4_v10_apply, v5_apply x1 h,
    val_main_call4_v6_apply, val_main_call4_c_2_apply, val_main_call4_v9_apply, val_main_call4_v8_apply,
    val_main_call4_c_1_apply, sge_zero_of_lt (lab_lt x1 h _), sle_999_of_lt (lab_lt x1 h _)]
  rfl

/-- A left fold by and over one-bit words that are all 1, from 1, is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- The range test folded over the unit axis is still 1 at every row. -/
theorem v12_apply (x1 : IVec S262144 32) (h : ∀ b : Fin 262144, (x1 (ix1 b)).toNat < 1000) (j : S262144x1.Idx) :
    val_main_call4_v12 (F := Ideal) x1 j = 1#1 := by
  unfold val_main_call4_v12
  rw [Host.reduce_eq_foldl]
  exact foldl_andi_one _ (v11_apply x1 h) _

/-! ## The gather -/

/-- The gather at row b reads the operand at (b, k), k the start index of row b read signed, when that is in range:
    axis 0 is a batching axis (start 0, the row's own coordinate), axis 1 the collapsed axis the start index names
    (clamped into [0, 999], which leaves an index in range as it is). -/
theorem gather_row {α : Type} (x : S262144x1000.Idx → α) (idx : IVec S262144x1x1 32) (b : Fin 262144) (k : Fin 1000)
    (hk : (idx (ix3 b 0 0)).toInt.toNat = k.val) :
    Host.gather gd x idx (ix2 b 0) = x (ix2 b k) := by
  unfold Host.gather
  congr 1
  funext a
  refine Fin.ext ?_
  match a with
  | ⟨0, _⟩ =>
    show GatherDims.start gd (ix2 b 0) idx 0 + GatherDims.batchCoord gd (ix2 b 0) 0
      + GatherDims.offCoord gd (ix2 b 0) 0 = b.val
    have hb : (0 : Fin 2) ∈ GatherDims.operandBatchingDims gd := List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb, Nat.add_zero, Nat.zero_add]
    rfl
  | ⟨1, _⟩ =>
    show GatherDims.start gd (ix2 b 0) idx 1 + GatherDims.batchCoord gd (ix2 b 0) 1
      + GatherDims.offCoord gd (ix2 b 0) 1 = k.val
    have hb : (1 : Fin 2) ∉ GatherDims.operandBatchingDims gd :=
      fun h => absurd (List.mem_singleton.mp h) (by decide)
    have hk' : (1 : Fin 2) ∉ GatherDims.sKept gd :=
      fun h => ((GatherDims.mem_sKept _ _).mp h).1 (List.mem_singleton.mpr rfl)
    have hm : (1 : Fin 2) ∈ GatherDims.startIndexMap gd := List.mem_singleton.mpr rfl
    rw [GatherDims.batchCoord_eq_zero _ _ _ hb, GatherDims.offCoord_eq_zero _ _ _ hk']
    simp only [Nat.add_zero]
    unfold GatherDims.start
    rw [dif_pos hm]
    have hsi : GatherDims.siIdx gd (ix2 b 0) ⟨List.idxOf (1 : Fin 2) (GatherDims.startIndexMap gd),
        List.idxOf_lt_length_iff.2 hm⟩ = ix3 b 0 0 := by
      funext c; refine Fin.ext ?_
      match c with
      | ⟨0, _⟩ => rfl
      | ⟨1, _⟩ => rfl
      | ⟨2, _⟩ => rfl
    rw [hsi, hk]
    show min k.val (1000 - 1) = k.val
    exact Nat.min_eq_left (by have := k.isLt; omega)

/-- The gathered column at row b is the log-probability table at (b, row b's label). -/
theorem v13_row (x0 : FVec Ideal S262144x256 .f32) (x1 : IVec S262144 32) (x2 : FVec Ideal S1000x256 .f32)
    (h : ∀ b : Fin 262144, (x1 (ix1 b)).toNat < 1000) (b : Fin 262144) :
    val_main_call4_v13 (F := Ideal) x0 x1 x2 (ix2 b 0)
      = val_main_v47 (F := Ideal) x0 x1 x2 (ix2 b ⟨(x1 (ix1 b)).toNat, h b⟩) := by
  unfold val_main_call4_v13
  exact gather_row _ _ b ⟨(x1 (ix1 b)).toNat, h b⟩ (by rw [v5_row x1 h b]; exact toInt_toNat_of_lt (h b))

/-- What the reference takes from row b: the log-probability of the row's label (the fill value is switched off). -/
theorem v49_row (x0 : FVec Ideal S262144x256 .f32) (x1 : IVec S262144 32) (x2 : FVec Ideal S1000x256 .f32)
    (h : ∀ b : Fin 262144, (x1 (ix1 b)).toNat < 1000) (b : Fin 262144) :
    val_main_v49 (F := Ideal) x0 x1 x2 (ix2 b 0)
      = Cert.SegLoss.logp
          (Cert.SegLoss.logitR (fun d => x0 (ix2 b d)) (fun k d => val_main_v42 (F := Ideal) x0 x1 x2 (ix2 k d)))
          ⟨(x1 (ix1 b)).toNat, h b⟩ := by
  rw [val_main_v49_apply, v12_apply x1 h, select_one, v13_row x0 x1 x2 h b]
  exact Cert.ReferenceIdeal.LogpValue.logp_apply x0 x1 x2 b _

/-! ## The sum, the mean and the sign -/

/-- The loss: the negated mean of the labels' log-probabilities. -/
theorem loss_apply (x0 : FVec Ideal S262144x256 .f32) (x1 : IVec S262144 32) (x2 : FVec Ideal S1000x256 .f32)
    (h : ∀ b : Fin 262144, (x1 (ix1 b)).toNat < 1000) :
    val_main_v52 (F := Ideal) x0 x1 x2 ix0
      = -(Ideal.div (∑ b : Fin 262144, Cert.SegLoss.logp
            (Cert.SegLoss.logitR (fun d => x0 (ix2 b d)) (fun k d => val_main_v42 (F := Ideal) x0 x1 x2 (ix2 k d)))
            ⟨(x1 (ix1 b)).toNat, h b⟩) Cert.SegLoss.batchv) := by
  rw [val_main_v52_apply, val_main_v51_apply, val_main_v50_apply, val_main_cst_11_apply, val_main_cst_12_apply]
  show -(Ideal.div (Ideal.ofBits .f32 0x00000000#32 + ∑ j, val_main_v49 (F := Ideal) x0 x1 x2 j) Cert.SegLoss.batchv) = _
  rw [Ideal.ofBits_zero_f32, zero_add, sum_idx2]
  simp only [Fin.sum_univ_one, Fin.isValue, v49_row x0 x1 x2 h]

end Cert.ReferenceIdeal.LossValue

end
-- ==== Proof.RMid.lean ====
/-
  The reference's updated class rows are the shared host computation applied to its class totals, its flags and the
  stored rows: its operations between the two scatters and the logits are that computation's, one for one.
-/
import proofs.«407345_j1580547965106_3_alg».proof.Proof.RefRead
import proofs.«407345_j1580547965106_3_alg».proof.Proof.Mid

noncomputable section

namespace Cert.ReferenceIdeal.MidValue

open Cert.ReferenceIdeal Cert.ReferenceIdeal.Gen Cert.ReferenceIdeal.ReadP Idealize.ShloMosaic

variable {F : FTy → Type} [FloatOps F]

/-- The second result as the shared computation of the totals, the flags and the stored rows. -/
theorem newMem_eq (x0 : (⟨S262144x256, .f32⟩ : BufTy).Contents (Elt F)) (x1 : (⟨S262144, .i32⟩ : BufTy).Contents (Elt F))
    (x2 : (⟨S1000x256, .f32⟩ : BufTy).Contents (Elt F)) :
    val_main_v42 (F := F) x0 x1 x2
      = Cert.SegLoss.newMem reducesTo_S1000x256_S1000_d1 h_S_ bcast_S1000_S1000x1_0 bcast_S_S1000x1 bcast_S1000x1_S1000x256_0_1
          (val_main_v7 (F := F) x0 x1) (val_main_v15 (F := F) x1) x2 := rfl

end Cert.ReferenceIdeal.MidValue

end
-- ==== Proof.SpecLaws.lean ====
/-
  The laws that join the two arrangements of the computation: the batch walked by halves, tiles and rows against the
  batch walked once; a sum masked by a class indicator against the sum over the rows of that class; a quotient by the
  temperature against a product with its reciprocal; and the mean of negations against the negation of the mean, which
  on the extended reals needs that no term is +∞ — true of a log-probability, whose shifted logit is at most 0 and whose
  sum of exponentials is at least 1 whenever the row's maximum is finite.
-/
import proofs.«407345_j1580547965106_3_alg».proof.Proof.Spec

noncomputable section

namespace Cert.SegLoss

open Idealize.ShloMosaic

/-! ## The laws that join the two arrangements -/

/-- The temperature's word has significand 13421773 and exponent −27: it is the real 13421773 / 2²⁷. -/
private theorem tempv_eq : tempv = ((13421773 / 134217728 : ℝ) : EReal) := by
  simp [tempv, Ideal.ofBits, Ideal.ieee, -EReal.coe_mul]; norm_num

/-- Dividing by the temperature's binary value is multiplying by its reciprocal, on every extended real. -/
theorem logitR_eq_logitK (x : Fin 256 → EReal) (nm : Fin 1000 → Fin 256 → EReal) : logitR x nm = logitK x nm := by
  funext k
  have h : (13421773 / 134217728 : ℝ) ≠ 0 := by norm_num
  rw [logitR, logitK, tempv_eq, Ideal.div_coe h, invT]
  norm_num

/-- A sum over m·n indices is the double sum over the pairs (a, b) ↦ b + n·a. -/
private theorem sum_fin_mul {m n : ℕ} (f : Fin (m * n) → EReal) :
    (∑ a : Fin m, ∑ b : Fin n, f (finProdFinEquiv (a, b))) = ∑ i, f i := by
  rw [← Fintype.sum_prod_type']
  exact Equiv.sum_comp finProdFinEquiv f

/-- Row (c, j, r) is the pairing of the pairing of (c, j) with r: (64 c + j) 2048 + r = r + 2048 (j + 64 c). -/
private theorem brow_eq (c : Fin 2) (j : Fin 64) (r : Fin 2048) :
    brow c j r = (finProdFinEquiv ((finProdFinEquiv (c, j) : Fin (2 * 64)), r) : Fin (2 * 64 * 2048)) := by
  apply Fin.ext
  simp [brow, finProdFinEquiv]
  ring

/-- The batch walked by halves, tiles and rows is the batch. -/
theorem sum_brow (f : Fin 262144 → EReal) : (∑ c : Fin 2, ∑ j : Fin 64, ∑ r : Fin 2048, f (brow c j r)) = ∑ b, f b := by
  have h1 : (∑ i : Fin (2 * 64 * 2048), f i) = ∑ b, f b := rfl
  rw [← h1, ← sum_fin_mul (m := 2 * 64) (n := 2048) f,
    ← sum_fin_mul (m := 2) (n := 64) (fun a => ∑ b : Fin 2048, f (finProdFinEquiv (a, b)))]
  refine Finset.sum_congr rfl fun c _ => Finset.sum_congr rfl fun j _ => Finset.sum_congr rfl fun r _ => ?_
  rw [brow_eq]

/-- A sum masked by the indicator is the sum over the rows the indicator selects. -/
theorem sum_hot_mul (lab : Fin 262144 → BitVec 32) (k : Fin 1000) (g : Fin 262144 → EReal) :
    (∑ b, hot (lab b) k * g b) = ∑ b ∈ Finset.univ.filter (fun b => lab b = BitVec.ofNat 32 k.val), g b := by
  rw [Finset.sum_filter]
  refine Finset.sum_congr rfl fun b _ => ?_
  unfold hot
  split_ifs <;> simp

/-- The two halves' shares make the class total. -/
theorem halfSum_add (feat : Fin 262144 → Fin 256 → EReal) (lab : Fin 262144 → BitVec 32) (k : Fin 1000) (d : Fin 256) :
    (∑ c : Fin 2, halfSum feat lab c k d) = classSum feat lab k d := by
  unfold halfSum classSum
  rw [sum_brow (fun b => hot (lab b) k * unit (feat b) d), sum_hot_mul]

/-- The two halves' shares make the class count. -/
theorem halfCount_add (lab : Fin 262144 → BitVec 32) (k : Fin 1000) :
    (∑ c : Fin 2, halfCount lab c k) = classCount lab k 1 := by
  unfold halfCount classCount
  rw [sum_brow (fun b => 1 * hot (lab b) k), ← sum_hot_mul]
  refine Finset.sum_congr rfl fun b _ => ?_
  rw [mul_comm]

/-- A label in range selects, by comparison with every class, the logit of its own class. -/
theorem pick_eq (s : Fin 1000 → EReal) (l : BitVec 32) (h : l.toNat < 1000) : pick s l = s ⟨l.toNat, h⟩ := by
  unfold pick
  rw [Finset.sum_eq_single (⟨l.toNat, h⟩ : Fin 1000)]
  · simp
  · intro k _ hk
    rw [if_neg]
    intro hl
    apply hk
    apply Fin.ext
    subst hl
    simp [BitVec.toNat_ofNat]
    have := k.isLt
    omega
  · intro hn; exact absurd (Finset.mem_univ _) hn

/-- An exponential is never negative: 0 at −∞, +∞ at +∞, a positive real between. -/
private theorem exp_nonneg (x : EReal) : 0 ≤ Ideal.exp x := by
  induction x using EReal.rec with
  | bot => simp
  | coe r => rw [Ideal.exp_coe]; exact_mod_cast (Real.exp_pos r).le
  | top => simp

/-- Every logit is at most the row's maximum. -/
private theorem le_rowMax (s : Fin 1000 → EReal) (k : Fin 1000) : s k ≤ rowMax s := by
  unfold rowMax
  rw [Finset.le_fold_max]
  exact Or.inr ⟨k, Finset.mem_univ k, le_rfl⟩

/-- A maximum other than −∞ is one of the logits. -/
private theorem rowMax_attained (s : Fin 1000 → EReal) (h : rowMax s ≠ ⊥) : ∃ k, s k = rowMax s := by
  have h1 : rowMax s ≤ ⊥ ∨ ∃ x ∈ (Finset.univ : Finset (Fin 1000)), rowMax s ≤ s x :=
    (Finset.le_fold_max (rowMax s)).1 (le_refl (rowMax s))
  rcases h1 with h1 | ⟨x, _, hx⟩
  · exact absurd (le_bot_iff.1 h1) h
  · exact ⟨x, le_antisymm (le_rowMax s x) hx⟩

/-- With a finite maximum the sum of the shifted exponentials holds the term exp 0 = 1 at the index that attains the
    maximum and no negative term, so it is at least 1 and its logarithm is not −∞. -/
private theorem lse_ne_bot (s : Fin 1000 → EReal) (r : ℝ) (hm : rowMax s = (r : EReal)) : lse s ≠ ⊥ := by
  obtain ⟨k, hk⟩ := rowMax_attained s (by rw [hm]; exact EReal.coe_ne_bot r)
  have h1 : Ideal.exp (s k - rowMax s) = 1 := by
    rw [hk, hm, ← EReal.coe_sub, sub_self, Ideal.exp_coe, Real.exp_zero, EReal.coe_one]
  have h2 : (1 : EReal) ≤ ∑ j, Ideal.exp (s j - rowMax s) := by
    rw [← h1]
    exact Finset.single_le_sum (f := fun j => Ideal.exp (s j - rowMax s)) (fun j _ => exp_nonneg _) (Finset.mem_univ k)
  unfold lse
  generalize (∑ j, Ideal.exp (s j - rowMax s)) = S at h2
  induction S using EReal.rec with
  | bot => exact absurd (le_bot_iff.1 h2) (by rw [← EReal.coe_one]; exact EReal.coe_ne_bot 1)
  | coe t =>
    have ht : (1 : ℝ) ≤ t := by exact_mod_cast h2
    rw [Ideal.log_coe, if_neg (by linarith)]
    exact EReal.coe_ne_bot _
  | top => simp

/-- A log-probability is never +∞: the shifted logit is at most 0 and the sum of exponentials at least 1 when the
    maximum is finite, and the whole is −∞ when the maximum is infinite. -/
theorem logp_ne_top (s : Fin 1000 → EReal) (l : Fin 1000) : logp s l ≠ ⊤ := by
  unfold logp
  have hl := le_rowMax s l
  induction hm : rowMax s using EReal.rec with
  | bot =>
    -- every logit is −∞, and −∞ less anything is −∞
    rw [hm] at hl
    rw [le_bot_iff.1 hl, EReal.bot_sub, EReal.bot_sub]
    exact bot_ne_top
  | coe r =>
    -- the logit is below +∞ and so is the negated finite maximum; the negated logarithm is below +∞ too
    have h1 : s l - (r : EReal) ≠ ⊤ := by
      rw [hm] at hl
      rw [sub_eq_add_neg]
      refine EReal.add_ne_top (ne_of_lt (lt_of_le_of_lt hl (EReal.coe_lt_top r))) ?_
      rw [← EReal.coe_neg]; exact EReal.coe_ne_top _
    have h2 : -(lse s) ≠ ⊤ := by
      rw [Ne, EReal.neg_eq_top_iff]; exact lse_ne_bot s r hm
    rw [sub_eq_add_neg]
    exact EReal.add_ne_top h1 h2
  | top =>
    -- anything less +∞ is −∞
    rw [EReal.sub_top, EReal.bot_sub]
    exact bot_ne_top

/-- Over any finite set, the negations of terms none of which is +∞ sum to the negation of their sum, and that sum is
    not +∞ either: −(x + y) = −x − y holds as soon as neither x nor y is +∞. -/
private theorem sum_neg_of_ne_top {ι : Type} (f : ι → EReal) (h : ∀ i, f i ≠ ⊤) (t : Finset ι) :
    (∑ i ∈ t, -f i) = -(∑ i ∈ t, f i) ∧ (∑ i ∈ t, f i) ≠ ⊤ := by
  classical
  induction t using Finset.induction_on with
  | empty => simp
  | insert a t ha ih =>
    obtain ⟨ih1, ih2⟩ := ih
    rw [Finset.sum_insert ha, Finset.sum_insert ha, ih1]
    refine ⟨?_, EReal.add_ne_top (h a) ih2⟩
    rw [EReal.neg_add (Or.inr ih2) (Or.inl (h a)), sub_eq_add_neg]

/-- The negations of terms none of which is +∞ sum to the negation of their sum. -/
theorem sum_zero_sub {ι : Type} [Fintype ι] (f : ι → EReal) (h : ∀ i, f i ≠ ⊤) : (∑ i, (0 - f i)) = -(∑ i, f i) := by
  rw [← (sum_neg_of_ne_top f h Finset.univ).1]
  refine Finset.sum_congr rfl fun i _ => ?_
  rw [sub_eq_add_neg, zero_add]

/-- The batch size's word is the real 2¹⁸ = 262144. -/
private theorem batchv_eq : batchv = ((262144 : ℝ) : EReal) := by
  simp [batchv, Ideal.ofBits, Ideal.ieee, -EReal.coe_mul]; norm_num

/-- The mean of the negations is the negation of the mean. -/
theorem div_batch_neg (x : EReal) : Ideal.div (-x) batchv = -(Ideal.div x batchv) := by
  have h : (262144 : ℝ) ≠ 0 := by norm_num
  rw [batchv_eq, Ideal.div_coe h, Ideal.div_coe h, neg_mul]

/-- The kernel's summed loss over the two halves, divided by the batch size, is the reference's negated mean of the
    log-probabilities of the labels, when every label is in range. -/
theorem loss_eq (feat : Fin 262144 → Fin 256 → EReal) (lab : Fin 262144 → BitVec 32) (nm : Fin 1000 → Fin 256 → EReal)
    (h : ∀ b, (lab b).toNat < 1000) :
    Ideal.div (∑ c : Fin 2, halfLoss feat lab nm c) batchv
      = -(Ideal.div (∑ b, logp (logitR (feat b) nm) ⟨(lab b).toNat, h b⟩) batchv) := by
  -- a row's loss is 0 less the log-probability of its label under the reference's logits
  have hrow : ∀ b, rowLossK (feat b) (lab b) nm = 0 - logp (logitR (feat b) nm) ⟨(lab b).toNat, h b⟩ := by
    intro b
    rw [rowLossK, pick_eq _ _ (h b), logitR_eq_logitK, logp]
  -- no log-probability is +∞, so the negations sum to the negated sum
  have hsum : (∑ b, rowLossK (feat b) (lab b) nm)
      = -(∑ b, logp (logitR (feat b) nm) ⟨(lab b).toNat, h b⟩) := by
    rw [← sum_zero_sub _ (fun b => logp_ne_top _ _)]
    exact Finset.sum_congr rfl fun b _ => hrow b
  unfold halfLoss
  rw [sum_brow (fun b => rowLossK (feat b) (lab b) nm), hsum, div_batch_neg]

end Cert.SegLoss

end
-- ==== Proof.PreFacts.lean ====
/-
  What the precondition says of the labels: every label word, read as a natural number, is below the number of classes.
  The printed predicate is a conjunction of three all-reductions; its third conjunct compares every label with 0 and
  with 1000 as signed words.
-/
import proofs.«407345_j1580547965106_3_alg».proof.Pre_finite_inputs
import Idealize.ShloMosaic.Lib.ReduceAll
import Idealize.ShloMosaic.Lib.StableHlo.Predicate
import Idealize.ShloMosaic.Lib.ValueIdx

noncomputable section

namespace Cert.Pre_finite_inputs.Decode

open Idealize.ShloMosaic Idealize.ShloMosaic.ValueIdx Cert.Pre_finite_inputs

variable [Cert.Pre_finite_inputs.Facts]

/-- The scalar shape has exactly one index, so an all-reduction into it has a single result position. -/
private instance subsingleton_scalar_idx : Subsingleton S_.Idx := ⟨fun a b => funext fun d => d.elim0⟩

/-- A 32-bit word whose signed value lies in [0, 1000) has sign bit clear, so its unsigned value is the same number. -/
private theorem toNat_lt_of_toInt (w : BitVec 32) (h0 : (0 : Int) ≤ w.toInt) (h1 : w.toInt < 1000) : w.toNat < 1000 := by
  rw [BitVec.toInt_eq_toNat_cond] at h0 h1
  have := w.isLt
  split at h0 <;> omega

/-- Under the precondition every label lies in [0, 1000). -/
theorem lab_range (x0 : FVec Ideal S262144x256 .f32) (x1 : IVec S262144 32) (x2 : FVec Ideal S1000x256 .f32)
    (h : Cert.Pre_finite_inputs.fn (F := Ideal) x0 x1 x2 = fun _ => 1#1) :
    ∀ b : Fin 262144, (x1 (ix1 b)).toNat < 1000 := by
  intro b
  -- the predicate at its one index: (finite x0 ∧ finite x2) ∧ all-labels-in-range
  have h0 := congrFun h ValueIdx.ix0
  dsimp only [Cert.Pre_finite_inputs.fn] at h0
  -- keep the third conjunct: the all-reduction by `and` of the per-label test is 1
  obtain ⟨-, h14⟩ := IntOp.andi_eq_one.1 h0
  -- so the per-label test is 1 at every label, in particular at label b
  have h13 := Host.reduce_andi_all _ _ _ _ _ h14 (ix1 b)
  -- the test is (label ≥ 0 signed) ∧ (label < 1000 signed)
  obtain ⟨hge, hlt⟩ := IntOp.andi_eq_one.1 h13
  have hge' := IntOp.cmpi_sge.1 hge
  have hlt' := IntOp.cmpi_slt.1 hlt
  -- a broadcast scalar constant reads as that constant at every position
  have e0 : broadcastInDim S262144 ![] Facts.bcast_S_S262144 (constantI S_ 32 0#32) (ix1 b) = 0#32 := rfl
  have e1 : broadcastInDim S262144 ![] Facts.bcast_S_S262144 (constantI S_ 32 1000#32) (ix1 b) = 1000#32 := rfl
  rw [e0] at hge'
  rw [e1] at hlt'
  exact toNat_lt_of_toInt _ (by simpa using hge') (by simpa using hlt')

end Cert.Pre_finite_inputs.Decode

end
-- ==== Proof.Bridge.lean ====
/-
  The two programs' results are one function of the arguments.

  The kernel's class totals, added over the two halves, are the reference's scatter result: at class k and column d
  both are the sum of the normalised rows labelled k.  The counts agree likewise, hence the 0/1 flags (the kernel
  reshapes the flag vector to a column where the reference broadcasts it: one function).  The updated class rows are
  then the same host computation of equal operands.  The kernel's summed loss over the halves, divided by the batch
  size, is the reference's negated mean log-probability of the labels, for labels in range.
-/
import proofs.«407345_j1580547965106_3_alg».proof.Proof.KRun
import proofs.«407345_j1580547965106_3_alg».proof.Proof.KHost
import proofs.«407345_j1580547965106_3_alg».proof.Proof.KSegStruct
import proofs.«407345_j1580547965106_3_alg».proof.Proof.KLossStruct
import proofs.«407345_j1580547965106_3_alg».proof.Proof.RSeg
import proofs.«407345_j1580547965106_3_alg».proof.Proof.RLoss
import proofs.«407345_j1580547965106_3_alg».proof.Proof.RMid
import proofs.«407345_j1580547965106_3_alg».proof.Proof.SpecLaws
import proofs.«407345_j1580547965106_3_alg».proof.Proof.PreFacts
import proofs.«407345_j1580547965106_3_alg».proof.Proof.LibColumn
import Idealize.ShloMosaic.Lib.Pipeline.Value
import Idealize.ShloMosaic.Lib.ValueIdx

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.HostValue

variable (m : (ℓ : Loc nD τ sig) → Buf (Elt Ideal) ℓ) (ρ : Dev nD → PrngReg)
variable [Cert.Pre_finite_inputs.Facts]

/-- The features, labels and stored class rows as launched. -/
abbrev A0 (c : Dev nD) : S262144x256.Idx → EReal := m ((c : Thread nD τ).loc main_arg0)
abbrev A1 (c : Dev nD) : S262144.Idx → BitVec 32 := m ((c : Thread nD τ).loc main_arg1)
abbrev A2 (c : Dev nD) : S1000x256.Idx → EReal := m ((c : Thread nD τ).loc main_arg2)

/-- The features and labels by coordinates. -/
abbrev fe (c : Dev nD) (b : Fin 262144) (d : Fin 256) : EReal := A0 m c (ix2 b d)
abbrev la (c : Dev nD) (b : Fin 262144) : BitVec 32 := A1 m c (ix1 b)

/-! ## What the launches find -/

theorem feat1 (c : Dev nD) : Cert.KernelIdeal.SegValue.featOf (V1 m ρ) c = fe m c :=
  funext fun b => funext fun d => congrFun (V1_arg0 m ρ c) (ix2 b d)

theorem lab1 (c : Dev nD) : Cert.KernelIdeal.SegValue.labOf (V1 m ρ) c = la m c :=
  funext fun b => (congrFun (V1_v0 m ρ c) (ix2 b (0 : Fin 1))).trans (Cert.LibColumn.shapeCast_a_a1_apply _ _ b 0)

theorem feat7 (c : Dev nD) : Cert.KernelIdeal.LossValue.featOf (V7 m ρ) c = fe m c :=
  funext fun b => funext fun d => congrFun (V7_arg0 m ρ c) (ix2 b d)

theorem lab7 (c : Dev nD) : Cert.KernelIdeal.LossValue.labOf (V7 m ρ) c = la m c :=
  funext fun b => (congrFun (V7_v0 m ρ c) (ix2 b (0 : Fin 1))).trans (Cert.LibColumn.shapeCast_a_a1_apply _ _ b 0)

/-! ## The kernel's host sums over the two halves, at an entry -/

theorem sumsOf_apply (sc : FVec Ideal S2x1000x256 .f32) (k : Fin 1000) (d : Fin 256) :
    sumsOf sc (ix2 k d) = ∑ c' : Fin 2, sc (ix3 c' k d) := by
  unfold sumsOf
  simp only [Host.reduceAdd, Ideal.hostReduceAdd_def]
  rw [Ideal.hostReduceAdd_single reducesTo_S2x1000x256_S1000x256_d0 (by decide)]
  rw [show (constant (F := Ideal) S_ .f32 0x00000000#32) (Shape.Idx.first h_S_) = 0 from Ideal.ofBits_zero_f32, zero_add]
  exact Finset.sum_congr rfl fun c' _ => congrArg sc (funext fun a => Fin.ext (by
    match a with | ⟨0, _⟩ => rfl | ⟨1, _⟩ => rfl | ⟨2, _⟩ => rfl))

theorem countsOf_apply (cc : FVec Ideal S2x1x1000 .f32) (k : Fin 1000) :
    countsOf cc (ix1 k) = ∑ c' : Fin 2, cc (ix3 c' (0 : Fin 1) k) := by
  unfold countsOf
  rw [shapeCast_apply _ shapeCasts_S1x1000_S1000 (ix1 k) (ix2 (0 : Fin 1) k) (by
    rw [Shape.rowMajor_val_two, Shape.rowMajor_val_one]; show 0 * 1000 + k.val = k.val; omega)]
  simp only [Host.reduceAdd, Ideal.hostReduceAdd_def]
  rw [Ideal.hostReduceAdd_single reducesTo_S2x1x1000_S1x1000_d0 (by decide)]
  rw [show (constant (F := Ideal) S_ .f32 0x00000000#32) (Shape.Idx.first h_S_) = 0 from Ideal.ofBits_zero_f32, zero_add]
  exact Finset.sum_congr rfl fun c' _ => congrArg cc (funext fun a => Fin.ext (by
    match a with | ⟨0, _⟩ => rfl | ⟨1, _⟩ => rfl | ⟨2, _⟩ => rfl))

theorem lossOf_apply (lc : FVec Ideal S2x1x1 .f32) :
    lossOf lc ix0 = Ideal.div (∑ c' : Fin 2, lc (ix3 c' (0 : Fin 1) (0 : Fin 1))) Cert.SegLoss.batchv := by
  unfold lossOf
  show Ideal.div (shapeCast S_ (Host.reduceAdd lc (constant (F := Ideal) S_ .f32 0x00000000#32) reducesTo_S2x1x1_S1x1_d0 h_S_) shapeCasts_S1x1_S_ ix0) Cert.SegLoss.batchv = _
  congr 1
  rw [shapeCast_apply _ shapeCasts_S1x1_S_ ix0 (ix2 (0 : Fin 1) (0 : Fin 1)) (by
    rw [Shape.rowMajor_val_two]; rfl)]
  simp only [Host.reduceAdd, Ideal.hostReduceAdd_def]
  rw [Ideal.hostReduceAdd_single reducesTo_S2x1x1_S1x1_d0 (by decide)]
  rw [show (constant (F := Ideal) S_ .f32 0x00000000#32) (Shape.Idx.first h_S_) = 0 from Ideal.ofBits_zero_f32, zero_add]
  exact Finset.sum_congr rfl fun c' _ => congrArg lc (funext fun a => Fin.ext (by
    match a with | ⟨0, _⟩ => rfl | ⟨1, _⟩ => rfl | ⟨2, _⟩ => rfl))

/-! ## Totals, counts and flags against the reference's -/

theorem sums_eq (c : Dev nD) :
    sumsOf (F := Ideal) ((dat0 (V1 m ρ) c).arrAt 2 cfg0.N)
      = (Cert.ReferenceIdeal.ReadP.val_main_v7 (F := Ideal) (A0 m c) (A1 m c) : FVec Ideal S1000x256 .f32) := by
  funext i
  obtain ⟨k, d, rfl⟩ : ∃ (k : Fin 1000) (d : Fin 256), i = ix2 k d := ⟨i 0, i 1, eq_ix2 i⟩
  rw [sumsOf_apply, Cert.ReferenceIdeal.SegValue.sums_apply, ← Cert.SegLoss.halfSum_add]
  refine Finset.sum_congr rfl fun c' _ => ?_
  rw [Cert.KernelIdeal.SegValue.sums_arr, feat1, lab1]

theorem counts_eq (c : Dev nD) (k : Fin 1000) :
    countsOf (F := Ideal) ((dat0 (V1 m ρ) c).arrAt 3 cfg0.N) (ix1 k)
      = (Cert.ReferenceIdeal.ReadP.val_main_v11 (F := Ideal) (A1 m c) : FVec Ideal S1000 .f32) (ix1 k) := by
  rw [countsOf_apply, Cert.ReferenceIdeal.SegValue.counts_apply, ← Cert.SegLoss.halfCount_add]
  refine Finset.sum_congr rfl fun c' _ => ?_
  rw [Cert.KernelIdeal.SegValue.counts_arr, lab1]

theorem flags_eq (c : Dev nD) :
    flagsOf (F := Ideal) ((dat0 (V1 m ρ) c).arrAt 3 cfg0.N)
      = (Cert.ReferenceIdeal.ReadP.val_main_v15 (F := Ideal) (A1 m c) : FVec Ideal S1000x1 .f32) := by
  funext i
  obtain ⟨k, u, rfl⟩ : ∃ (k : Fin 1000) (u : Fin 1), i = ix2 k u := ⟨i 0, i 1, eq_ix2 i⟩
  rw [Cert.ReferenceIdeal.ReadP.val_main_v15_apply, Cert.ReferenceIdeal.ReadP.val_main_v14_apply,
    Cert.ReferenceIdeal.ReadP.val_main_v13_apply]
  unfold flagsOf
  rw [Cert.LibColumn.shapeCast_a_a1_apply]
  show FloatOps.uitofp .f32 (FloatOps.cmpf .ogt (countsOf _ (ix1 k)) _) = FloatOps.uitofp .f32 (FloatOps.cmpf .ogt _ _)
  rw [counts_eq]
  have ei : Cert.ReferenceIdeal.ReadP.idx_main_v15 (ix2 k u) = ix1 k :=
    funext fun a => Fin.ext (by match a with | ⟨0, _⟩ => rfl)
  rw [ei]
  rfl

/-! ## The two results -/

/-- The kernel's second result is the reference's. -/
theorem nm_eq (c : Dev nD) :
    W9 m ρ c (Proc.devRef .tc main_v35) = Cert.ReferenceIdeal.ReadP.val_main_v42 (F := Ideal) (A0 m c) (A1 m c) (A2 m c) := by
  rw [W9_v35, Cert.ReferenceIdeal.MidValue.newMem_eq]
  unfold newMemK
  rw [sums_eq, flags_eq]

theorem tab7 (c : Dev nD) : Cert.KernelIdeal.LossValue.tabOf (V7 m ρ) c
    = fun k d => Cert.ReferenceIdeal.ReadP.val_main_v42 (F := Ideal) (A0 m c) (A1 m c) (A2 m c) (ix2 k d) :=
  funext fun k => funext fun d => by
    show (V7 m ρ c main_v36 : S1000x256.Idx → EReal) (ix2 k d) = _
    rw [V7_v36, ← W9_v35, nm_eq]
    rfl

set_option maxHeartbeats 2000000 in
/-- The kernel's first result is the reference's, for labels in range. -/
theorem loss_eq (c : Dev nD)
    (hpre : Cert.Pre_finite_inputs.fn (F := Ideal) (m ((c.tc : Thread nD τ).loc main_arg0)) (m ((c.tc : Thread nD τ).loc main_arg1))
      (m ((c.tc : Thread nD τ).loc main_arg2)) = fun _ => 1#1) :
    W9 m ρ c (Proc.devRef .tc main_v40) = Cert.ReferenceIdeal.ReadP.val_main_v52 (F := Ideal) (A0 m c) (A1 m c) (A2 m c) := by
  have hl : ∀ b : Fin 262144, (la m c b).toNat < 1000 := Cert.Pre_finite_inputs.Decode.lab_range _ _ _ hpre
  funext i
  obtain rfl : i = ix0 := eq_ix0 i
  rw [W9_v40, lossOf_apply, Cert.ReferenceIdeal.LossValue.loss_apply _ _ _ hl]
  rw [← Cert.SegLoss.loss_eq (fe m c) (la m c) _ hl]
  congr 1
  refine Finset.sum_congr rfl fun c' _ => ?_
  rw [Cert.KernelIdeal.LossValue.loss_arr, feat7, lab7, tab7]

end Cert.Proof.Bridge

end
-- ==== Proof.lean ====
/-
  The certificate: the kernel, its idealization and the reference each run to the end with their arguments unchanged;
  the idealization only names the inverse-temperature constant; and over the extended reals the idealized kernel and
  the idealized reference end with equal results.

  Both programs normalise the feature rows, total them by class, update and renormalise the class rows from the
  totals, and average the negated log-probabilities of the labels under the logits of the rows against the updated
  class rows.  The kernel totals by a product with the class indicators, half of the batch at a time, and selects the
  label's logit by comparison with every class; the reference totals by a scatter and selects by a gather, which agree
  for labels in range.  The kernel scales the logits by the reciprocal of the temperature's binary value where the
  reference divides by it, and sums negations where the reference negates the mean: equal because a log-probability is
  never +∞.
-/
import proofs.«407345_j1580547965106_3_alg».proof.Defs
import proofs.«407345_j1580547965106_3_alg».proof.Proof.Gen.Kernel
import proofs.«407345_j1580547965106_3_alg».proof.Proof.Gen.Kernel.Frame
import proofs.«407345_j1580547965106_3_alg».proof.Proof.Gen.KernelIdeal
import proofs.«407345_j1580547965106_3_alg».proof.Proof.Gen.KernelIdeal.Frame
import proofs.«407345_j1580547965106_3_alg».proof.Proof.Gen.ReferenceIdeal
import proofs.«407345_j1580547965106_3_alg».proof.Proof.Gen.Pre_finite_inputs
import proofs.«407345_j1580547965106_3_alg».proof.Proof.KRun
import proofs.«407345_j1580547965106_3_alg».proof.Proof.RefRead
import proofs.«407345_j1580547965106_3_alg».proof.Proof.RefStages
import proofs.«407345_j1580547965106_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.StageRun.run (F := Ideal) m ρ)

/-- The one named constant: the table gives the inverse temperature the reciprocal of the temperature's binary value. -/
theorem preserves : Cert.preserves_Kernel_KernelIdeal :=
  IdealRules.named_const.statement Cert.KernelIdeal.κ "inv_temp" .f32 0x41200000#32 ((134217728 / 13421773 : ℝ) : EReal) rfl

/-- Both runs end at the reference's two stages of the (agreeing) arguments. -/
theorem algebraic : Cert.algebraic_KernelIdeal_ReferenceIdeal := by
  intro m ρ m' ρ' hpre hagree
  refine ⟨fun c => Cert.ReferenceIdeal.ReadP.val_main_v52 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.ReferenceIdeal.ReadP.val_main_v42 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.Proof.Bridge.loss_eq m ρ c (hpre c)), (h c).2.1.trans (Cert.Proof.Bridge.nm_eq m ρ c), (h c).2.2⟩)
      (Cert.KernelIdeal.HandRun.run (F := Ideal) m ρ)
  · refine (θ_run Cert.ReferenceIdeal.defs _ _).mono (fun _ h c => ⟨(h c).1.trans ?_, (h c).2.1.trans ?_, (h c).2.2⟩)
      (Cert.ReferenceIdeal.StageRun.run (F := Ideal) m' ρ')
    · rw [(hagree c).1, (hagree c).2.1, (hagree c).2.2]
    · rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
